-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S70839x64 : Shape := ⟨2, ![70839, 64]⟩
abbrev S2000000 : Shape := ⟨1, ![2000000]⟩
abbrev S_ : Shape := ⟨0, ![]⟩

class Facts : Prop where
  bcast_S_S70839x64 : S_.BroadcastsInDim S70839x64 (![] : Fin 0 → Fin S70839x64.rank)
  reducesTo_S70839x64_S_d0_1 : S70839x64.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S70839x64 .f32) (main_arg1 : FVec F S2000000 .f32) (main_arg2 : IVec S2000000 32) (main_arg3 : IVec S2000000 32) : IVec S_ 1 :=
  let main_v0 : FVec F S70839x64 .f32 := Host.absf main_arg0
  let main_cst : FVec F S_ .f32 := constant S_ .f32 0x7F800000#32
  let main_v1 : FVec F S70839x64 .f32 := broadcastInDim S70839x64 ![] bcast_S_S70839x64 main_cst
  let main_v2 : IVec S70839x64 1 := cmpf .olt main_v0 main_v1
  let main_c : IVec S_ 1 := constantI S_ 1 1#1
  let main_v3 : IVec S_ 1 := (fun x v => Host.reduce IntOp.andi x v reducesTo_S70839x64_S_d0_1 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_c_2 : IVec S_ 32 := constantI S_ 32 0#32
  let main_v9 : IVec S2000000 32 := broadcastInDim S2000000 ![] bcast_S_S2000000 main_c_2
  let main_v10 : IVec S2000000 1 := cmpi .sge main_arg2 main_v9
  let main_c_3 : IVec S_ 1 := constantI S_ 1 1#1
  let main_v11 : IVec S_ 1 := (fun x v => Host.reduce IntOp.andi x v reducesTo_S2000000_S_d0 h_S_) main_v10 main_c_3
  let main_v12 : IVec S_ 1 := andi main_v8 main_v11
  let main_c_4 : IVec S_ 32 := constantI S_ 32 70839#32
  let main_v13 : IVec S2000000 32 := broadcastInDim S2000000 ![] bcast_S_S2000000 main_c_4
  let main_v14 : IVec S2000000 1 := cmpi .slt main_arg2 main_v13
  let main_c_5 : IVec S_ 1 := constantI S_ 1 1#1
  let main_v15 : IVec S_ 1 := (fun x v => Host.reduce IntOp.andi x v reducesTo_S2000000_S_d0 h_S_) main_v14 main_c_5
  fn_part1 (F := F) main_v12 main_v15
-- ==== Kernel.lean ====
abbrev S70839x64 : Shape := ⟨2, ![70839, 64]⟩
abbrev S2000000 : Shape := ⟨1, ![2000000]⟩
abbrev S_ : Shape := ⟨0, ![]⟩
abbrev S73728x64 : Shape := ⟨2, ![73728, 64]⟩
abbrev S2002944 : Shape := ⟨1, ![2002944]⟩
abbrev S2002944x64 : Shape := ⟨2, ![2002944, 64]⟩
abbrev S1024 : Shape := ⟨1, ![1024]⟩
abbrev S4096x64 : Shape := ⟨2, ![4096, 64]⟩
abbrev S1024x64 : Shape := ⟨2, ![1024, 64]⟩
abbrev S1024x1 : Shape := ⟨2, ![1024, 1]⟩
abbrev S1x4096 : Shape := ⟨2, ![1, 4096]⟩
abbrev S1024x4096 : Shape := ⟨2, ![1024, 4096]⟩
abbrev S4096 : Shape := ⟨1, ![4096]⟩

abbrev nBuf : Space → Nat
  | .hbm => 20
  | .vmem => 16
  | .smem => 0
  | _ => 0

abbrev bufTy : (tb : Table) → Fin (tcTables nBuf tb) → BufTy
  | .hbm, ⟨0, _⟩ => ⟨S70839x64, .f32⟩
  | .hbm, ⟨1, _⟩ => ⟨S2000000, .f32⟩
  | .hbm, ⟨2, _⟩ => ⟨S2000000, .i32⟩
  | .hbm, ⟨3, _⟩ => ⟨S2000000, .i32⟩
  | .hbm, ⟨4, _⟩ => ⟨S70839x64, .bf16⟩
  | .hbm, ⟨5, _⟩ => ⟨S_, .i32⟩
  | .hbm, ⟨6, _⟩ => ⟨S_, .bf16⟩
  | .hbm, ⟨7, _⟩ => ⟨S73728x64, .bf16⟩
  | .hbm, ⟨8, _⟩ => ⟨S_, .i32⟩
  | .hbm, ⟨9, _⟩ => ⟨S_, .i32⟩
  | .hbm, ⟨10, _⟩ => ⟨S2002944, .i32⟩
  | .hbm, ⟨11, _⟩ => ⟨S_, .i32⟩
  | .hbm, ⟨12, _⟩ => ⟨S_, .i32⟩
  | .hbm, ⟨13, _⟩ => ⟨S2002944, .i32⟩
  | .hbm, ⟨14, _⟩ => ⟨S_, .i32⟩
  | .hbm, ⟨15, _⟩ => ⟨S_, .f32⟩
  | .hbm, ⟨16, _⟩ => ⟨S2002944, .f32⟩
  | .hbm, ⟨17, _⟩ => ⟨S2002944x64, .bf16⟩
  | .hbm, ⟨18, _⟩ => ⟨S73728x64, .f32⟩
  | .hbm, ⟨19, _⟩ => ⟨S70839x64, .f32⟩
  | .local _ .vmem, ⟨0, _⟩ => ⟨S1024, .i32⟩
  | .local _ .vmem, ⟨1, _⟩ => ⟨S1024, .i32⟩
  | .local _ .vmem, ⟨2, _⟩ => ⟨S1024, .f32⟩
  | .local _ .vmem, ⟨3, _⟩ => ⟨S1024, .f32⟩
  | .local _ .vmem, ⟨4, _⟩ => ⟨S4096x64, .bf16⟩
  | .local _ .vmem, ⟨5, _⟩ => ⟨S4096x64, .bf16⟩
  | .local _ .vmem, ⟨6, _⟩ => ⟨S1024x64, .bf16⟩
  | .local _ .vmem, ⟨7, _⟩ => ⟨S1024x64, .bf16⟩
  | .local _ .vmem, ⟨8, _⟩ => ⟨S1024x64, .f32⟩
  | .local _ .vmem, ⟨9, _⟩ => ⟨S4096x64, .bf16⟩
  | .local _ .vmem, ⟨10, _⟩ => ⟨S4096x64, .bf16⟩
  | .local _ .vmem, ⟨11, _⟩ => ⟨S4096, .i32⟩
  | .local _ .vmem, ⟨12, _⟩ => ⟨S4096, .i32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | _, _ => ⟨S70839x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![1956, 18], ![false, false]⟩

def k0_cond2 (i : grid0.Coords) : BitVec 1 :=
  let arg1 : BitVec 32 := BitVec.ofNat 32 (i 1).val
  let c17_i32 : BitVec 32 := 17#32
  let v24 : BitVec 1 := Scalar.cmpi .eq arg1 c17_i32
  let v25 : BitVec 32 := Scalar.extui v24
  let c0_i32_7 : BitVec 32 := 0#32
  let v26 : BitVec 1 := Scalar.cmpi .ne v25 c0_i32_7
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![72, 489], ![false, false]⟩

def k1_cond2 (i : grid1.Coords) : BitVec 1 :=
  let arg1 : BitVec 32 := BitVec.ofNat 32 (i 1).val
  let c488_i32 : BitVec 32 := 488#32
  let v24 : BitVec 1 := Scalar.cmpi .eq arg1 c488_i32
  let v25 : BitVec 32 := Scalar.extui v24
  let c0_i32_7 : BitVec 32 := 0#32
  let v26 : BitVec 1 := Scalar.cmpi .ne v25 c0_i32_7
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bitsLt_bf16_f32 : FTy.bits .bf16 < FTy.bits .f32
  pads_S70839x64_S73728x64_028890_000 : S70839x64.Pads (![0, 0] : Fin 2 → Nat) ![2889, 0] ![0, 0] S73728x64
  h_S_ : 0 < S_.numel
  pads_S2000000_S2002944_029440 : S2000000.Pads (![0] : Fin 1 → Nat) ![2944] ![0] S2002944
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  iota_S1x4096_d1_w32 : S1x4096.Iotas .tc 32 [1]
  broadcasts_S1024x1_S1024x4096 : S1024x1.Broadcasts S1024x4096
  broadcasts_S1x4096_S1024x4096 : S1x4096.Broadcasts S1024x4096
  natLt_1_32 : 1 < 32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S1024x1_S1024x64 : S1024x1.Broadcasts S1024x64
  packedbf16_S1024x64_S1024x64_0_0 : (Rect.unit (s := S1024x64) ![0, 0] S1024x64.size inb_S1024x64_S1024x64_0_0).PackedRows (EltTy.packing .bf16)
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  iota_S1024x1_d0_w32 : S1024x1.Iotas .tc 32 [0]
  reduces_S1024x64_S1024 : S1024x64.Reduces [1] S1024
  slices_S73728x64_S70839x64_0_0 : S73728x64.Slices ![0, 0] S70839x64
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S2002944.size a
  hwx0_0 : ∀ i : grid0.Coords, EltTy.bits .i32 = 32 ∨ (Rect.block (s := S2002944) S1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S2002944.size a
  hwx0_1 : ∀ i : grid0.Coords, EltTy.bits .f32 = 32 ∨ (Rect.block (s := S2002944) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S73728x64.size a
  hwx0_2 : ∀ i : grid0.Coords, EltTy.bits .bf16 = 32 ∨ (Rect.block (s := S73728x64) S4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S2002944x64.size a
  hwx0_3 : ∀ i : grid0.Coords, EltTy.bits .bf16 = 32 ∨ (Rect.block (s := S2002944x64) S1024x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S2002944x64.size a
  hwx1_0 : ∀ i : grid1.Coords, EltTy.bits .bf16 = 32 ∨ (Rect.block (s := S2002944x64) S4096x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S2002944.size a
  hwx1_1 : ∀ i : grid1.Coords, EltTy.bits .i32 = 32 ∨ (Rect.block (s := S2002944) S4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S73728x64.size a
  hwx1_2 : ∀ i : grid1.Coords, EltTy.bits .f32 = 32 ∨ (Rect.block (s := S73728x64) S1024x64.size (cc1_transform_2 i) (hinb1_2 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_v2) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S70839x64 : Shape := ⟨2, ![70839, 64]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S70839 : Shape := ⟨1, ![70839]⟩
abbrev S70839x1 : Shape := ⟨2, ![70839, 1]⟩

abbrev nBuf : Space → Nat
  | .hbm => 30
  | .vmem => 0
  | .smem => 0
  | _ => 0

abbrev bufTy : (tb : Table) → Fin (tcTables nBuf tb) → BufTy
  | .hbm, ⟨0, _⟩ => ⟨S70839x64, .f32⟩
  | .hbm, ⟨1, _⟩ => ⟨S2000000, .f32⟩
  | .hbm, ⟨2, _⟩ => ⟨S2000000, .i32⟩
  | .hbm, ⟨3, _⟩ => ⟨S2000000, .i32⟩
  | .hbm, ⟨4, _⟩ => ⟨S_, .i32⟩
  | .hbm, ⟨5, _⟩ => ⟨S2000000, .i32⟩
  | .hbm, ⟨6, _⟩ => ⟨S2000000, .i1⟩
  | .hbm, ⟨7, _⟩ => ⟨S_, .i32⟩
  | .hbm, ⟨8, _⟩ => ⟨S2000000, .i32⟩
  | .hbm, ⟨9, _⟩ => ⟨S2000000, .i32⟩
  | .hbm, ⟨10, _⟩ => ⟨S2000000, .i32⟩
  | .hbm, ⟨11, _⟩ => ⟨S2000000x1, .i32⟩
  | .hbm, ⟨12, _⟩ => ⟨S2000000x64, .f32⟩
  | .hbm, ⟨13, _⟩ => ⟨S2000000x1, .f32⟩
  | .hbm, ⟨14, _⟩ => ⟨S2000000x64, .f32⟩
  | .hbm, ⟨15, _⟩ => ⟨S2000000x64, .f32⟩
  | .hbm, ⟨16, _⟩ => ⟨S_, .f32⟩
  | .hbm, ⟨17, _⟩ => ⟨S70839x64, .f32⟩
  | .hbm, ⟨18, _⟩ => ⟨S2000000x1, .i32⟩
  | .hbm, ⟨19, _⟩ => ⟨S70839x64, .f32⟩
  | .hbm, ⟨20, _⟩ => ⟨S70839x64, .f32⟩
  | .hbm, ⟨21, _⟩ => ⟨S_, .f32⟩
  | .hbm, ⟨22, _⟩ => ⟨S70839, .f32⟩
  | .hbm, ⟨23, _⟩ => ⟨S70839x1, .f32⟩
  | .hbm, ⟨24, _⟩ => ⟨S70839x1, .f32⟩
  | .hbm, ⟨25, _⟩ => ⟨S_, .f32⟩
  | .hbm, ⟨26, _⟩ => ⟨S70839x1, .f32⟩
  | .hbm, ⟨27, _⟩ => ⟨S70839x1, .f32⟩
  | .hbm, ⟨28, _⟩ => ⟨S70839x64, .f32⟩
  | .hbm, ⟨29, _⟩ => ⟨S70839x64, .f32⟩
  | _, _ => ⟨S70839x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S70839x64 : S_.BroadcastsInDim S70839x64 (![] : Fin 0 → Fin S70839x64.rank)
  reducesTo_S70839x64_S70839_d1 : S70839x64.ReducesTo [1] S70839
  h_S_ : 0 < S_.numel
  bcast_S70839_S70839x1_0 : S70839.BroadcastsInDim S70839x1 (![0] : Fin 1 → Fin S70839x1.rank)
  bcast_S_S70839x1 : S_.BroadcastsInDim S70839x1 (![] : Fin 0 → Fin S70839x1.rank)
  bcast_S70839x1_S70839x64_0_1 : S70839x1.BroadcastsInDim S70839x64 (![0, 1] : Fin 2 → Fin S70839x64.rank)
  gather_S70839x64_S2000000x1_S2000000x64_1_0_n_n_0_1_164_wf : GatherDims.WF S70839x64 S2000000x1 S2000000x64 [1] [0] [] [0] [] 1 ![1, 64]
  scatter_S70839x64_S2000000x1_S2000000x64_1_0_0_1_wf : ScatterDims.WF S70839x64 S2000000x1 S2000000x64 [1] [0] [0] 1

variable [Facts₀]

def gather_S70839x64_S2000000x1_S2000000x64_1_0_n_n_0_1_164 : GatherDims S70839x64 S2000000x1 S2000000x64 where
  offsetDims := [1]
  collapsedSliceDims := [0]
  operandBatchingDims := []
  startIndicesBatchingDims := []
  startIndexMap := [0]
  indexVectorDim := 1
  sliceSizes := ![1, 64]
  wf := gather_S70839x64_S2000000x1_S2000000x64_1_0_n_n_0_1_164_wf
def scatter_S70839x64_S2000000x1_S2000000x64_1_0_0_1 : ScatterDims S70839x64 S2000000x1 S2000000x64 where
  updateWindowDims := [1]
  insertedWindowDims := [0]
  scatterDimsToOperandDims := [0]
  indexVectorDim := 1
  wf := scatter_S70839x64_S2000000x1_S2000000x64_1_0_0_1_wf

class Facts : Prop extends Facts₀ where

variable [Facts]
-- ==== Proof.Kernel.Region0.lean ====
/-
  The first kernel (the gather): what its accumulator and its output block hold after every grid point, and the proof
  that the body keeps to it.

  The grid is 1956 x 18, run row by row: point t is edge block t / 18 and table chunk t % 18. In a row the
  accumulator is zeroed at chunk 0, every chunk adds its share (one payload of the edge block's source words, the
  accumulator and the chunk's rows), and at chunk 17 the accumulator times the edge block's weights is the output
  block. So the accumulator after point t is a recursion on t that restarts where t % 18 = 0 (`acc0`), and the
  output block of a row's last point is one more payload of it (`msg0`). Everything is stated for any float family,
  over the payload names, so that the same text serves the word-level program and its idealization.
-/
import proofs.«407872_j86337432584536_1_alg».proof.Proof.Gen.Kernel.Launch
import proofs.«407872_j86337432584536_1_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's second coordinate and the two branch conditions -/

/-- The chunk number of point `t` is `t % 18`. -/
theorem chunk_of_point0 (t : Fin cfg0.N) : (grid0.coords t 1).val = t.val % 18 := by
  show t.val / grid0.stride 1 % 18 = t.val % 18
  rw [show grid0.stride 1 = 1 from by decide, Nat.div_one]

/-- The body's first branch (zero the accumulator), as the kernel computes it from the chunk number. -/
abbrev first0 (i : grid0.Coords) : Prop :=
  (Scalar.cmpi .ne (Scalar.extui (Scalar.cmpi .eq (BitVec.ofNat 32 (i 1).val) 0#32)) 0#32) = 1#1
/-- The body's second branch (write the output block). -/
abbrev last0 (i : grid0.Coords) : Prop := k0_cond2 i = 1#1

theorem first_of_chunk : ∀ j : Fin 18,
    ((Scalar.cmpi .ne (Scalar.extui (Scalar.cmpi .eq (BitVec.ofNat 32 j.val) 0#32)) 0#32) = 1#1) ↔ j.val = 0 := by
  decide
theorem last_of_chunk : ∀ j : Fin 18,
    ((Scalar.cmpi .ne (Scalar.extui (Scalar.cmpi .eq (BitVec.ofNat 32 j.val) 17#32)) 0#32) = 1#1) ↔ j.val = 17 := by
  decide

/-- The accumulator is zeroed exactly at the points with chunk number 0, -/
theorem first0_iff (t : Fin cfg0.N) : first0 (grid0.coords t) ↔ t.val % 18 = 0 := by
  have h := first_of_chunk ⟨t.val % 18, Nat.mod_lt _ (by decide)⟩
  show ((Scalar.cmpi .ne (Scalar.extui (Scalar.cmpi .eq (BitVec.ofNat 32 (grid0.coords t 1).val) 0#32)) 0#32) = 1#1) ↔ _
  rw [chunk_of_point0]; exact h
/-- and the output block is written exactly at those with chunk number 17. -/
theorem last0_iff (t : Fin cfg0.N) : last0 (grid0.coords t) ↔ t.val % 18 = 17 := by
  have h := last_of_chunk ⟨t.val % 18, Nat.mod_lt _ (by decide)⟩
  show ((Scalar.cmpi .ne (Scalar.extui (Scalar.cmpi .eq (BitVec.ofNat 32 (grid0.coords t 1).val) 17#32)) 0#32) = 1#1) ↔ _
  rw [chunk_of_point0]; exact h

/-! ## Where the output block is written back -/

/-- The current staging memref of each window at point `t`, and the kernel body as the pipeline calls it there. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev bodyAt0 (t : Fin cfg0.N) : Prog (TpuEff nD τ sig (Elt F) Λ₀ .tc) PUnit :=
  cc0__gather_weight_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

/-- The edge block of point `t` is `t / 18`. -/
theorem block_of_point0 (t : Fin cfg0.N) : (grid0.coords t 0).val = t.val / 18 := by
  have hN : t.val < 35208 := lt_of_lt_of_eq t.isLt (show cfg0.N = 35208 from N_0)
  show t.val / grid0.stride 0 % 1956 = t.val / 18
  rw [show grid0.stride 0 = 18 from by decide]; omega

/-- The output window's block index at point `t` is (edge block, 0). -/
theorem outIndex0_0 (t : Fin cfg0.N) : (cfg0.win 3).index t 0 = t.val / 18 := by
  have hN : t.val < 35208 := lt_of_lt_of_eq t.isLt (show cfg0.N = 35208 from N_0)
  show (BitVec.ofNat 32 (grid0.coords t 0).val).toNat = t.val / 18
  rw [block_of_point0, BitVec.toNat_ofNat]; omega
theorem outIndex0_1 (t : Fin cfg0.N) : (cfg0.win 3).index t 1 = 0 := rfl

/-- The output block is written back exactly at a row's last point: where the next point has another edge block,
    and at the grid's last point. -/
theorem flush0_3 (t : Fin cfg0.N) : (cfg0.win 3).flush t = true ↔ t.val % 18 = 17 := by
  have hN : t.val < 35208 := lt_of_lt_of_eq t.isLt (show cfg0.N = 35208 from N_0)
  have hNe : cfg0.grid.N = 35208 := N_0
  unfold Pipeline.Window.flush
  rw [show (cfg0.win 3).isOut = true from rfl, Bool.true_and, Bool.or_eq_true, decide_eq_true_eq, decide_eq_true_eq]
  constructor
  · rintro (h | ⟨h, hne⟩)
    · have h' : t.val + 1 = 35208 := h.trans N_0
      omega
    · by_contra h17
      refine hne (funext fun a => ?_)
      match a with
      | ⟨0, _⟩ =>
        have e1 := outIndex0_0 ⟨t.val + 1, h⟩; have e2 := outIndex0_0 t
        show (cfg0.win 3).index ⟨t.val + 1, h⟩ 0 = (cfg0.win 3).index t 0
        rw [e1, e2]; show (t.val + 1) / 18 = t.val / 18; omega
      | ⟨1, _⟩ => rfl
  · intro h17
    by_cases hl : t.val + 1 = 35208
    · exact .inl (hl.trans N_0.symm)
    · have hlt : t.val + 1 < cfg0.N := lt_of_lt_of_eq (by omega : t.val + 1 < 35208) N_0.symm
      refine .inr ⟨hlt, fun he => ?_⟩
      have e := congrFun he 0
      rw [outIndex0_0 ⟨t.val + 1, hlt⟩, outIndex0_0 t] at e
      have : (t.val + 1) / 18 = t.val / 18 := e
      omega

/-- The output window is idle where the block is not written, and written back where it is. -/
theorem idle0_3 (t : Fin cfg0.N) (h : ¬last0 (grid0.coords t)) : cfg0.idle 3 (grid0.coords t) = true := by
  show (!(k0_cond2 (grid0.coords t) == 1#1)) = true
  simp only [Bool.not_eq_true', beq_eq_false_iff_ne, ne_eq]; exact h
theorem live0_3 (t : Fin cfg0.N) (h : last0 (grid0.coords t)) : cfg0.idle 3 (grid0.coords t) = false := by
  show (!(k0_cond2 (grid0.coords t) == 1#1)) = false
  simp only [Bool.not_eq_false', beq_iff_eq]; exact h
theorem noFlush0_3 (t : Fin cfg0.N) (h : ¬last0 (grid0.coords t)) : (cfg0.win 3).flush t = false := by
  cases hf : (cfg0.win 3).flush t
  · rfl
  · exact absurd ((last0_iff t).mpr ((flush0_3 t).mp hf)) h

section Region
-- what the core's buffers hold when the region is entered
variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge block's source words, its weights, and the chunk's table rows, at their literal types. -/
abbrev srcs0 (c : Dev nD) (t : Fin cfg0.N) : Vec F S1024 .i32 := blk0 V c 0 t
abbrev wts0 (c : Dev nD) (t : Fin cfg0.N) : Vec F S1024 .f32 := blk0 V c 1 t
abbrev rows0 (c : Dev nD) (t : Fin cfg0.N) : Vec F S4096x64 .bf16 := blk0 V c 2 t

/-! ## The accumulator and the output block, point by point -/

/-- The accumulator after point `n`: the chunk's payload over the zero fill where the row begins, over what the point
    before left elsewhere. -/
def acc0 (c : Dev nD) : (n : ℕ) → n < cfg0.N → Vec F S1024x64 .f32
  | 0, h => k0_pay2 (grid0.coords ⟨0, h⟩) (srcs0 V c ⟨0, h⟩) (k0_pay1 (F := F)) (rows0 V c ⟨0, h⟩)
  | n + 1, h => k0_pay2 (grid0.coords ⟨n + 1, h⟩) (srcs0 V c ⟨n + 1, h⟩)
      (if (n + 1) % 18 = 0 then (k0_pay1 (F := F)) else acc0 c n (Nat.lt_of_succ_lt h)) (rows0 V c ⟨n + 1, h⟩)

theorem acc0_first (c : Dev nD) (t : Fin cfg0.N) (h : t.val % 18 = 0) :
    acc0 V c t.val t.isLt = k0_pay2 (grid0.coords t) (srcs0 V c t) (k0_pay1 (F := F)) (rows0 V c t) := by
  obtain ⟨n, hn⟩ := t
  cases n with
  | zero => rfl
  | succ n =>
    have h' : (n + 1) % 18 = 0 := h
    show k0_pay2 _ _ (if (n + 1) % 18 = 0 then _ else _) _ = _; rw [if_pos h']

theorem acc0_next (c : Dev nD) (t : Fin cfg0.N) (h : ¬t.val % 18 = 0) :
    acc0 V c t.val t.isLt = k0_pay2 (grid0.coords t) (srcs0 V c t)
      (acc0 V c (t.val - 1) (Nat.lt_of_le_of_lt (Nat.sub_le _ _) t.isLt)) (rows0 V c t) := by
  obtain ⟨n, hn⟩ := t
  cases n with
  | zero => exact absurd (Nat.zero_mod _) h
  | succ n =>
    have h' : ¬(n + 1) % 18 = 0 := h
    show k0_pay2 _ _ (if (n + 1) % 18 = 0 then _ else _) _ = _; rw [if_neg h']; rfl

/-- The block point `t` leaves in the output window: the accumulator scaled by the edge block's weights (read only
    at a row's last point, where it is written back). -/
def msg0 (c : Dev nD) (t : Fin cfg0.N) : Vec F S1024x64 .bf16 := k0_pay3 (wts0 V c t) (acc0 V c t.val t.isLt)

/-! ## The body on any memrefs, case by case -/

theorem zeros2 : (![0, 0] : Fin S1024x64.rank → Nat) = fun _ => 0 := by
  funext a; match a with | ⟨0, _⟩ => rfl | ⟨1, _⟩ => rfl
theorem zeros2' : (![0, 0] : Fin S4096x64.rank → Nat) = fun _ => 0 := by
  funext a; match a with | ⟨0, _⟩ => rfl | ⟨1, _⟩ => rfl
theorem zeros1 : (![0] : Fin S1024.rank → Nat) = fun _ => 0 := by
  funext a; match a with | ⟨0, _⟩ => rfl

/-- Reading back a buffer whose last store filled it whole gives that store's payload. -/
theorem read_after_whole_store {κ : Kind} {sp : Space} {S : Shape} {e : EltTy} (v : View sig κ sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst hz
  rw [View.read_writes_eq_canon _ _ _ (fun y => ⟨_, List.mem_cons_self .., by
    show y ∈ (Rect.whole S).set; rw [Rect.set_whole]; exact Finset.mem_univ y⟩)]
  exact View.canon_cons_unit_zero rfl inb w L

set_option maxHeartbeats 1000000 in
/-- A row's first point: the accumulator is zeroed and takes the chunk's payload over the zero fill. -/
theorem run0_first (c : Dev nD) (E : Set ℕ) (i : grid0.Coords)
    (arg2 : Memref sig .tc .vmem S1024 .i32) (harg2 : arg2.IsWhole) (arg3 : Memref sig .tc .vmem S1024 .f32) (harg3 : arg3.IsWhole)
    (arg4 : Memref sig .tc .vmem S4096x64 .bf16) (harg4 : arg4.IsWhole) (arg5 : Memref sig .tc .vmem S1024x64 .bf16) (harg5 : arg5.IsWhole)
    (arg6 : Memref sig .tc .vmem S1024x64 .f32) (harg6 : arg6.IsWhole) (hf : first0 i) (hl : ¬last0 i)
    (xs : Vec F S1024 .i32) (xt : Vec F S4096x64 .bf16) (K : PUnit → sProp 𝕄) :
    iprop(owns (c : Thread nD τ) arg2 fullShare xs ∗ owns (c : Thread nD τ) arg4 fullShare xt ∗ (∃ d, owns (c : Thread nD τ) arg6 fullShare d)
        ∗ (iprop(owns (c : Thread nD τ) arg2 fullShare xs ∗ owns (c : Thread nD τ) arg4 fullShare xt
            ∗ owns (c : Thread nD τ) arg6 fullShare (k0_pay2 i xs (k0_pay1 (F := F)) xt)) -∗ K ⟨⟩))
      ⊢ wp frame (wpE (defs₀ (F := F)) Variants.none c none) E
          (cc0__gather_weight_kernel i arg2 harg2 arg3 harg3 arg4 harg4 arg5 harg5 arg6 harg6) K := by
  simp only [cc0__gather_weight_kernel_eq_skeleton]; unfold cc0__gather_weight_kernel_skel
  unfold owns
  iintro ⟨⟨%f2, %hf2, H2⟩, ⟨%f4, %hf4, H4⟩, ⟨%d6, %f6, -, H6⟩, Hk⟩
  obtain rfl := harg2.eq_unread hf2; obtain rfl := harg4.eq_unread hf4
  sl_exec (disch := first | exact hf | exact hl)
  sl_step
  iapply Hk
  isplitl [H2]
  · iexists _; isplitr; · ipureintro; exact harg2.read_unread _
    iexact H2
  isplitl [H4]
  · iexists _; isplitr; · ipureintro; exact harg4.read_unread _
    iexact H4
  iexists _; isplitr
  swap; · iexact H6
  ipureintro
  sl_unfold_run_names
  rw [read_after_whole_store _ _ zeros2]
  sl_unfold_run_names
  simp only [View.readAt_eq_ld, harg2.read_unread, harg4.read_unread, View.ld_unit_zero (S := S1024) zeros1, View.ld_unit_zero (S := S4096x64) zeros2',
    View.readCov_unit_zero (S := S1024x64) _ zeros2]

set_option maxHeartbeats 1000000 in
/-- A point inside a row: the accumulator takes the chunk's payload over what the point before left. -/
theorem run0_mid (c : Dev nD) (E : Set ℕ) (i : grid0.Coords)
    (arg2 : Memref sig .tc .vmem S1024 .i32) (harg2 : arg2.IsWhole) (arg3 : Memref sig .tc .vmem S1024 .f32) (harg3 : arg3.IsWhole)
    (arg4 : Memref sig .tc .vmem S4096x64 .bf16) (harg4 : arg4.IsWhole) (arg5 : Memref sig .tc .vmem S1024x64 .bf16) (harg5 : arg5.IsWhole)
    (arg6 : Memref sig .tc .vmem S1024x64 .f32) (harg6 : arg6.IsWhole) (hf : ¬first0 i) (hl : ¬last0 i)
    (xs : Vec F S1024 .i32) (xt : Vec F S4096x64 .bf16) (xa : Vec F S1024x64 .f32) (K : PUnit → sProp 𝕄) :
    iprop(owns (c : Thread nD τ) arg2 fullShare xs ∗ owns (c : Thread nD τ) arg4 fullShare xt ∗ owns (c : Thread nD τ) arg6 fullShare xa
        ∗ (iprop(owns (c : Thread nD τ) arg2 fullShare xs ∗ owns (c : Thread nD τ) arg4 fullShare xt
            ∗ owns (c : Thread nD τ) arg6 fullShare (k0_pay2 i xs xa xt)) -∗ K ⟨⟩))
      ⊢ wp frame (wpE (defs₀ (F := F)) Variants.none c none) E
          (cc0__gather_weight_kernel i arg2 harg2 arg3 harg3 arg4 harg4 arg5 harg5 arg6 harg6) K := by
  simp only [cc0__gather_weight_kernel_eq_skeleton]; unfold cc0__gather_weight_kernel_skel
  unfold owns
  iintro ⟨⟨%f2, %hf2, H2⟩, ⟨%f4, %hf4, H4⟩, ⟨%f6, %hf6, H6⟩, Hk⟩
  obtain rfl := harg2.eq_unread hf2; obtain rfl := harg4.eq_unread hf4; obtain rfl := harg6.eq_unread hf6
  sl_exec (disch := first | exact hf | exact hl)
  sl_step
  iapply Hk
  isplitl [H2]
  · iexists _; isplitr; · ipureintro; exact harg2.read_unread _
    iexact H2
  isplitl [H4]
  · iexists _; isplitr; · ipureintro; exact harg4.read_unread _
    iexact H4
  iexists _; isplitr
  swap; · iexact H6
  ipureintro
  sl_unfold_run_names
  rw [read_after_whole_store _ _ zeros2]
  sl_unfold_run_names
  simp only [View.readAt_eq_ld, harg2.read_unread, harg4.read_unread, harg6.read_unread, View.ld_unit_zero (S := S1024) zeros1,
    View.ld_unit_zero (S := S4096x64) zeros2', View.ld_unit_zero (S := S1024x64) zeros2]

set_option maxHeartbeats 1000000 in
/-- A row's last point: as inside the row, and the output block takes the accumulator scaled by the weights. -/
theorem run0_last (c : Dev nD) (E : Set ℕ) (i : grid0.Coords)
    (arg2 : Memref sig .tc .vmem S1024 .i32) (harg2 : arg2.IsWhole) (arg3 : Memref sig .tc .vmem S1024 .f32) (harg3 : arg3.IsWhole)
    (arg4 : Memref sig .tc .vmem S4096x64 .bf16) (harg4 : arg4.IsWhole) (arg5 : Memref sig .tc .vmem S1024x64 .bf16) (harg5 : arg5.IsWhole)
    (arg6 : Memref sig .tc .vmem S1024x64 .f32) (harg6 : arg6.IsWhole) (hf : ¬first0 i) (hl : last0 i)
    (xs : Vec F S1024 .i32) (xw : Vec F S1024 .f32) (xt : Vec F S4096x64 .bf16) (xa : Vec F S1024x64 .f32) (K : PUnit → sProp 𝕄) :
    iprop(owns (c : Thread nD τ) arg2 fullShare xs ∗ owns (c : Thread nD τ) arg3 fullShare xw ∗ owns (c : Thread nD τ) arg4 fullShare xt
        ∗ (∃ d, owns (c : Thread nD τ) arg5 fullShare d) ∗ owns (c : Thread nD τ) arg6 fullShare xa
        ∗ (iprop(owns (c : Thread nD τ) arg2 fullShare xs ∗ owns (c : Thread nD τ) arg3 fullShare xw ∗ owns (c : Thread nD τ) arg4 fullShare xt
            ∗ owns (c : Thread nD τ) arg5 fullShare (k0_pay3 xw (k0_pay2 i xs xa xt))
            ∗ owns (c : Thread nD τ) arg6 fullShare (k0_pay2 i xs xa xt)) -∗ K ⟨⟩))
      ⊢ wp frame (wpE (defs₀ (F := F)) Variants.none c none) E
          (cc0__gather_weight_kernel i arg2 harg2 arg3 harg3 arg4 harg4 arg5 harg5 arg6 harg6) K := by
  simp only [cc0__gather_weight_kernel_eq_skeleton]; unfold cc0__gather_weight_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [read_after_whole_store _ _ zeros2]
    sl_unfold_run_names
    simp only [View.readAt_eq_ld, harg2.read_unread, harg3.read_unread, harg4.read_unread, harg6.read_unread, View.ld_unit_zero (S := S1024) zeros1,
      View.ld_unit_zero (S := S4096x64) zeros2', View.ld_unit_zero (S := S1024x64) zeros2, View.readCov_unit_zero (S := S1024x64) _ zeros2]
  iexists _; isplitr
  swap; · iexact H6
  ipureintro
  sl_unfold_run_names
  rw [read_after_whole_store _ _ zeros2]
  sl_unfold_run_names
  simp only [View.readAt_eq_ld, harg2.read_unread, harg4.read_unread, harg6.read_unread, View.ld_unit_zero (S := S1024) zeros1,
    View.ld_unit_zero (S := S4096x64) zeros2', View.ld_unit_zero (S := S1024x64) zeros2]

/-! ## The invariant: the scratch accumulator between points -/

/-- The kernel's scratch operand, a whole scoped buffer of its own. -/
abbrev scM0 : Memref sig .tc .vmem S1024x64 .f32 := Memref.whole cc0_scratch0

/-- The core's other scoped buffers that no window of this call stages (the second call's staging buffers and
    scratch), each at some contents: carried along unopened. -/
def others0 (c : Dev nD) : sProp 𝕄 :=
  Pipeline.scopedRestBut (Ix := Unit) (Name := ℕ) (U := UR sig nD τ) (Lvl := ℕ) (Val := Elt F) spec0 c [cc0_scratch0]

/-- What the launch hands the region, with the scratch as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0
  rw [Pipeline.scopedRest_split_of_list spec0 c [cc0_scratch0] (by decide) (by decide)]
  simp only [scM0, owns_whole]; rfl

/-- The region's invariant before position `n`: before the first point what the launch hands over; afterwards the
    scratch at what the point before left in it, the other scoped buffers and the generator register as they are. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) scM0 fullShare (acc0 V c n hn) ∗ others0 c) ∗ (∃ r, prngReg c r)) := rfl
theorem Phi0_pos (c : Dev nD) (n : ℕ) (h : n ≤ cfg0.N) (hz : n ≠ 0) :
    Phi0 V c n h = iprop(iprop(owns (c : Thread nD τ) scM0 fullShare (acc0 V c (n - 1) (by omega)) ∗ others0 c) ∗ (∃ r, prngReg c r)) := by
  cases n with
  | zero => exact absurd rfl hz
  | succ n => rfl

/-! ## The proof data -/

/-- The proof data of the first call on core `c`: the arrays as the region finds them; after the body each input's
    buffer at its block and the output's at `msg0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => msg0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = msg0 V c t := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

/-- An input window's current staging buffer holds its block at every point, fetched there or not: where it is not
    fetched the block index has not moved. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_in (c : Dev nD) (t : Fin cfg0.N) (w : Fin cfg0.W) (hidle : cfg0.idle w (grid0.coords t) = false) :
    (dat0 V c).leavesExact w t = owns (c : Thread nD τ) ((cfg0.win w).stage (cfg0.slots t w)) fullShare ((dat0 V c).after w t) := by
  unfold Dat.leavesExact; rw [hidle]

set_option maxHeartbeats 4000000 in
/-- The body at any point: the inputs' buffers hold their blocks; the point's chunk number says which case it is; the
    invariant hands the body the scratch at what the point before left (at anything before the first point) and takes
    it back at this point's accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_in V c t 0 rfl, leaves0_in V c t 1 rfl, leaves0_in V c t 2 rfl, after0_0, after0_1, after0_2]
  have hN : t.val < 35208 := lt_of_lt_of_eq t.isLt (show cfg0.N = 35208 from N_0)
  by_cases h0 : t.val % 18 = 0
  · -- a row's first point
    have hf : first0 (grid0.coords t) := (first0_iff t).mpr h0
    have hl : ¬last0 (grid0.coords t) := fun h => by have := (last0_iff t).mp h; omega
    rw [Dat.leavesExact_idle (dat0 V c) 3 t (idle0_3 t hl) (noFlush0_3 t hl), acc0_first V c t h0]
    by_cases hz : t.val = 0
    · rw [Phi0_castSucc V c t, Phi0_zero V c _ _ hz, PhiA0_eq]
      iintro ⟨⟨⟨HS, Hoth⟩, Hg⟩, Ho, ⟨%d0, H0⟩, ⟨%d1, H1⟩, ⟨%d2, H2⟩, H3⟩
      iapply (run0_first c Set.univ (grid0.coords t) _ _ _ _ _ _ _ _ _ _ hf hl (srcs0 V c t) (rows0 V c t) _)
      isplitl [H0]; · iexact H0
      isplitl [H2]; · iexact H2
      isplitl [HS]; · iexact HS
      iintro ⟨H0, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · rw [Phi0_castSucc V c t, Phi0_pos V c _ _ hz]
      iintro ⟨⟨⟨HS, Hoth⟩, Hg⟩, Ho, ⟨%d0, H0⟩, ⟨%d1, H1⟩, ⟨%d2, H2⟩, H3⟩
      iapply (run0_first c Set.univ (grid0.coords t) _ _ _ _ _ _ _ _ _ _ hf hl (srcs0 V c t) (rows0 V c t) _)
      isplitl [H0]; · iexact H0
      isplitl [H2]; · iexact H2
      isplitl [HS]; · iexists _; iexact HS
      iintro ⟨H0, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
  · have hf : ¬first0 (grid0.coords t) := fun h => h0 ((first0_iff t).mp h)
    have hz : t.val ≠ 0 := fun h => h0 (by rw [h])
    rw [Phi0_castSucc V c t, Phi0_pos V c _ _ hz, acc0_next V c t h0]
    by_cases h1 : t.val % 18 = 17
    · -- a row's last point
      have hl : last0 (grid0.coords t) := (last0_iff t).mpr h1
      rw [leaves0_in V c t 3 (live0_3 t hl), after0_3]
      unfold msg0; rw [acc0_next V c t h0]
      iintro ⟨⟨⟨HS, Hoth⟩, Hg⟩, Ho, ⟨%d0, H0⟩, ⟨%d1, H1⟩, ⟨%d2, H2⟩, ⟨%d3, H3⟩⟩
      iapply (run0_last c Set.univ (grid0.coords t) _ _ _ _ _ _ _ _ _ _ hf hl (srcs0 V c t) (wts0 V c t) (rows0 V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · -- a point inside a row
      have hl : ¬last0 (grid0.coords t) := fun h => h1 ((last0_iff t).mp h)
      rw [Dat.leavesExact_idle (dat0 V c) 3 t (idle0_3 t hl) (noFlush0_3 t hl)]
      iintro ⟨⟨⟨HS, Hoth⟩, Hg⟩, Ho, ⟨%d0, H0⟩, ⟨%d1, H1⟩, ⟨%d2, H2⟩, H3⟩
      iapply (run0_mid c Set.univ (grid0.coords t) _ _ _ _ _ _ _ _ _ _ hf hl (srcs0 V c t) (rows0 V c t) _ _)
      isplitl [H0]; · iexact H0
      isplitl [H2]; · iexact H2
      isplitl [HS]; · iexact HS
      iintro ⟨H0, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- and after the last point the invariant gives it back, the accumulator's contents forgotten. -/
theorem hout0 (c : Dev nD) : (dat0 V c).Φ (Fin.last cfg0.N) ⊢ Pipeline.ΦA spec0 c := by
  have hN : cfg0.N = 35208 := N_0
  rw [show (dat0 V c).Φ (Fin.last cfg0.N) = Phi0 V c (Fin.last cfg0.N).val (Nat.le_of_lt_succ (Fin.last cfg0.N).isLt) from rfl,
    Phi0_pos V c _ _ (by rw [Fin.val_last]; omega), PhiA0_eq]
  iintro ⟨⟨HS, Hoth⟩, Hg⟩
  isplitl [HS Hoth]
  · isplitl [HS]; · iexists _; iexact HS
    iexact Hoth
  iexact Hg

end Region

end Cert.Kernel.Hand

end
-- ==== Proof.Kernel.Region1.lean ====
/-
  The second kernel (the scatter and the row normalisation): what its accumulator and its output block hold after
  every grid point, and the proof that the body keeps to it.

  The grid is 72 x 489, run row by row: point t is node block t / 489 and edge chunk t % 489. In a row the
  accumulator is zeroed at chunk 0, every chunk adds its share (one payload of the chunk's destination words, the
  accumulator and the chunk's message rows), and at chunk 488 the accumulator with every row divided by the larger of its
  norm and a small constant is the output block. Stated for any float family, over the payload names.
-/
import proofs.«407872_j86337432584536_1_alg».proof.Proof.Gen.Kernel.Launch
import proofs.«407872_j86337432584536_1_alg».proof.Proof.Gen.Kernel.Skeleton
import proofs.«407872_j86337432584536_1_alg».proof.Proof.Kernel.Region0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's second coordinate and the two branch conditions -/

/-- The chunk number of point `t` is `t % 489`. -/
theorem chunk_of_point1 (t : Fin cfg1.N) : (grid1.coords t 1).val = t.val % 489 := by
  show t.val / grid1.stride 1 % 489 = t.val % 489
  rw [show grid1.stride 1 = 1 from by decide, Nat.div_one]

/-- The body's first branch (zero the accumulator), as the kernel computes it from the chunk number. -/
abbrev first1 (i : grid1.Coords) : Prop :=
  (Scalar.cmpi .ne (Scalar.extui (Scalar.cmpi .eq (BitVec.ofNat 32 (i 1).val) 0#32)) 0#32) = 1#1
/-- The body's second branch (normalise and write the output block). -/
abbrev last1 (i : grid1.Coords) : Prop := k1_cond2 i = 1#1

theorem first_of_chunk1 : ∀ j : Fin 489,
    ((Scalar.cmpi .ne (Scalar.extui (Scalar.cmpi .eq (BitVec.ofNat 32 j.val) 0#32)) 0#32) = 1#1) ↔ j.val = 0 := by
  decide +kernel
theorem last_of_chunk1 : ∀ j : Fin 489,
    ((Scalar.cmpi .ne (Scalar.extui (Scalar.cmpi .eq (BitVec.ofNat 32 j.val) 488#32)) 0#32) = 1#1) ↔ j.val = 488 := by
  decide +kernel

theorem first1_iff (t : Fin cfg1.N) : first1 (grid1.coords t) ↔ t.val % 489 = 0 := by
  have h := first_of_chunk1 ⟨t.val % 489, Nat.mod_lt _ (by decide)⟩
  show ((Scalar.cmpi .ne (Scalar.extui (Scalar.cmpi .eq (BitVec.ofNat 32 (grid1.coords t 1).val) 0#32)) 0#32) = 1#1) ↔ _
  rw [chunk_of_point1]; exact h
theorem last1_iff (t : Fin cfg1.N) : last1 (grid1.coords t) ↔ t.val % 489 = 488 := by
  have h := last_of_chunk1 ⟨t.val % 489, Nat.mod_lt _ (by decide)⟩
  show ((Scalar.cmpi .ne (Scalar.extui (Scalar.cmpi .eq (BitVec.ofNat 32 (grid1.coords t 1).val) 488#32)) 0#32) = 1#1) ↔ _
  rw [chunk_of_point1]; exact h

/-! ## Where the output block is written back -/

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev bodyAt1 (t : Fin cfg1.N) : Prog (TpuEff nD τ sig (Elt F) Λ₀ .tc) PUnit :=
  cc1__scatter_norm_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

/-- The node block of point `t` is `t / 489`. -/
theorem block_of_point1 (t : Fin cfg1.N) : (grid1.coords t 0).val = t.val / 489 := by
  have hN : t.val < 35208 := lt_of_lt_of_eq t.isLt (show cfg1.N = 35208 from N_1)
  show t.val / grid1.stride 0 % 72 = t.val / 489
  rw [show grid1.stride 0 = 489 from by decide]; omega

/-- The output window's block index at point `t` is (node block, 0). -/
theorem outIndex1_0 (t : Fin cfg1.N) : (cfg1.win 2).index t 0 = t.val / 489 := by
  have hN : t.val < 35208 := lt_of_lt_of_eq t.isLt (show cfg1.N = 35208 from N_1)
  show (BitVec.ofNat 32 (grid1.coords t 0).val).toNat = t.val / 489
  rw [block_of_point1, BitVec.toNat_ofNat]; omega
theorem outIndex1_1 (t : Fin cfg1.N) : (cfg1.win 2).index t 1 = 0 := rfl

/-- The output block is written back exactly at a row's last point. -/
theorem flush1_2 (t : Fin cfg1.N) : (cfg1.win 2).flush t = true ↔ t.val % 489 = 488 := by
  have hN : t.val < 35208 := lt_of_lt_of_eq t.isLt (show cfg1.N = 35208 from N_1)
  have hNe : cfg1.grid.N = 35208 := N_1
  unfold Pipeline.Window.flush
  rw [show (cfg1.win 2).isOut = true from rfl, Bool.true_and, Bool.or_eq_true, decide_eq_true_eq, decide_eq_true_eq]
  constructor
  · rintro (h | ⟨h, hne⟩)
    · have h' : t.val + 1 = 35208 := h.trans N_1
      omega
    · by_contra h488
      refine hne (funext fun a => ?_)
      match a with
      | ⟨0, _⟩ =>
        have e1 := outIndex1_0 ⟨t.val + 1, h⟩; have e2 := outIndex1_0 t
        show (cfg1.win 2).index ⟨t.val + 1, h⟩ 0 = (cfg1.win 2).index t 0
        rw [e1, e2]; show (t.val + 1) / 489 = t.val / 489; omega
      | ⟨1, _⟩ => rfl
  · intro h488
    by_cases hl : t.val + 1 = 35208
    · exact .inl (hl.trans N_1.symm)
    · have hlt : t.val + 1 < cfg1.N := lt_of_lt_of_eq (by omega : t.val + 1 < 35208) N_1.symm
      refine .inr ⟨hlt, fun he => ?_⟩
      have e := congrFun he 0
      rw [outIndex1_0 ⟨t.val + 1, hlt⟩, outIndex1_0 t] at e
      have : (t.val + 1) / 489 = t.val / 489 := e
      omega

theorem idle1_2 (t : Fin cfg1.N) (h : ¬last1 (grid1.coords t)) : cfg1.idle 2 (grid1.coords t) = true := by
  show (!(k1_cond2 (grid1.coords t) == 1#1)) = true
  simp only [Bool.not_eq_true', beq_eq_false_iff_ne, ne_eq]; exact h
theorem live1_2 (t : Fin cfg1.N) (h : last1 (grid1.coords t)) : cfg1.idle 2 (grid1.coords t) = false := by
  show (!(k1_cond2 (grid1.coords t) == 1#1)) = false
  simp only [Bool.not_eq_false', beq_iff_eq]; exact h
theorem noFlush1_2 (t : Fin cfg1.N) (h : ¬last1 (grid1.coords t)) : (cfg1.win 2).flush t = false := by
  cases hf : (cfg1.win 2).flush t
  · rfl
  · exact absurd ((last1_iff t).mpr ((flush1_2 t).mp hf)) h

section Region
-- what the core's buffers hold when the region is entered
variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The chunk's message rows and its destination words, at their literal types. -/
abbrev msgs1 (c : Dev nD) (t : Fin cfg1.N) : Vec F S4096x64 .bf16 := blk1 V c 0 t
abbrev dsts1 (c : Dev nD) (t : Fin cfg1.N) : Vec F S4096 .i32 := blk1 V c 1 t

/-! ## The accumulator and the output block, point by point -/

def acc1 (c : Dev nD) : (n : ℕ) → n < cfg1.N → Vec F S1024x64 .f32
  | 0, h => k1_pay2 (grid1.coords ⟨0, h⟩) (dsts1 V c ⟨0, h⟩) (k1_pay1 (F := F)) (msgs1 V c ⟨0, h⟩)
  | n + 1, h => k1_pay2 (grid1.coords ⟨n + 1, h⟩) (dsts1 V c ⟨n + 1, h⟩)
      (if (n + 1) % 489 = 0 then (k1_pay1 (F := F)) else acc1 c n (Nat.lt_of_succ_lt h)) (msgs1 V c ⟨n + 1, h⟩)

theorem acc1_first (c : Dev nD) (t : Fin cfg1.N) (h : t.val % 489 = 0) :
    acc1 V c t.val t.isLt = k1_pay2 (grid1.coords t) (dsts1 V c t) (k1_pay1 (F := F)) (msgs1 V c t) := by
  obtain ⟨n, hn⟩ := t
  cases n with
  | zero => rfl
  | succ n =>
    have h' : (n + 1) % 489 = 0 := h
    show k1_pay2 _ _ (if (n + 1) % 489 = 0 then _ else _) _ = _; rw [if_pos h']

theorem acc1_next (c : Dev nD) (t : Fin cfg1.N) (h : ¬t.val % 489 = 0) :
    acc1 V c t.val t.isLt = k1_pay2 (grid1.coords t) (dsts1 V c t)
      (acc1 V c (t.val - 1) (Nat.lt_of_le_of_lt (Nat.sub_le _ _) t.isLt)) (msgs1 V c t) := by
  obtain ⟨n, hn⟩ := t
  cases n with
  | zero => exact absurd (Nat.zero_mod _) h
  | succ n =>
    have h' : ¬(n + 1) % 489 = 0 := h
    show k1_pay2 _ _ (if (n + 1) % 489 = 0 then _ else _) _ = _; rw [if_neg h']; rfl

/-- The block point `t` leaves in the output window: the accumulator with its rows normalised (read only at a
    row's last point, where it is written back). -/
def out1 (c : Dev nD) (t : Fin cfg1.N) : Vec F S1024x64 .f32 := k1_pay3 (acc1 V c t.val t.isLt)

/-! ## The body on any memrefs, case by case -/

theorem zeros1' : (![0] : Fin S4096.rank → Nat) = fun _ => 0 := by
  funext a; match a with | ⟨0, _⟩ => rfl

set_option maxHeartbeats 1000000 in
theorem run1_first (c : Dev nD) (E : Set ℕ) (i : grid1.Coords)
    (arg2 : Memref sig .tc .vmem S4096x64 .bf16) (harg2 : arg2.IsWhole) (arg3 : Memref sig .tc .vmem S4096 .i32) (harg3 : arg3.IsWhole)
    (arg4 : Memref sig .tc .vmem S1024x64 .f32) (harg4 : arg4.IsWhole) (arg5 : Memref sig .tc .vmem S1024x64 .f32) (harg5 : arg5.IsWhole)
    (hf : first1 i) (hl : ¬last1 i)
    (xm : Vec F S4096x64 .bf16) (xd : Vec F S4096 .i32) (K : PUnit → sProp 𝕄) :
    iprop(owns (c : Thread nD τ) arg2 fullShare xm ∗ owns (c : Thread nD τ) arg3 fullShare xd ∗ (∃ d, owns (c : Thread nD τ) arg5 fullShare d)
        ∗ (iprop(owns (c : Thread nD τ) arg2 fullShare xm ∗ owns (c : Thread nD τ) arg3 fullShare xd
            ∗ owns (c : Thread nD τ) arg5 fullShare (k1_pay2 i xd (k1_pay1 (F := F)) xm)) -∗ K ⟨⟩))
      ⊢ wp frame (wpE (defs₀ (F := F)) Variants.none c none) E
          (cc1__scatter_norm_kernel i arg2 harg2 arg3 harg3 arg4 harg4 arg5 harg5) K := by
  simp only [cc1__scatter_norm_kernel_eq_skeleton]; unfold cc1__scatter_norm_kernel_skel
  unfold owns
  iintro ⟨⟨%f2, %hf2, H2⟩, ⟨%f3, %hf3, H3⟩, ⟨%d5, %f5, -, H5⟩, Hk⟩
  obtain rfl := harg2.eq_unread hf2; obtain rfl := harg3.eq_unread hf3
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  sl_unfold_run_names
  rw [read_after_whole_store _ _ zeros2]
  sl_unfold_run_names
  simp only [View.readAt_eq_ld, harg2.read_unread, harg3.read_unread, View.ld_unit_zero (S := S4096) zeros1', View.ld_unit_zero (S := S4096x64) zeros2',
    View.readCov_unit_zero (S := S1024x64) _ zeros2]

set_option maxHeartbeats 1000000 in
theorem run1_mid (c : Dev nD) (E : Set ℕ) (i : grid1.Coords)
    (arg2 : Memref sig .tc .vmem S4096x64 .bf16) (harg2 : arg2.IsWhole) (arg3 : Memref sig .tc .vmem S4096 .i32) (harg3 : arg3.IsWhole)
    (arg4 : Memref sig .tc .vmem S1024x64 .f32) (harg4 : arg4.IsWhole) (arg5 : Memref sig .tc .vmem S1024x64 .f32) (harg5 : arg5.IsWhole)
    (hf : ¬first1 i) (hl : ¬last1 i)
    (xm : Vec F S4096x64 .bf16) (xd : Vec F S4096 .i32) (xa : Vec F S1024x64 .f32) (K : PUnit → sProp 𝕄) :
    iprop(owns (c : Thread nD τ) arg2 fullShare xm ∗ owns (c : Thread nD τ) arg3 fullShare xd ∗ owns (c : Thread nD τ) arg5 fullShare xa
        ∗ (iprop(owns (c : Thread nD τ) arg2 fullShare xm ∗ owns (c : Thread nD τ) arg3 fullShare xd
            ∗ owns (c : Thread nD τ) arg5 fullShare (k1_pay2 i xd xa xm)) -∗ K ⟨⟩))
      ⊢ wp frame (wpE (defs₀ (F := F)) Variants.none c none) E
          (cc1__scatter_norm_kernel i arg2 harg2 arg3 harg3 arg4 harg4 arg5 harg5) K := by
  simp only [cc1__scatter_norm_kernel_eq_skeleton]; unfold cc1__scatter_norm_kernel_skel
  unfold owns
  iintro ⟨⟨%f2, %hf2, H2⟩, ⟨%f3, %hf3, H3⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  sl_unfold_run_names
  rw [read_after_whole_store _ _ zeros2]
  sl_unfold_run_names
  simp only [View.readAt_eq_ld, harg2.read_unread, harg3.read_unread, harg5.read_unread, View.ld_unit_zero (S := S4096) zeros1',
    View.ld_unit_zero (S := S4096x64) zeros2', View.ld_unit_zero (S := S1024x64) zeros2]

set_option maxHeartbeats 1000000 in
theorem run1_last (c : Dev nD) (E : Set ℕ) (i : grid1.Coords)
    (arg2 : Memref sig .tc .vmem S4096x64 .bf16) (harg2 : arg2.IsWhole) (arg3 : Memref sig .tc .vmem S4096 .i32) (harg3 : arg3.IsWhole)
    (arg4 : Memref sig .tc .vmem S1024x64 .f32) (harg4 : arg4.IsWhole) (arg5 : Memref sig .tc .vmem S1024x64 .f32) (harg5 : arg5.IsWhole)
    (hf : ¬first1 i) (hl : last1 i)
    (xm : Vec F S4096x64 .bf16) (xd : Vec F S4096 .i32) (xa : Vec F S1024x64 .f32) (K : PUnit → sProp 𝕄) :
    iprop(owns (c : Thread nD τ) arg2 fullShare xm ∗ owns (c : Thread nD τ) arg3 fullShare xd
        ∗ (∃ d, owns (c : Thread nD τ) arg4 fullShare d) ∗ owns (c : Thread nD τ) arg5 fullShare xa
        ∗ (iprop(owns (c : Thread nD τ) arg2 fullShare xm ∗ owns (c : Thread nD τ) arg3 fullShare xd
            ∗ owns (c : Thread nD τ) arg4 fullShare (k1_pay3 (k1_pay2 i xd xa xm))
            ∗ owns (c : Thread nD τ) arg5 fullShare (k1_pay2 i xd xa xm)) -∗ K ⟨⟩))
      ⊢ wp frame (wpE (defs₀ (F := F)) Variants.none c none) E
          (cc1__scatter_norm_kernel i arg2 harg2 arg3 harg3 arg4 harg4 arg5 harg5) K := by
  simp only [cc1__scatter_norm_kernel_eq_skeleton]; unfold cc1__scatter_norm_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [read_after_whole_store _ _ zeros2]
    sl_unfold_run_names
    simp only [View.readAt_eq_ld, harg2.read_unread, harg3.read_unread, harg5.read_unread, View.ld_unit_zero (S := S4096) zeros1',
      View.ld_unit_zero (S := S4096x64) zeros2', View.ld_unit_zero (S := S1024x64) zeros2, View.readCov_unit_zero (S := S1024x64) _ zeros2]
  iexists _; isplitr
  swap; · iexact H5
  ipureintro
  sl_unfold_run_names
  rw [read_after_whole_store _ _ zeros2]
  sl_unfold_run_names
  simp only [View.readAt_eq_ld, harg2.read_unread, harg3.read_unread, harg5.read_unread, View.ld_unit_zero (S := S4096) zeros1',
    View.ld_unit_zero (S := S4096x64) zeros2', View.ld_unit_zero (S := S1024x64) zeros2]

/-! ## The invariant: the scratch accumulator between points -/

abbrev scM1 : Memref sig .tc .vmem S1024x64 .f32 := Memref.whole cc1_scratch0

/-- The core's other scoped buffers that no window of this call stages (the first call's staging buffers and
    scratch), each at some contents: carried along unopened. -/
def others1 (c : Dev nD) : sProp 𝕄 :=
  Pipeline.scopedRestBut (Ix := Unit) (Name := ℕ) (U := UR sig nD τ) (Lvl := ℕ) (Val := Elt F) spec1 c [cc1_scratch0]

/-- What the launch hands the region, with the scratch as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [scM1, owns_whole]; rfl

def Phi1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1 fullShare (acc1 V c n hn) ∗ others1 c) ∗ (∃ r, prngReg c r)) := rfl
theorem Phi1_pos (c : Dev nD) (n : ℕ) (h : n ≤ cfg1.N) (hz : n ≠ 0) :
    Phi1 V c n h = iprop(iprop(owns (c : Thread nD τ) scM1 fullShare (acc1 V c (n - 1) (by omega)) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 V c t := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

/-- An input window's current staging buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

theorem leaves1_in (c : Dev nD) (t : Fin cfg1.N) (w : Fin cfg1.W) (hidle : cfg1.idle w (grid1.coords t) = false) :
    (dat1 V c).leavesExact w t = owns (c : Thread nD τ) ((cfg1.win w).stage (cfg1.slots t w)) fullShare ((dat1 V c).after w t) := by
  unfold Dat.leavesExact; rw [hidle]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [leaves1_in V c t 0 rfl, leaves1_in V c t 1 rfl, after1_0, after1_1]
  have hN : t.val < 35208 := lt_of_lt_of_eq t.isLt (show cfg1.N = 35208 from N_1)
  by_cases h0 : t.val % 489 = 0
  · have hf : first1 (grid1.coords t) := (first1_iff t).mpr h0
    have hl : ¬last1 (grid1.coords t) := fun h => by have := (last1_iff t).mp h; omega
    rw [Dat.leavesExact_idle (dat1 V c) 2 t (idle1_2 t hl) (noFlush1_2 t hl), acc1_first V c t h0]
    by_cases hz : t.val = 0
    · rw [Phi1_castSucc V c t, Phi1_zero V c _ _ hz, PhiA1_eq]
      iintro ⟨⟨⟨HS, Hoth⟩, Hg⟩, Ho, ⟨%d0, H0⟩, ⟨%d1, H1⟩, H2⟩
      iapply (run1_first c Set.univ (grid1.coords t) _ _ _ _ _ _ _ _ hf hl (msgs1 V c t) (dsts1 V c t) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Phi1_castSucc V c t, Phi1_pos V c _ _ hz]
      iintro ⟨⟨⟨HS, Hoth⟩, Hg⟩, Ho, ⟨%d0, H0⟩, ⟨%d1, H1⟩, H2⟩
      iapply (run1_first c Set.univ (grid1.coords t) _ _ _ _ _ _ _ _ hf hl (msgs1 V c t) (dsts1 V c t) _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hf : ¬first1 (grid1.coords t) := fun h => h0 ((first1_iff t).mp h)
    have hz : t.val ≠ 0 := fun h => h0 (by rw [h])
    rw [Phi1_castSucc V c t, Phi1_pos V c _ _ hz, acc1_next V c t h0]
    by_cases h1 : t.val % 489 = 488
    · have hl : last1 (grid1.coords t) := (last1_iff t).mpr h1
      rw [leaves1_in V c t 2 (live1_2 t hl), after1_2]
      unfold out1; rw [acc1_next V c t h0]
      iintro ⟨⟨⟨HS, Hoth⟩, Hg⟩, Ho, ⟨%d0, H0⟩, ⟨%d1, H1⟩, ⟨%d2, H2⟩⟩
      iapply (run1_last c Set.univ (grid1.coords t) _ _ _ _ _ _ _ _ hf hl (msgs1 V c t) (dsts1 V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hl : ¬last1 (grid1.coords t) := fun h => h1 ((last1_iff t).mp h)
      rw [Dat.leavesExact_idle (dat1 V c) 2 t (idle1_2 t hl) (noFlush1_2 t hl)]
      iintro ⟨⟨⟨HS, Hoth⟩, Hg⟩, Ho, ⟨%d0, H0⟩, ⟨%d1, H1⟩, H2⟩
      iapply (run1_mid c Set.univ (grid1.coords t) _ _ _ _ _ _ _ _ hf hl (msgs1 V c t) (dsts1 V c t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]

theorem hout1 (c : Dev nD) : (dat1 V c).Φ (Fin.last cfg1.N) ⊢ Pipeline.ΦA spec1 c := by
  have hN : cfg1.N = 35208 := N_1
  rw [show (dat1 V c).Φ (Fin.last cfg1.N) = Phi1 V c (Fin.last cfg1.N).val (Nat.le_of_lt_succ (Fin.last cfg1.N).isLt) from rfl,
    Phi1_pos V c _ _ (by rw [Fin.val_last]; omega), PhiA1_eq]
  iintro ⟨⟨HS, Hoth⟩, Hg⟩
  isplitl [HS Hoth]
  · isplitl [HS]; · iexists _; iexact HS
    iexact Hoth
  iexact Hg

end Region

end Cert.Kernel.Hand

end
-- ==== Proof.Kernel.Run.lean ====
/-
  The whole program from the launch to the return: eight stretches of host operations (the cast of the table, three
  constants and the four paddings), the two kernel regions, and the final slice. Between two items every unscoped
  buffer of a core is held at known contents: the launch memory, then each stretch's operations applied in turn, then,
  at a region's exit, that region's arrays at what its write-backs leave and every other buffer as it was. The run
  ends with every unscoped buffer at the last of these contents, which gives both that the arguments end as launched
  and what the result buffer holds.
-/
import proofs.«407872_j86337432584536_1_alg».proof.Proof.Gen.Kernel.Regions
import proofs.«407872_j86337432584536_1_alg».proof.Proof.Kernel.Region0
import proofs.«407872_j86337432584536_1_alg».proof.Proof.Kernel.Region1
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch, -/
abbrev W0 (c : Dev nD) : Valuation τ sig (Elt F) := fun b => m (c, b)
/-- after the cast of the table to the narrow format and the first constant, -/
abbrev W1 (c : Dev nD) : Valuation τ sig (Elt F) := StableHlo.after hostOps0 (W0 m c)
/-- after the table's padding, -/
abbrev W2 (c : Dev nD) : Valuation τ sig (Elt F) := StableHlo.after hostOps0_1 (W1 m c)
abbrev W3 (c : Dev nD) : Valuation τ sig (Elt F) := StableHlo.after hostOps0_2 (W2 m c)
/-- after the padding of the source words, -/
abbrev W4 (c : Dev nD) : Valuation τ sig (Elt F) := StableHlo.after hostOps0_3 (W3 m c)
abbrev W5 (c : Dev nD) : Valuation τ sig (Elt F) := StableHlo.after hostOps0_4 (W4 m c)
/-- after the padding of the destination words, -/
abbrev W6 (c : Dev nD) : Valuation τ sig (Elt F) := StableHlo.after hostOps0_5 (W5 m c)
abbrev W7 (c : Dev nD) : Valuation τ sig (Elt F) := StableHlo.after hostOps0_6 (W6 m c)
/-- after the padding of the weights: what the first region is entered from. -/
abbrev W8 (c : Dev nD) : Valuation τ sig (Elt F) := StableHlo.after hostOps0_7 (W7 m c)
/-- The same read at the TensorCore's references. -/
abbrev E0 (c : Dev nD) (b : Ref sig .tc) : Buf (Elt F) ((c : Thread nD τ).loc b) := W8 m c b

/-- At the first region's exit: its arrays at what the pipeline leaves, every other buffer as entered. -/
def W9 (c : Dev nD) : Valuation τ sig (Elt F) :=
  Pipeline.withArrays spec0 c (W8 m c) fun w => (dat0 (E0 m) c).arrAt w cfg0.N
theorem W9_arr (c : Dev nD) (w : Fin cfg0.W) :
    W9 m c (Proc.devRef .tc (Pipeline.arrRef spec0 w)) = (dat0 (E0 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = W8 m c (Proc.devRef .tc b) := by
  unfold W9; exact Pipeline.withArrays_of_ne spec0 c _ _ b hb
/-- The same read at the TensorCore's references: what the second region is entered from. -/
abbrev E1 (c : Dev nD) (b : Ref sig .tc) : Buf (Elt F) ((c : Thread nD τ).loc b) := W9 m c b
theorem hF0 (c : Dev nD) (w : Fin cfg0.W) : (dat0 (E0 m) c).arrAt w cfg0.N = E1 m c (Pipeline.arrRef spec0 w) :=
  (W9_arr m c w).symm
theorem hrest0 (c : Dev nD) : ∀ b, b ∉ Finset.univ.image (Pipeline.arrRef spec0) → E1 m c b = E0 m c b :=
  fun b hb => W9_of_ne m c b fun w e => hb (Finset.mem_image.mpr ⟨w, Finset.mem_univ _, e⟩)

/-- At the second region's exit. -/
def W10 (c : Dev nD) : Valuation τ sig (Elt F) :=
  Pipeline.withArrays spec1 c (W9 m c) fun w => (dat1 (E1 m) c).arrAt w cfg1.N
theorem W10_arr (c : Dev nD) (w : Fin cfg1.W) :
    W10 m c (Proc.devRef .tc (Pipeline.arrRef spec1 w)) = (dat1 (E1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev E2 (c : Dev nD) (b : Ref sig .tc) : Buf (Elt F) ((c : Thread nD τ).loc b) := W10 m c b
theorem hF1 (c : Dev nD) (w : Fin cfg1.W) : (dat1 (E1 m) c).arrAt w cfg1.N = E2 m c (Pipeline.arrRef spec1 w) :=
  (W10_arr m c w).symm
theorem hrest1 (c : Dev nD) : ∀ b, b ∉ Finset.univ.image (Pipeline.arrRef spec1) → E2 m c b = E1 m c b :=
  fun b hb => W10_of_ne m c b fun w e => hb (Finset.mem_image.mpr ⟨w, Finset.mem_univ _, e⟩)

/-- After the final slice: what the program ends with. -/
abbrev W11 (c : Dev nD) : Valuation τ sig (Elt F) := StableHlo.after hostOps2 (W10 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬(Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- The first region: entered from every unscoped buffer at `W8`, left at `W9`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W9`, left at `W10`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .region (reg0 m),
    .region (reg1 m),
    .host (hseg hostOps2 hostOps2_sub hostOps2_fresh (W10 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer of every core at the last contents of the fold above. -/
theorem run_all : θ_run defs (onTc (τ := τ) (main (F := F))) ⟨m, fun _ => 0, ρ⟩ (fun r => ∀ c : Dev nD,
      ∀ b : Ref sig .tc, ¬(Proc.devRef .tc b : DevRef τ sig).isScoped →
        r.2.mem ((c.tc : Thread nD τ).loc b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (StableHlo.after hostOps2 (W10 m c)) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c b hb => h c _ (mem_uc b hb))

/-! ## What no item writes is as launched -/

/-- A buffer no host stretch before the regions writes holds its launch contents when the first region is entered. -/
theorem W8_of_launch (c : Dev nD) (b : Ref sig .tc) (h0 : b ∉ hostOps0_W) (h1 : b ∉ hostOps0_1_W) (h2 : b ∉ hostOps0_2_W)
    (h3 : b ∉ hostOps0_3_W) (h4 : b ∉ hostOps0_4_W) (h5 : b ∉ hostOps0_5_W) (h6 : b ∉ hostOps0_6_W) (h7 : b ∉ hostOps0_7_W) :
    W8 m c b = m ((c : Thread nD τ).loc b) :=
  (V8_of m c b h7).trans <| (V7_of m c b h6).trans <| (V6_of m c b h5).trans <| (V5_of m c b h4).trans <|
    (V4_of m c b h3).trans <| (V3_of m c b h2).trans <| (V2_of m c b h1).trans <| (V1_of m c b h0).trans rfl

/-- A buffer that is no array of either region and that no host operation writes ends as launched. -/
theorem W11_of_launch (c : Dev nD) (b : Ref sig .tc) (hne0 : ∀ w, Pipeline.arrRef spec0 w ≠ b) (hne1 : ∀ w, Pipeline.arrRef spec1 w ≠ b)
    (h0 : b ∉ hostOps0_W) (h1 : b ∉ hostOps0_1_W) (h2 : b ∉ hostOps0_2_W)
    (h3 : b ∉ hostOps0_3_W) (h4 : b ∉ hostOps0_4_W) (h5 : b ∉ hostOps0_5_W) (h6 : b ∉ hostOps0_6_W) (h7 : b ∉ hostOps0_7_W)
    (h8 : b ∉ hostOps2_W) :
    W11 m c b = m ((c : Thread nD τ).loc b) :=
  (StableHlo.after_of_writes_sub hostOps2 _ hostOps2_writes h8).trans <| (W10_of_ne m c b hne1).trans <|
    (W9_of_ne m c b hne0).trans <| W8_of_launch m c b h0 h1 h2 h3 h4 h5 h6 h7

theorem W11_main_arg0 (c : Dev nD) : W11 m c main_arg0 = m ((c : Thread nD τ).loc main_arg0) :=
  W11_of_launch m c main_arg0 (by decide) (by decide) (by decide) (by decide) (by decide) (by decide) (by decide) (by decide) (by decide) (by decide) (by decide)
theorem W11_main_arg1 (c : Dev nD) : W11 m c main_arg1 = m ((c : Thread nD τ).loc main_arg1) :=
  W11_of_launch m c main_arg1 (by decide) (by decide) (by decide) (by decide) (by decide) (by decide) (by decide) (by decide) (by decide) (by decide) (by decide)
theorem W11_main_arg2 (c : Dev nD) : W11 m c main_arg2 = m ((c : Thread nD τ).loc main_arg2) :=
  W11_of_launch m c main_arg2 (by decide) (by decide) (by decide) (by decide) (by decide) (by decide) (by decide) (by decide) (by decide) (by decide) (by decide)
theorem W11_main_arg3 (c : Dev nD) : W11 m c main_arg3 = m ((c : Thread nD τ).loc main_arg3) :=
  W11_of_launch m c main_arg3 (by decide) (by decide) (by decide) (by decide) (by decide) (by decide) (by decide) (by decide) (by decide) (by decide) (by decide)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (W11_main_arg0 m c), (h c main_arg1 (by decide)).trans (W11_main_arg1 m c),
      (h c main_arg2 (by decide)).trans (W11_main_arg2 m c), (h c main_arg3 (by decide)).trans (W11_main_arg3 m c)⟩)
    (run_all m ρ)

end Cert.Kernel.Hand

end
-- ==== Proof.KernelIdeal.Region0.lean ====
/-
  The first kernel (the gather): what its accumulator and its output block hold after every grid point, and the proof
  that the body keeps to it.

  The grid is 1956 x 18, run row by row: point t is edge block t / 18 and table chunk t % 18. In a row the
  accumulator is zeroed at chunk 0, every chunk adds its share (one payload of the edge block's source words, the
  accumulator and the chunk's rows), and at chunk 17 the accumulator times the edge block's weights is the output
  block. So the accumulator after point t is a recursion on t that restarts where t % 18 = 0 (`acc0`), and the
  output block of a row's last point is one more payload of it (`msg0`). Everything is stated for any float family,
  over the payload names, so that the same text serves the word-level program and its idealization.
-/
import proofs.«407872_j86337432584536_1_alg».proof.Proof.Gen.KernelIdeal.Launch
import proofs.«407872_j86337432584536_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's second coordinate and the two branch conditions -/

/-- The chunk number of point `t` is `t % 18`. -/
theorem chunk_of_point0 (t : Fin cfg0.N) : (grid0.coords t 1).val = t.val % 18 := by
  show t.val / grid0.stride 1 % 18 = t.val % 18
  rw [show grid0.stride 1 = 1 from by decide, Nat.div_one]

/-- The body's first branch (zero the accumulator), as the kernel computes it from the chunk number. -/
abbrev first0 (i : grid0.Coords) : Prop :=
  (Scalar.cmpi .ne (Scalar.extui (Scalar.cmpi .eq (BitVec.ofNat 32 (i 1).val) 0#32)) 0#32) = 1#1
/-- The body's second branch (write the output block). -/
abbrev last0 (i : grid0.Coords) : Prop := k0_cond2 i = 1#1

theorem first_of_chunk : ∀ j : Fin 18,
    ((Scalar.cmpi .ne (Scalar.extui (Scalar.cmpi .eq (BitVec.ofNat 32 j.val) 0#32)) 0#32) = 1#1) ↔ j.val = 0 := by
  decide
theorem last_of_chunk : ∀ j : Fin 18,
    ((Scalar.cmpi .ne (Scalar.extui (Scalar.cmpi .eq (BitVec.ofNat 32 j.val) 17#32)) 0#32) = 1#1) ↔ j.val = 17 := by
  decide

/-- The accumulator is zeroed exactly at the points with chunk number 0, -/
theorem first0_iff (t : Fin cfg0.N) : first0 (grid0.coords t) ↔ t.val % 18 = 0 := by
  have h := first_of_chunk ⟨t.val % 18, Nat.mod_lt _ (by decide)⟩
  show ((Scalar.cmpi .ne (Scalar.extui (Scalar.cmpi .eq (BitVec.ofNat 32 (grid0.coords t 1).val) 0#32)) 0#32) = 1#1) ↔ _
  rw [chunk_of_point0]; exact h
/-- and the output block is written exactly at those with chunk number 17. -/
theorem last0_iff (t : Fin cfg0.N) : last0 (grid0.coords t) ↔ t.val % 18 = 17 := by
  have h := last_of_chunk ⟨t.val % 18, Nat.mod_lt _ (by decide)⟩
  show ((Scalar.cmpi .ne (Scalar.extui (Scalar.cmpi .eq (BitVec.ofNat 32 (grid0.coords t 1).val) 17#32)) 0#32) = 1#1) ↔ _
  rw [chunk_of_point0]; exact h

/-! ## Where the output block is written back -/

/-- The current staging memref of each window at point `t`, and the kernel body as the pipeline calls it there. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev bodyAt0 (t : Fin cfg0.N) : Prog (TpuEff nD τ sig (Elt F) Λ₀ .tc) PUnit :=
  cc0__gather_weight_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

/-- The edge block of point `t` is `t / 18`. -/
theorem block_of_point0 (t : Fin cfg0.N) : (grid0.coords t 0).val = t.val / 18 := by
  have hN : t.val < 35208 := lt_of_lt_of_eq t.isLt (show cfg0.N = 35208 from N_0)
  show t.val / grid0.stride 0 % 1956 = t.val / 18
  rw [show grid0.stride 0 = 18 from by decide]; omega

/-- The output window's block index at point `t` is (edge block, 0). -/
theorem outIndex0_0 (t : Fin cfg0.N) : (cfg0.win 3).index t 0 = t.val / 18 := by
  have hN : t.val < 35208 := lt_of_lt_of_eq t.isLt (show cfg0.N = 35208 from N_0)
  show (BitVec.ofNat 32 (grid0.coords t 0).val).toNat = t.val / 18
  rw [block_of_point0, BitVec.toNat_ofNat]; omega
theorem outIndex0_1 (t : Fin cfg0.N) : (cfg0.win 3).index t 1 = 0 := rfl

/-- The output block is written back exactly at a row's last point: where the next point has another edge block,
    and at the grid's last point. -/
theorem flush0_3 (t : Fin cfg0.N) : (cfg0.win 3).flush t = true ↔ t.val % 18 = 17 := by
  have hN : t.val < 35208 := lt_of_lt_of_eq t.isLt (show cfg0.N = 35208 from N_0)
  have hNe : cfg0.grid.N = 35208 := N_0
  unfold Pipeline.Window.flush
  rw [show (cfg0.win 3).isOut = true from rfl, Bool.true_and, Bool.or_eq_true, decide_eq_true_eq, decide_eq_true_eq]
  constructor
  · rintro (h | ⟨h, hne⟩)
    · have h' : t.val + 1 = 35208 := h.trans N_0
      omega
    · by_contra h17
      refine hne (funext fun a => ?_)
      match a with
      | ⟨0, _⟩ =>
        have e1 := outIndex0_0 ⟨t.val + 1, h⟩; have e2 := outIndex0_0 t
        show (cfg0.win 3).index ⟨t.val + 1, h⟩ 0 = (cfg0.win 3).index t 0
        rw [e1, e2]; show (t.val + 1) / 18 = t.val / 18; omega
      | ⟨1, _⟩ => rfl
  · intro h17
    by_cases hl : t.val + 1 = 35208
    · exact .inl (hl.trans N_0.symm)
    · have hlt : t.val + 1 < cfg0.N := lt_of_lt_of_eq (by omega : t.val + 1 < 35208) N_0.symm
      refine .inr ⟨hlt, fun he => ?_⟩
      have e := congrFun he 0
      rw [outIndex0_0 ⟨t.val + 1, hlt⟩, outIndex0_0 t] at e
      have : (t.val + 1) / 18 = t.val / 18 := e
      omega

/-- The output window is idle where the block is not written, and written back where it is. -/
theorem idle0_3 (t : Fin cfg0.N) (h : ¬last0 (grid0.coords t)) : cfg0.idle 3 (grid0.coords t) = true := by
  show (!(k0_cond2 (grid0.coords t) == 1#1)) = true
  simp only [Bool.not_eq_true', beq_eq_false_iff_ne, ne_eq]; exact h
theorem live0_3 (t : Fin cfg0.N) (h : last0 (grid0.coords t)) : cfg0.idle 3 (grid0.coords t) = false := by
  show (!(k0_cond2 (grid0.coords t) == 1#1)) = false
  simp only [Bool.not_eq_false', beq_iff_eq]; exact h
theorem noFlush0_3 (t : Fin cfg0.N) (h : ¬last0 (grid0.coords t)) : (cfg0.win 3).flush t = false := by
  cases hf : (cfg0.win 3).flush t
  · rfl
  · exact absurd ((last0_iff t).mpr ((flush0_3 t).mp hf)) h

section Region
-- what the core's buffers hold when the region is entered
variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge block's source words, its weights, and the chunk's table rows, at their literal types. -/
abbrev srcs0 (c : Dev nD) (t : Fin cfg0.N) : Vec F S1024 .i32 := blk0 V c 0 t
abbrev wts0 (c : Dev nD) (t : Fin cfg0.N) : Vec F S1024 .f32 := blk0 V c 1 t
abbrev rows0 (c : Dev nD) (t : Fin cfg0.N) : Vec F S4096x64 .bf16 := blk0 V c 2 t

/-! ## The accumulator and the output block, point by point -/

/-- The accumulator after point `n`: the chunk's payload over the zero fill where the row begins, over what the point
    before left elsewhere. -/
def acc0 (c : Dev nD) : (n : ℕ) → n < cfg0.N → Vec F S1024x64 .f32
  | 0, h => k0_pay2 (grid0.coords ⟨0, h⟩) (srcs0 V c ⟨0, h⟩) (k0_pay1 (F := F)) (rows0 V c ⟨0, h⟩)
  | n + 1, h => k0_pay2 (grid0.coords ⟨n + 1, h⟩) (srcs0 V c ⟨n + 1, h⟩)
      (if (n + 1) % 18 = 0 then (k0_pay1 (F := F)) else acc0 c n (Nat.lt_of_succ_lt h)) (rows0 V c ⟨n + 1, h⟩)

theorem acc0_first (c : Dev nD) (t : Fin cfg0.N) (h : t.val % 18 = 0) :
    acc0 V c t.val t.isLt = k0_pay2 (grid0.coords t) (srcs0 V c t) (k0_pay1 (F := F)) (rows0 V c t) := by
  obtain ⟨n, hn⟩ := t
  cases n with
  | zero => rfl
  | succ n =>
    have h' : (n + 1) % 18 = 0 := h
    show k0_pay2 _ _ (if (n + 1) % 18 = 0 then _ else _) _ = _; rw [if_pos h']

theorem acc0_next (c : Dev nD) (t : Fin cfg0.N) (h : ¬t.val % 18 = 0) :
    acc0 V c t.val t.isLt = k0_pay2 (grid0.coords t) (srcs0 V c t)
      (acc0 V c (t.val - 1) (Nat.lt_of_le_of_lt (Nat.sub_le _ _) t.isLt)) (rows0 V c t) := by
  obtain ⟨n, hn⟩ := t
  cases n with
  | zero => exact absurd (Nat.zero_mod _) h
  | succ n =>
    have h' : ¬(n + 1) % 18 = 0 := h
    show k0_pay2 _ _ (if (n + 1) % 18 = 0 then _ else _) _ = _; rw [if_neg h']; rfl

/-- The block point `t` leaves in the output window: the accumulator scaled by the edge block's weights (read only
    at a row's last point, where it is written back). -/
def msg0 (c : Dev nD) (t : Fin cfg0.N) : Vec F S1024x64 .bf16 := k0_pay3 (wts0 V c t) (acc0 V c t.val t.isLt)

/-! ## The body on any memrefs, case by case -/

theorem zeros2 : (![0, 0] : Fin S1024x64.rank → Nat) = fun _ => 0 := by
  funext a; match a with | ⟨0, _⟩ => rfl | ⟨1, _⟩ => rfl
theorem zeros2' : (![0, 0] : Fin S4096x64.rank → Nat) = fun _ => 0 := by
  funext a; match a with | ⟨0, _⟩ => rfl | ⟨1, _⟩ => rfl
theorem zeros1 : (![0] : Fin S1024.rank → Nat) = fun _ => 0 := by
  funext a; match a with | ⟨0, _⟩ => rfl

/-- Reading back a buffer whose last store filled it whole gives that store's payload. -/
theorem read_after_whole_store {κ : Kind} {sp : Space} {S : Shape} {e : EltTy} (v : View sig κ sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst hz
  rw [View.read_writes_eq_canon _ _ _ (fun y => ⟨_, List.mem_cons_self .., by
    show y ∈ (Rect.whole S).set; rw [Rect.set_whole]; exact Finset.mem_univ y⟩)]
  exact View.canon_cons_unit_zero rfl inb w L

set_option maxHeartbeats 1000000 in
/-- A row's first point: the accumulator is zeroed and takes the chunk's payload over the zero fill. -/
theorem run0_first (c : Dev nD) (E : Set ℕ) (i : grid0.Coords)
    (arg2 : Memref sig .tc .vmem S1024 .i32) (harg2 : arg2.IsWhole) (arg3 : Memref sig .tc .vmem S1024 .f32) (harg3 : arg3.IsWhole)
    (arg4 : Memref sig .tc .vmem S4096x64 .bf16) (harg4 : arg4.IsWhole) (arg5 : Memref sig .tc .vmem S1024x64 .bf16) (harg5 : arg5.IsWhole)
    (arg6 : Memref sig .tc .vmem S1024x64 .f32) (harg6 : arg6.IsWhole) (hf : first0 i) (hl : ¬last0 i)
    (xs : Vec F S1024 .i32) (xt : Vec F S4096x64 .bf16) (K : PUnit → sProp 𝕄) :
    iprop(owns (c : Thread nD τ) arg2 fullShare xs ∗ owns (c : Thread nD τ) arg4 fullShare xt ∗ (∃ d, owns (c : Thread nD τ) arg6 fullShare d)
        ∗ (iprop(owns (c : Thread nD τ) arg2 fullShare xs ∗ owns (c : Thread nD τ) arg4 fullShare xt
            ∗ owns (c : Thread nD τ) arg6 fullShare (k0_pay2 i xs (k0_pay1 (F := F)) xt)) -∗ K ⟨⟩))
      ⊢ wp frame (wpE (defs₀ (F := F)) Variants.none c none) E
          (cc0__gather_weight_kernel i arg2 harg2 arg3 harg3 arg4 harg4 arg5 harg5 arg6 harg6) K := by
  simp only [cc0__gather_weight_kernel_eq_skeleton]; unfold cc0__gather_weight_kernel_skel
  unfold owns
  iintro ⟨⟨%f2, %hf2, H2⟩, ⟨%f4, %hf4, H4⟩, ⟨%d6, %f6, -, H6⟩, Hk⟩
  obtain rfl := harg2.eq_unread hf2; obtain rfl := harg4.eq_unread hf4
  sl_exec (disch := first | exact hf | exact hl)
  sl_step
  iapply Hk
  isplitl [H2]
  · iexists _; isplitr; · ipureintro; exact harg2.read_unread _
    iexact H2
  isplitl [H4]
  · iexists _; isplitr; · ipureintro; exact harg4.read_unread _
    iexact H4
  iexists _; isplitr
  swap; · iexact H6
  ipureintro
  sl_unfold_run_names
  rw [read_after_whole_store _ _ zeros2]
  sl_unfold_run_names
  simp only [View.readAt_eq_ld, harg2.read_unread, harg4.read_unread, View.ld_unit_zero (S := S1024) zeros1, View.ld_unit_zero (S := S4096x64) zeros2',
    View.readCov_unit_zero (S := S1024x64) _ zeros2]

set_option maxHeartbeats 1000000 in
/-- A point inside a row: the accumulator takes the chunk's payload over what the point before left. -/
theorem run0_mid (c : Dev nD) (E : Set ℕ) (i : grid0.Coords)
    (arg2 : Memref sig .tc .vmem S1024 .i32) (harg2 : arg2.IsWhole) (arg3 : Memref sig .tc .vmem S1024 .f32) (harg3 : arg3.IsWhole)
    (arg4 : Memref sig .tc .vmem S4096x64 .bf16) (harg4 : arg4.IsWhole) (arg5 : Memref sig .tc .vmem S1024x64 .bf16) (harg5 : arg5.IsWhole)
    (arg6 : Memref sig .tc .vmem S1024x64 .f32) (harg6 : arg6.IsWhole) (hf : ¬first0 i) (hl : ¬last0 i)
    (xs : Vec F S1024 .i32) (xt : Vec F S4096x64 .bf16) (xa : Vec F S1024x64 .f32) (K : PUnit → sProp 𝕄) :
    iprop(owns (c : Thread nD τ) arg2 fullShare xs ∗ owns (c : Thread nD τ) arg4 fullShare xt ∗ owns (c : Thread nD τ) arg6 fullShare xa
        ∗ (iprop(owns (c : Thread nD τ) arg2 fullShare xs ∗ owns (c : Thread nD τ) arg4 fullShare xt
            ∗ owns (c : Thread nD τ) arg6 fullShare (k0_pay2 i xs xa xt)) -∗ K ⟨⟩))
      ⊢ wp frame (wpE (defs₀ (F := F)) Variants.none c none) E
          (cc0__gather_weight_kernel i arg2 harg2 arg3 harg3 arg4 harg4 arg5 harg5 arg6 harg6) K := by
  simp only [cc0__gather_weight_kernel_eq_skeleton]; unfold cc0__gather_weight_kernel_skel
  unfold owns
  iintro ⟨⟨%f2, %hf2, H2⟩, ⟨%f4, %hf4, H4⟩, ⟨%f6, %hf6, H6⟩, Hk⟩
  obtain rfl := harg2.eq_unread hf2; obtain rfl := harg4.eq_unread hf4; obtain rfl := harg6.eq_unread hf6
  sl_exec (disch := first | exact hf | exact hl)
  sl_step
  iapply Hk
  isplitl [H2]
  · iexists _; isplitr; · ipureintro; exact harg2.read_unread _
    iexact H2
  isplitl [H4]
  · iexists _; isplitr; · ipureintro; exact harg4.read_unread _
    iexact H4
  iexists _; isplitr
  swap; · iexact H6
  ipureintro
  sl_unfold_run_names
  rw [read_after_whole_store _ _ zeros2]
  sl_unfold_run_names
  simp only [View.readAt_eq_ld, harg2.read_unread, harg4.read_unread, harg6.read_unread, View.ld_unit_zero (S := S1024) zeros1,
    View.ld_unit_zero (S := S4096x64) zeros2', View.ld_unit_zero (S := S1024x64) zeros2]

set_option maxHeartbeats 1000000 in
/-- A row's last point: as inside the row, and the output block takes the accumulator scaled by the weights. -/
theorem run0_last (c : Dev nD) (E : Set ℕ) (i : grid0.Coords)
    (arg2 : Memref sig .tc .vmem S1024 .i32) (harg2 : arg2.IsWhole) (arg3 : Memref sig .tc .vmem S1024 .f32) (harg3 : arg3.IsWhole)
    (arg4 : Memref sig .tc .vmem S4096x64 .bf16) (harg4 : arg4.IsWhole) (arg5 : Memref sig .tc .vmem S1024x64 .bf16) (harg5 : arg5.IsWhole)
    (arg6 : Memref sig .tc .vmem S1024x64 .f32) (harg6 : arg6.IsWhole) (hf : ¬first0 i) (hl : last0 i)
    (xs : Vec F S1024 .i32) (xw : Vec F S1024 .f32) (xt : Vec F S4096x64 .bf16) (xa : Vec F S1024x64 .f32) (K : PUnit → sProp 𝕄) :
    iprop(owns (c : Thread nD τ) arg2 fullShare xs ∗ owns (c : Thread nD τ) arg3 fullShare xw ∗ owns (c : Thread nD τ) arg4 fullShare xt
        ∗ (∃ d, owns (c : Thread nD τ) arg5 fullShare d) ∗ owns (c : Thread nD τ) arg6 fullShare xa
        ∗ (iprop(owns (c : Thread nD τ) arg2 fullShare xs ∗ owns (c : Thread nD τ) arg3 fullShare xw ∗ owns (c : Thread nD τ) arg4 fullShare xt
            ∗ owns (c : Thread nD τ) arg5 fullShare (k0_pay3 xw (k0_pay2 i xs xa xt))
            ∗ owns (c : Thread nD τ) arg6 fullShare (k0_pay2 i xs xa xt)) -∗ K ⟨⟩))
      ⊢ wp frame (wpE (defs₀ (F := F)) Variants.none c none) E
          (cc0__gather_weight_kernel i arg2 harg2 arg3 harg3 arg4 harg4 arg5 harg5 arg6 harg6) K := by
  simp only [cc0__gather_weight_kernel_eq_skeleton]; unfold cc0__gather_weight_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [read_after_whole_store _ _ zeros2]
    sl_unfold_run_names
    simp only [View.readAt_eq_ld, harg2.read_unread, harg3.read_unread, harg4.read_unread, harg6.read_unread, View.ld_unit_zero (S := S1024) zeros1,
      View.ld_unit_zero (S := S4096x64) zeros2', View.ld_unit_zero (S := S1024x64) zeros2, View.readCov_unit_zero (S := S1024x64) _ zeros2]
  iexists _; isplitr
  swap; · iexact H6
  ipureintro
  sl_unfold_run_names
  rw [read_after_whole_store _ _ zeros2]
  sl_unfold_run_names
  simp only [View.readAt_eq_ld, harg2.read_unread, harg4.read_unread, harg6.read_unread, View.ld_unit_zero (S := S1024) zeros1,
    View.ld_unit_zero (S := S4096x64) zeros2', View.ld_unit_zero (S := S1024x64) zeros2]

/-! ## The invariant: the scratch accumulator between points -/

/-- The kernel's scratch operand, a whole scoped buffer of its own. -/
abbrev scM0 : Memref sig .tc .vmem S1024x64 .f32 := Memref.whole cc0_scratch0

/-- The core's other scoped buffers that no window of this call stages (the second call's staging buffers and
    scratch), each at some contents: carried along unopened. -/
def others0 (c : Dev nD) : sProp 𝕄 :=
  Pipeline.scopedRestBut (Ix := Unit) (Name := ℕ) (U := UR sig nD τ) (Lvl := ℕ) (Val := Elt F) spec0 c [cc0_scratch0]

/-- What the launch hands the region, with the scratch as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0
  rw [Pipeline.scopedRest_split_of_list spec0 c [cc0_scratch0] (by decide) (by decide)]
  simp only [scM0, owns_whole]; rfl

/-- The region's invariant before position `n`: before the first point what the launch hands over; afterwards the
    scratch at what the point before left in it, the other scoped buffers and the generator register as they are. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) scM0 fullShare (acc0 V c n hn) ∗ others0 c) ∗ (∃ r, prngReg c r)) := rfl
theorem Phi0_pos (c : Dev nD) (n : ℕ) (h : n ≤ cfg0.N) (hz : n ≠ 0) :
    Phi0 V c n h = iprop(iprop(owns (c : Thread nD τ) scM0 fullShare (acc0 V c (n - 1) (by omega)) ∗ others0 c) ∗ (∃ r, prngReg c r)) := by
  cases n with
  | zero => exact absurd rfl hz
  | succ n => rfl

/-! ## The proof data -/

/-- The proof data of the first call on core `c`: the arrays as the region finds them; after the body each input's
    buffer at its block and the output's at `msg0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => msg0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = msg0 V c t := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

/-- An input window's current staging buffer holds its block at every point, fetched there or not: where it is not
    fetched the block index has not moved. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_in (c : Dev nD) (t : Fin cfg0.N) (w : Fin cfg0.W) (hidle : cfg0.idle w (grid0.coords t) = false) :
    (dat0 V c).leavesExact w t = owns (c : Thread nD τ) ((cfg0.win w).stage (cfg0.slots t w)) fullShare ((dat0 V c).after w t) := by
  unfold Dat.leavesExact; rw [hidle]

set_option maxHeartbeats 4000000 in
/-- The body at any point: the inputs' buffers hold their blocks; the point's chunk number says which case it is; the
    invariant hands the body the scratch at what the point before left (at anything before the first point) and takes
    it back at this point's accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_in V c t 0 rfl, leaves0_in V c t 1 rfl, leaves0_in V c t 2 rfl, after0_0, after0_1, after0_2]
  have hN : t.val < 35208 := lt_of_lt_of_eq t.isLt (show cfg0.N = 35208 from N_0)
  by_cases h0 : t.val % 18 = 0
  · -- a row's first point
    have hf : first0 (grid0.coords t) := (first0_iff t).mpr h0
    have hl : ¬last0 (grid0.coords t) := fun h => by have := (last0_iff t).mp h; omega
    rw [Dat.leavesExact_idle (dat0 V c) 3 t (idle0_3 t hl) (noFlush0_3 t hl), acc0_first V c t h0]
    by_cases hz : t.val = 0
    · rw [Phi0_castSucc V c t, Phi0_zero V c _ _ hz, PhiA0_eq]
      iintro ⟨⟨⟨HS, Hoth⟩, Hg⟩, Ho, ⟨%d0, H0⟩, ⟨%d1, H1⟩, ⟨%d2, H2⟩, H3⟩
      iapply (run0_first c Set.univ (grid0.coords t) _ _ _ _ _ _ _ _ _ _ hf hl (srcs0 V c t) (rows0 V c t) _)
      isplitl [H0]; · iexact H0
      isplitl [H2]; · iexact H2
      isplitl [HS]; · iexact HS
      iintro ⟨H0, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · rw [Phi0_castSucc V c t, Phi0_pos V c _ _ hz]
      iintro ⟨⟨⟨HS, Hoth⟩, Hg⟩, Ho, ⟨%d0, H0⟩, ⟨%d1, H1⟩, ⟨%d2, H2⟩, H3⟩
      iapply (run0_first c Set.univ (grid0.coords t) _ _ _ _ _ _ _ _ _ _ hf hl (srcs0 V c t) (rows0 V c t) _)
      isplitl [H0]; · iexact H0
      isplitl [H2]; · iexact H2
      isplitl [HS]; · iexists _; iexact HS
      iintro ⟨H0, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
  · have hf : ¬first0 (grid0.coords t) := fun h => h0 ((first0_iff t).mp h)
    have hz : t.val ≠ 0 := fun h => h0 (by rw [h])
    rw [Phi0_castSucc V c t, Phi0_pos V c _ _ hz, acc0_next V c t h0]
    by_cases h1 : t.val % 18 = 17
    · -- a row's last point
      have hl : last0 (grid0.coords t) := (last0_iff t).mpr h1
      rw [leaves0_in V c t 3 (live0_3 t hl), after0_3]
      unfold msg0; rw [acc0_next V c t h0]
      iintro ⟨⟨⟨HS, Hoth⟩, Hg⟩, Ho, ⟨%d0, H0⟩, ⟨%d1, H1⟩, ⟨%d2, H2⟩, ⟨%d3, H3⟩⟩
      iapply (run0_last c Set.univ (grid0.coords t) _ _ _ _ _ _ _ _ _ _ hf hl (srcs0 V c t) (wts0 V c t) (rows0 V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · -- a point inside a row
      have hl : ¬last0 (grid0.coords t) := fun h => h1 ((last0_iff t).mp h)
      rw [Dat.leavesExact_idle (dat0 V c) 3 t (idle0_3 t hl) (noFlush0_3 t hl)]
      iintro ⟨⟨⟨HS, Hoth⟩, Hg⟩, Ho, ⟨%d0, H0⟩, ⟨%d1, H1⟩, ⟨%d2, H2⟩, H3⟩
      iapply (run0_mid c Set.univ (grid0.coords t) _ _ _ _ _ _ _ _ _ _ hf hl (srcs0 V c t) (rows0 V c t) _ _)
      isplitl [H0]; · iexact H0
      isplitl [H2]; · iexact H2
      isplitl [HS]; · iexact HS
      iintro ⟨H0, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- and after the last point the invariant gives it back, the accumulator's contents forgotten. -/
theorem hout0 (c : Dev nD) : (dat0 V c).Φ (Fin.last cfg0.N) ⊢ Pipeline.ΦA spec0 c := by
  have hN : cfg0.N = 35208 := N_0
  rw [show (dat0 V c).Φ (Fin.last cfg0.N) = Phi0 V c (Fin.last cfg0.N).val (Nat.le_of_lt_succ (Fin.last cfg0.N).isLt) from rfl,
    Phi0_pos V c _ _ (by rw [Fin.val_last]; omega), PhiA0_eq]
  iintro ⟨⟨HS, Hoth⟩, Hg⟩
  isplitl [HS Hoth]
  · isplitl [HS]; · iexists _; iexact HS
    iexact Hoth
  iexact Hg

end Region

end Cert.KernelIdeal.Hand

end
-- ==== Proof.KernelIdeal.Region1.lean ====
/-
  The second kernel (the scatter and the row normalisation): what its accumulator and its output block hold after
  every grid point, and the proof that the body keeps to it.

  The grid is 72 x 489, run row by row: point t is node block t / 489 and edge chunk t % 489. In a row the
  accumulator is zeroed at chunk 0, every chunk adds its share (one payload of the chunk's destination words, the
  accumulator and the chunk's message rows), and at chunk 488 the accumulator with every row divided by the larger of its
  norm and a small constant is the output block. Stated for any float family, over the payload names.
-/
import proofs.«407872_j86337432584536_1_alg».proof.Proof.Gen.KernelIdeal.Launch
import proofs.«407872_j86337432584536_1_alg».proof.Proof.Gen.KernelIdeal.Skeleton
import proofs.«407872_j86337432584536_1_alg».proof.Proof.KernelIdeal.Region0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's second coordinate and the two branch conditions -/

/-- The chunk number of point `t` is `t % 489`. -/
theorem chunk_of_point1 (t : Fin cfg1.N) : (grid1.coords t 1).val = t.val % 489 := by
  show t.val / grid1.stride 1 % 489 = t.val % 489
  rw [show grid1.stride 1 = 1 from by decide, Nat.div_one]

/-- The body's first branch (zero the accumulator), as the kernel computes it from the chunk number. -/
abbrev first1 (i : grid1.Coords) : Prop :=
  (Scalar.cmpi .ne (Scalar.extui (Scalar.cmpi .eq (BitVec.ofNat 32 (i 1).val) 0#32)) 0#32) = 1#1
/-- The body's second branch (normalise and write the output block). -/
abbrev last1 (i : grid1.Coords) : Prop := k1_cond2 i = 1#1

theorem first_of_chunk1 : ∀ j : Fin 489,
    ((Scalar.cmpi .ne (Scalar.extui (Scalar.cmpi .eq (BitVec.ofNat 32 j.val) 0#32)) 0#32) = 1#1) ↔ j.val = 0 := by
  decide +kernel
theorem last_of_chunk1 : ∀ j : Fin 489,
    ((Scalar.cmpi .ne (Scalar.extui (Scalar.cmpi .eq (BitVec.ofNat 32 j.val) 488#32)) 0#32) = 1#1) ↔ j.val = 488 := by
  decide +kernel

theorem first1_iff (t : Fin cfg1.N) : first1 (grid1.coords t) ↔ t.val % 489 = 0 := by
  have h := first_of_chunk1 ⟨t.val % 489, Nat.mod_lt _ (by decide)⟩
  show ((Scalar.cmpi .ne (Scalar.extui (Scalar.cmpi .eq (BitVec.ofNat 32 (grid1.coords t 1).val) 0#32)) 0#32) = 1#1) ↔ _
  rw [chunk_of_point1]; exact h
theorem last1_iff (t : Fin cfg1.N) : last1 (grid1.coords t) ↔ t.val % 489 = 488 := by
  have h := last_of_chunk1 ⟨t.val % 489, Nat.mod_lt _ (by decide)⟩
  show ((Scalar.cmpi .ne (Scalar.extui (Scalar.cmpi .eq (BitVec.ofNat 32 (grid1.coords t 1).val) 488#32)) 0#32) = 1#1) ↔ _
  rw [chunk_of_point1]; exact h

/-! ## Where the output block is written back -/

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev bodyAt1 (t : Fin cfg1.N) : Prog (TpuEff nD τ sig (Elt F) Λ₀ .tc) PUnit :=
  cc1__scatter_norm_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

/-- The node block of point `t` is `t / 489`. -/
theorem block_of_point1 (t : Fin cfg1.N) : (grid1.coords t 0).val = t.val / 489 := by
  have hN : t.val < 35208 := lt_of_lt_of_eq t.isLt (show cfg1.N = 35208 from N_1)
  show t.val / grid1.stride 0 % 72 = t.val / 489
  rw [show grid1.stride 0 = 489 from by decide]; omega

/-- The output window's block index at point `t` is (node block, 0). -/
theorem outIndex1_0 (t : Fin cfg1.N) : (cfg1.win 2).index t 0 = t.val / 489 := by
  have hN : t.val < 35208 := lt_of_lt_of_eq t.isLt (show cfg1.N = 35208 from N_1)
  show (BitVec.ofNat 32 (grid1.coords t 0).val).toNat = t.val / 489
  rw [block_of_point1, BitVec.toNat_ofNat]; omega
theorem outIndex1_1 (t : Fin cfg1.N) : (cfg1.win 2).index t 1 = 0 := rfl

/-- The output block is written back exactly at a row's last point. -/
theorem flush1_2 (t : Fin cfg1.N) : (cfg1.win 2).flush t = true ↔ t.val % 489 = 488 := by
  have hN : t.val < 35208 := lt_of_lt_of_eq t.isLt (show cfg1.N = 35208 from N_1)
  have hNe : cfg1.grid.N = 35208 := N_1
  unfold Pipeline.Window.flush
  rw [show (cfg1.win 2).isOut = true from rfl, Bool.true_and, Bool.or_eq_true, decide_eq_true_eq, decide_eq_true_eq]
  constructor
  · rintro (h | ⟨h, hne⟩)
    · have h' : t.val + 1 = 35208 := h.trans N_1
      omega
    · by_contra h488
      refine hne (funext fun a => ?_)
      match a with
      | ⟨0, _⟩ =>
        have e1 := outIndex1_0 ⟨t.val + 1, h⟩; have e2 := outIndex1_0 t
        show (cfg1.win 2).index ⟨t.val + 1, h⟩ 0 = (cfg1.win 2).index t 0
        rw [e1, e2]; show (t.val + 1) / 489 = t.val / 489; omega
      | ⟨1, _⟩ => rfl
  · intro h488
    by_cases hl : t.val + 1 = 35208
    · exact .inl (hl.trans N_1.symm)
    · have hlt : t.val + 1 < cfg1.N := lt_of_lt_of_eq (by omega : t.val + 1 < 35208) N_1.symm
      refine .inr ⟨hlt, fun he => ?_⟩
      have e := congrFun he 0
      rw [outIndex1_0 ⟨t.val + 1, hlt⟩, outIndex1_0 t] at e
      have : (t.val + 1) / 489 = t.val / 489 := e
      omega

theorem idle1_2 (t : Fin cfg1.N) (h : ¬last1 (grid1.coords t)) : cfg1.idle 2 (grid1.coords t) = true := by
  show (!(k1_cond2 (grid1.coords t) == 1#1)) = true
  simp only [Bool.not_eq_true', beq_eq_false_iff_ne, ne_eq]; exact h
theorem live1_2 (t : Fin cfg1.N) (h : last1 (grid1.coords t)) : cfg1.idle 2 (grid1.coords t) = false := by
  show (!(k1_cond2 (grid1.coords t) == 1#1)) = false
  simp only [Bool.not_eq_false', beq_iff_eq]; exact h
theorem noFlush1_2 (t : Fin cfg1.N) (h : ¬last1 (grid1.coords t)) : (cfg1.win 2).flush t = false := by
  cases hf : (cfg1.win 2).flush t
  · rfl
  · exact absurd ((last1_iff t).mpr ((flush1_2 t).mp hf)) h

section Region
-- what the core's buffers hold when the region is entered
variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The chunk's message rows and its destination words, at their literal types. -/
abbrev msgs1 (c : Dev nD) (t : Fin cfg1.N) : Vec F S4096x64 .bf16 := blk1 V c 0 t
abbrev dsts1 (c : Dev nD) (t : Fin cfg1.N) : Vec F S4096 .i32 := blk1 V c 1 t

/-! ## The accumulator and the output block, point by point -/

def acc1 (c : Dev nD) : (n : ℕ) → n < cfg1.N → Vec F S1024x64 .f32
  | 0, h => k1_pay2 (grid1.coords ⟨0, h⟩) (dsts1 V c ⟨0, h⟩) (k1_pay1 (F := F)) (msgs1 V c ⟨0, h⟩)
  | n + 1, h => k1_pay2 (grid1.coords ⟨n + 1, h⟩) (dsts1 V c ⟨n + 1, h⟩)
      (if (n + 1) % 489 = 0 then (k1_pay1 (F := F)) else acc1 c n (Nat.lt_of_succ_lt h)) (msgs1 V c ⟨n + 1, h⟩)

theorem acc1_first (c : Dev nD) (t : Fin cfg1.N) (h : t.val % 489 = 0) :
    acc1 V c t.val t.isLt = k1_pay2 (grid1.coords t) (dsts1 V c t) (k1_pay1 (F := F)) (msgs1 V c t) := by
  obtain ⟨n, hn⟩ := t
  cases n with
  | zero => rfl
  | succ n =>
    have h' : (n + 1) % 489 = 0 := h
    show k1_pay2 _ _ (if (n + 1) % 489 = 0 then _ else _) _ = _; rw [if_pos h']

theorem acc1_next (c : Dev nD) (t : Fin cfg1.N) (h : ¬t.val % 489 = 0) :
    acc1 V c t.val t.isLt = k1_pay2 (grid1.coords t) (dsts1 V c t)
      (acc1 V c (t.val - 1) (Nat.lt_of_le_of_lt (Nat.sub_le _ _) t.isLt)) (msgs1 V c t) := by
  obtain ⟨n, hn⟩ := t
  cases n with
  | zero => exact absurd (Nat.zero_mod _) h
  | succ n =>
    have h' : ¬(n + 1) % 489 = 0 := h
    show k1_pay2 _ _ (if (n + 1) % 489 = 0 then _ else _) _ = _; rw [if_neg h']; rfl

/-- The block point `t` leaves in the output window: the accumulator with its rows normalised (read only at a
    row's last point, where it is written back). -/
def out1 (c : Dev nD) (t : Fin cfg1.N) : Vec F S1024x64 .f32 := k1_pay3 (acc1 V c t.val t.isLt)

/-! ## The body on any memrefs, case by case -/

theorem zeros1' : (![0] : Fin S4096.rank → Nat) = fun _ => 0 := by
  funext a; match a with | ⟨0, _⟩ => rfl

set_option maxHeartbeats 1000000 in
theorem run1_first (c : Dev nD) (E : Set ℕ) (i : grid1.Coords)
    (arg2 : Memref sig .tc .vmem S4096x64 .bf16) (harg2 : arg2.IsWhole) (arg3 : Memref sig .tc .vmem S4096 .i32) (harg3 : arg3.IsWhole)
    (arg4 : Memref sig .tc .vmem S1024x64 .f32) (harg4 : arg4.IsWhole) (arg5 : Memref sig .tc .vmem S1024x64 .f32) (harg5 : arg5.IsWhole)
    (hf : first1 i) (hl : ¬last1 i)
    (xm : Vec F S4096x64 .bf16) (xd : Vec F S4096 .i32) (K : PUnit → sProp 𝕄) :
    iprop(owns (c : Thread nD τ) arg2 fullShare xm ∗ owns (c : Thread nD τ) arg3 fullShare xd ∗ (∃ d, owns (c : Thread nD τ) arg5 fullShare d)
        ∗ (iprop(owns (c : Thread nD τ) arg2 fullShare xm ∗ owns (c : Thread nD τ) arg3 fullShare xd
            ∗ owns (c : Thread nD τ) arg5 fullShare (k1_pay2 i xd (k1_pay1 (F := F)) xm)) -∗ K ⟨⟩))
      ⊢ wp frame (wpE (defs₀ (F := F)) Variants.none c none) E
          (cc1__scatter_norm_kernel i arg2 harg2 arg3 harg3 arg4 harg4 arg5 harg5) K := by
  simp only [cc1__scatter_norm_kernel_eq_skeleton]; unfold cc1__scatter_norm_kernel_skel
  unfold owns
  iintro ⟨⟨%f2, %hf2, H2⟩, ⟨%f3, %hf3, H3⟩, ⟨%d5, %f5, -, H5⟩, Hk⟩
  obtain rfl := harg2.eq_unread hf2; obtain rfl := harg3.eq_unread hf3
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  sl_unfold_run_names
  rw [read_after_whole_store _ _ zeros2]
  sl_unfold_run_names
  simp only [View.readAt_eq_ld, harg2.read_unread, harg3.read_unread, View.ld_unit_zero (S := S4096) zeros1', View.ld_unit_zero (S := S4096x64) zeros2',
    View.readCov_unit_zero (S := S1024x64) _ zeros2]

set_option maxHeartbeats 1000000 in
theorem run1_mid (c : Dev nD) (E : Set ℕ) (i : grid1.Coords)
    (arg2 : Memref sig .tc .vmem S4096x64 .bf16) (harg2 : arg2.IsWhole) (arg3 : Memref sig .tc .vmem S4096 .i32) (harg3 : arg3.IsWhole)
    (arg4 : Memref sig .tc .vmem S1024x64 .f32) (harg4 : arg4.IsWhole) (arg5 : Memref sig .tc .vmem S1024x64 .f32) (harg5 : arg5.IsWhole)
    (hf : ¬first1 i) (hl : ¬last1 i)
    (xm : Vec F S4096x64 .bf16) (xd : Vec F S4096 .i32) (xa : Vec F S1024x64 .f32) (K : PUnit → sProp 𝕄) :
    iprop(owns (c : Thread nD τ) arg2 fullShare xm ∗ owns (c : Thread nD τ) arg3 fullShare xd ∗ owns (c : Thread nD τ) arg5 fullShare xa
        ∗ (iprop(owns (c : Thread nD τ) arg2 fullShare xm ∗ owns (c : Thread nD τ) arg3 fullShare xd
            ∗ owns (c : Thread nD τ) arg5 fullShare (k1_pay2 i xd xa xm)) -∗ K ⟨⟩))
      ⊢ wp frame (wpE (defs₀ (F := F)) Variants.none c none) E
          (cc1__scatter_norm_kernel i arg2 harg2 arg3 harg3 arg4 harg4 arg5 harg5) K := by
  simp only [cc1__scatter_norm_kernel_eq_skeleton]; unfold cc1__scatter_norm_kernel_skel
  unfold owns
  iintro ⟨⟨%f2, %hf2, H2⟩, ⟨%f3, %hf3, H3⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  sl_unfold_run_names
  rw [read_after_whole_store _ _ zeros2]
  sl_unfold_run_names
  simp only [View.readAt_eq_ld, harg2.read_unread, harg3.read_unread, harg5.read_unread, View.ld_unit_zero (S := S4096) zeros1',
    View.ld_unit_zero (S := S4096x64) zeros2', View.ld_unit_zero (S := S1024x64) zeros2]

set_option maxHeartbeats 1000000 in
theorem run1_last (c : Dev nD) (E : Set ℕ) (i : grid1.Coords)
    (arg2 : Memref sig .tc .vmem S4096x64 .bf16) (harg2 : arg2.IsWhole) (arg3 : Memref sig .tc .vmem S4096 .i32) (harg3 : arg3.IsWhole)
    (arg4 : Memref sig .tc .vmem S1024x64 .f32) (harg4 : arg4.IsWhole) (arg5 : Memref sig .tc .vmem S1024x64 .f32) (harg5 : arg5.IsWhole)
    (hf : ¬first1 i) (hl : last1 i)
    (xm : Vec F S4096x64 .bf16) (xd : Vec F S4096 .i32) (xa : Vec F S1024x64 .f32) (K : PUnit → sProp 𝕄) :
    iprop(owns (c : Thread nD τ) arg2 fullShare xm ∗ owns (c : Thread nD τ) arg3 fullShare xd
        ∗ (∃ d, owns (c : Thread nD τ) arg4 fullShare d) ∗ owns (c : Thread nD τ) arg5 fullShare xa
        ∗ (iprop(owns (c : Thread nD τ) arg2 fullShare xm ∗ owns (c : Thread nD τ) arg3 fullShare xd
            ∗ owns (c : Thread nD τ) arg4 fullShare (k1_pay3 (k1_pay2 i xd xa xm))
            ∗ owns (c : Thread nD τ) arg5 fullShare (k1_pay2 i xd xa xm)) -∗ K ⟨⟩))
      ⊢ wp frame (wpE (defs₀ (F := F)) Variants.none c none) E
          (cc1__scatter_norm_kernel i arg2 harg2 arg3 harg3 arg4 harg4 arg5 harg5) K := by
  simp only [cc1__scatter_norm_kernel_eq_skeleton]; unfold cc1__scatter_norm_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [read_after_whole_store _ _ zeros2]
    sl_unfold_run_names
    simp only [View.readAt_eq_ld, harg2.read_unread, harg3.read_unread, harg5.read_unread, View.ld_unit_zero (S := S4096) zeros1',
      View.ld_unit_zero (S := S4096x64) zeros2', View.ld_unit_zero (S := S1024x64) zeros2, View.readCov_unit_zero (S := S1024x64) _ zeros2]
  iexists _; isplitr
  swap; · iexact H5
  ipureintro
  sl_unfold_run_names
  rw [read_after_whole_store _ _ zeros2]
  sl_unfold_run_names
  simp only [View.readAt_eq_ld, harg2.read_unread, harg3.read_unread, harg5.read_unread, View.ld_unit_zero (S := S4096) zeros1',
    View.ld_unit_zero (S := S4096x64) zeros2', View.ld_unit_zero (S := S1024x64) zeros2]

/-! ## The invariant: the scratch accumulator between points -/

abbrev scM1 : Memref sig .tc .vmem S1024x64 .f32 := Memref.whole cc1_scratch0

/-- The core's other scoped buffers that no window of this call stages (the first call's staging buffers and
    scratch), each at some contents: carried along unopened. -/
def others1 (c : Dev nD) : sProp 𝕄 :=
  Pipeline.scopedRestBut (Ix := Unit) (Name := ℕ) (U := UR sig nD τ) (Lvl := ℕ) (Val := Elt F) spec1 c [cc1_scratch0]

/-- What the launch hands the region, with the scratch as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [scM1, owns_whole]; rfl

def Phi1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1 fullShare (acc1 V c n hn) ∗ others1 c) ∗ (∃ r, prngReg c r)) := rfl
theorem Phi1_pos (c : Dev nD) (n : ℕ) (h : n ≤ cfg1.N) (hz : n ≠ 0) :
    Phi1 V c n h = iprop(iprop(owns (c : Thread nD τ) scM1 fullShare (acc1 V c (n - 1) (by omega)) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 V c t := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

/-- An input window's current staging buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

theorem leaves1_in (c : Dev nD) (t : Fin cfg1.N) (w : Fin cfg1.W) (hidle : cfg1.idle w (grid1.coords t) = false) :
    (dat1 V c).leavesExact w t = owns (c : Thread nD τ) ((cfg1.win w).stage (cfg1.slots t w)) fullShare ((dat1 V c).after w t) := by
  unfold Dat.leavesExact; rw [hidle]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [leaves1_in V c t 0 rfl, leaves1_in V c t 1 rfl, after1_0, after1_1]
  have hN : t.val < 35208 := lt_of_lt_of_eq t.isLt (show cfg1.N = 35208 from N_1)
  by_cases h0 : t.val % 489 = 0
  · have hf : first1 (grid1.coords t) := (first1_iff t).mpr h0
    have hl : ¬last1 (grid1.coords t) := fun h => by have := (last1_iff t).mp h; omega
    rw [Dat.leavesExact_idle (dat1 V c) 2 t (idle1_2 t hl) (noFlush1_2 t hl), acc1_first V c t h0]
    by_cases hz : t.val = 0
    · rw [Phi1_castSucc V c t, Phi1_zero V c _ _ hz, PhiA1_eq]
      iintro ⟨⟨⟨HS, Hoth⟩, Hg⟩, Ho, ⟨%d0, H0⟩, ⟨%d1, H1⟩, H2⟩
      iapply (run1_first c Set.univ (grid1.coords t) _ _ _ _ _ _ _ _ hf hl (msgs1 V c t) (dsts1 V c t) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Phi1_castSucc V c t, Phi1_pos V c _ _ hz]
      iintro ⟨⟨⟨HS, Hoth⟩, Hg⟩, Ho, ⟨%d0, H0⟩, ⟨%d1, H1⟩, H2⟩
      iapply (run1_first c Set.univ (grid1.coords t) _ _ _ _ _ _ _ _ hf hl (msgs1 V c t) (dsts1 V c t) _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hf : ¬first1 (grid1.coords t) := fun h => h0 ((first1_iff t).mp h)
    have hz : t.val ≠ 0 := fun h => h0 (by rw [h])
    rw [Phi1_castSucc V c t, Phi1_pos V c _ _ hz, acc1_next V c t h0]
    by_cases h1 : t.val % 489 = 488
    · have hl : last1 (grid1.coords t) := (last1_iff t).mpr h1
      rw [leaves1_in V c t 2 (live1_2 t hl), after1_2]
      unfold out1; rw [acc1_next V c t h0]
      iintro ⟨⟨⟨HS, Hoth⟩, Hg⟩, Ho, ⟨%d0, H0⟩, ⟨%d1, H1⟩, ⟨%d2, H2⟩⟩
      iapply (run1_last c Set.univ (grid1.coords t) _ _ _ _ _ _ _ _ hf hl (msgs1 V c t) (dsts1 V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hl : ¬last1 (grid1.coords t) := fun h => h1 ((last1_iff t).mp h)
      rw [Dat.leavesExact_idle (dat1 V c) 2 t (idle1_2 t hl) (noFlush1_2 t hl)]
      iintro ⟨⟨⟨HS, Hoth⟩, Hg⟩, Ho, ⟨%d0, H0⟩, ⟨%d1, H1⟩, H2⟩
      iapply (run1_mid c Set.univ (grid1.coords t) _ _ _ _ _ _ _ _ hf hl (msgs1 V c t) (dsts1 V c t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]

theorem hout1 (c : Dev nD) : (dat1 V c).Φ (Fin.last cfg1.N) ⊢ Pipeline.ΦA spec1 c := by
  have hN : cfg1.N = 35208 := N_1
  rw [show (dat1 V c).Φ (Fin.last cfg1.N) = Phi1 V c (Fin.last cfg1.N).val (Nat.le_of_lt_succ (Fin.last cfg1.N).isLt) from rfl,
    Phi1_pos V c _ _ (by rw [Fin.val_last]; omega), PhiA1_eq]
  iintro ⟨⟨HS, Hoth⟩, Hg⟩
  isplitl [HS Hoth]
  · isplitl [HS]; · iexists _; iexact HS
    iexact Hoth
  iexact Hg

end Region

end Cert.KernelIdeal.Hand

end
-- ==== Proof.KernelIdeal.Run.lean ====
/-
  The whole program from the launch to the return: eight stretches of host operations (the cast of the table, three
  constants and the four paddings), the two kernel regions, and the final slice. Between two items every unscoped
  buffer of a core is held at known contents: the launch memory, then each stretch's operations applied in turn, then,
  at a region's exit, that region's arrays at what its write-backs leave and every other buffer as it was. The run
  ends with every unscoped buffer at the last of these contents, which gives both that the arguments end as launched
  and what the result buffer holds.
-/
import proofs.«407872_j86337432584536_1_alg».proof.Proof.Gen.KernelIdeal.Regions
import proofs.«407872_j86337432584536_1_alg».proof.Proof.KernelIdeal.Region0
import proofs.«407872_j86337432584536_1_alg».proof.Proof.KernelIdeal.Region1
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch, -/
abbrev W0 (c : Dev nD) : Valuation τ sig (Elt F) := fun b => m (c, b)
/-- after the cast of the table to the narrow format and the first constant, -/
abbrev W1 (c : Dev nD) : Valuation τ sig (Elt F) := StableHlo.after hostOps0 (W0 m c)
/-- after the table's padding, -/
abbrev W2 (c : Dev nD) : Valuation τ sig (Elt F) := StableHlo.after hostOps0_1 (W1 m c)
abbrev W3 (c : Dev nD) : Valuation τ sig (Elt F) := StableHlo.after hostOps0_2 (W2 m c)
/-- after the padding of the source words, -/
abbrev W4 (c : Dev nD) : Valuation τ sig (Elt F) := StableHlo.after hostOps0_3 (W3 m c)
abbrev W5 (c : Dev nD) : Valuation τ sig (Elt F) := StableHlo.after hostOps0_4 (W4 m c)
/-- after the padding of the destination words, -/
abbrev W6 (c : Dev nD) : Valuation τ sig (Elt F) := StableHlo.after hostOps0_5 (W5 m c)
abbrev W7 (c : Dev nD) : Valuation τ sig (Elt F) := StableHlo.after hostOps0_6 (W6 m c)
/-- after the padding of the weights: what the first region is entered from. -/
abbrev W8 (c : Dev nD) : Valuation τ sig (Elt F) := StableHlo.after hostOps0_7 (W7 m c)
/-- The same read at the TensorCore's references. -/
abbrev E0 (c : Dev nD) (b : Ref sig .tc) : Buf (Elt F) ((c : Thread nD τ).loc b) := W8 m c b

/-- At the first region's exit: its arrays at what the pipeline leaves, every other buffer as entered. -/
def W9 (c : Dev nD) : Valuation τ sig (Elt F) :=
  Pipeline.withArrays spec0 c (W8 m c) fun w => (dat0 (E0 m) c).arrAt w cfg0.N
theorem W9_arr (c : Dev nD) (w : Fin cfg0.W) :
    W9 m c (Proc.devRef .tc (Pipeline.arrRef spec0 w)) = (dat0 (E0 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = W8 m c (Proc.devRef .tc b) := by
  unfold W9; exact Pipeline.withArrays_of_ne spec0 c _ _ b hb
/-- The same read at the TensorCore's references: what the second region is entered from. -/
abbrev E1 (c : Dev nD) (b : Ref sig .tc) : Buf (Elt F) ((c : Thread nD τ).loc b) := W9 m c b
theorem hF0 (c : Dev nD) (w : Fin cfg0.W) : (dat0 (E0 m) c).arrAt w cfg0.N = E1 m c (Pipeline.arrRef spec0 w) :=
  (W9_arr m c w).symm
theorem hrest0 (c : Dev nD) : ∀ b, b ∉ Finset.univ.image (Pipeline.arrRef spec0) → E1 m c b = E0 m c b :=
  fun b hb => W9_of_ne m c b fun w e => hb (Finset.mem_image.mpr ⟨w, Finset.mem_univ _, e⟩)

/-- At the second region's exit. -/
def W10 (c : Dev nD) : Valuation τ sig (Elt F) :=
  Pipeline.withArrays spec1 c (W9 m c) fun w => (dat1 (E1 m) c).arrAt w cfg1.N
theorem W10_arr (c : Dev nD) (w : Fin cfg1.W) :
    W10 m c (Proc.devRef .tc (Pipeline.arrRef spec1 w)) = (dat1 (E1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev E2 (c : Dev nD) (b : Ref sig .tc) : Buf (Elt F) ((c : Thread nD τ).loc b) := W10 m c b
theorem hF1 (c : Dev nD) (w : Fin cfg1.W) : (dat1 (E1 m) c).arrAt w cfg1.N = E2 m c (Pipeline.arrRef spec1 w) :=
  (W10_arr m c w).symm
theorem hrest1 (c : Dev nD) : ∀ b, b ∉ Finset.univ.image (Pipeline.arrRef spec1) → E2 m c b = E1 m c b :=
  fun b hb => W10_of_ne m c b fun w e => hb (Finset.mem_image.mpr ⟨w, Finset.mem_univ _, e⟩)

/-- After the final slice: what the program ends with. -/
abbrev W11 (c : Dev nD) : Valuation τ sig (Elt F) := StableHlo.after hostOps2 (W10 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬(Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- The first region: entered from every unscoped buffer at `W8`, left at `W9`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W9`, left at `W10`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .region (reg0 m),
    .region (reg1 m),
    .host (hseg hostOps2 hostOps2_sub hostOps2_fresh (W10 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer of every core at the last contents of the fold above. -/
theorem run_all : θ_run defs (onTc (τ := τ) (main (F := F))) ⟨m, fun _ => 0, ρ⟩ (fun r => ∀ c : Dev nD,
      ∀ b : Ref sig .tc, ¬(Proc.devRef .tc b : DevRef τ sig).isScoped →
        r.2.mem ((c.tc : Thread nD τ).loc b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (StableHlo.after hostOps2 (W10 m c)) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c b hb => h c _ (mem_uc b hb))

/-! ## What no item writes is as launched -/

/-- A buffer no host stretch before the regions writes holds its launch contents when the first region is entered. -/
theorem W8_of_launch (c : Dev nD) (b : Ref sig .tc) (h0 : b ∉ hostOps0_W) (h1 : b ∉ hostOps0_1_W) (h2 : b ∉ hostOps0_2_W)
    (h3 : b ∉ hostOps0_3_W) (h4 : b ∉ hostOps0_4_W) (h5 : b ∉ hostOps0_5_W) (h6 : b ∉ hostOps0_6_W) (h7 : b ∉ hostOps0_7_W) :
    W8 m c b = m ((c : Thread nD τ).loc b) :=
  (V8_of m c b h7).trans <| (V7_of m c b h6).trans <| (V6_of m c b h5).trans <| (V5_of m c b h4).trans <|
    (V4_of m c b h3).trans <| (V3_of m c b h2).trans <| (V2_of m c b h1).trans <| (V1_of m c b h0).trans rfl

/-- A buffer that is no array of either region and that no host operation writes ends as launched. -/
theorem W11_of_launch (c : Dev nD) (b : Ref sig .tc) (hne0 : ∀ w, Pipeline.arrRef spec0 w ≠ b) (hne1 : ∀ w, Pipeline.arrRef spec1 w ≠ b)
    (h0 : b ∉ hostOps0_W) (h1 : b ∉ hostOps0_1_W) (h2 : b ∉ hostOps0_2_W)
    (h3 : b ∉ hostOps0_3_W) (h4 : b ∉ hostOps0_4_W) (h5 : b ∉ hostOps0_5_W) (h6 : b ∉ hostOps0_6_W) (h7 : b ∉ hostOps0_7_W)
    (h8 : b ∉ hostOps2_W) :
    W11 m c b = m ((c : Thread nD τ).loc b) :=
  (StableHlo.after_of_writes_sub hostOps2 _ hostOps2_writes h8).trans <| (W10_of_ne m c b hne1).trans <|
    (W9_of_ne m c b hne0).trans <| W8_of_launch m c b h0 h1 h2 h3 h4 h5 h6 h7

theorem W11_main_arg0 (c : Dev nD) : W11 m c main_arg0 = m ((c : Thread nD τ).loc main_arg0) :=
  W11_of_launch m c main_arg0 (by decide) (by decide) (by decide) (by decide) (by decide) (by decide) (by decide) (by decide) (by decide) (by decide) (by decide)
theorem W11_main_arg1 (c : Dev nD) : W11 m c main_arg1 = m ((c : Thread nD τ).loc main_arg1) :=
  W11_of_launch m c main_arg1 (by decide) (by decide) (by decide) (by decide) (by decide) (by decide) (by decide) (by decide) (by decide) (by decide) (by decide)
theorem W11_main_arg2 (c : Dev nD) : W11 m c main_arg2 = m ((c : Thread nD τ).loc main_arg2) :=
  W11_of_launch m c main_arg2 (by decide) (by decide) (by decide) (by decide) (by decide) (by decide) (by decide) (by decide) (by decide) (by decide) (by decide)
theorem W11_main_arg3 (c : Dev nD) : W11 m c main_arg3 = m ((c : Thread nD τ).loc main_arg3) :=
  W11_of_launch m c main_arg3 (by decide) (by decide) (by decide) (by decide) (by decide) (by decide) (by decide) (by decide) (by decide) (by decide) (by decide)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (W11_main_arg0 m c), (h c main_arg1 (by decide)).trans (W11_main_arg1 m c),
      (h c main_arg2 (by decide)).trans (W11_main_arg2 m c), (h c main_arg3 (by decide)).trans (W11_main_arg3 m c)⟩)
    (run_all m ρ)

end Cert.KernelIdeal.Hand

end
-- ==== Proof.Spec.lean ====
/-
  The mathematics of the claim, stated over the extended reals with no program in sight.

  A graph layer on 70839 nodes with 64 features and 2000000 weighted edges: each edge e carries the message
  emb[src e, ·] * w e to its destination dst e, a node's value is the sum of the messages that arrive at it, and every
  node's row is then divided by the larger of its Euclidean norm and a small constant.

  The kernel never indexes: it finds row `src e` by comparing the word with every row number of the table (padded with
  zero rows to 73728 = 18 * 4096) and summing the rows the comparison selects, and it finds the edges arriving at node v
  by comparing v with every destination word (the edge list padded to 2002944 = 489 * 4096 with source 0, destination 0
  and weight 0) and summing the messages the comparison selects. Both are written here as sums over the padded ranges
  (`gathered`, `arriving`); `target` is the plain sum over the edges that end at v. The module Algebra shows
  that the three agree when every source word is a row number.
-/
import Idealize.ShloMosaic.PureOps.Ideal
import Idealize.ShloMosaic.Lib.ValueIdx

noncomputable section

namespace Cert.GraphSpec

open Idealize.ShloMosaic Idealize.ShloMosaic.ValueIdx

/-- The table of node rows, the edge weights and the two lists of edge words, as the programs hold them. -/
abbrev Table : Type := (⟨2, ![70839, 64]⟩ : Shape).Idx → EReal
abbrev Weights : Type := (⟨1, ![2000000]⟩ : Shape).Idx → EReal
abbrev Words : Type := (⟨1, ![2000000]⟩ : Shape).Idx → BitVec 32

/-- Row `n` of the table; a zero row past the table's end (the padding rows). -/
def rowAt (emb : Table) (n : ℕ) (d : Fin 64) : EReal :=
  if h : n < 70839 then emb (ix2 ⟨n, h⟩ d) else 0

/-- Edge `e`'s word in a list; the word 0 past the list's end (the padding edges). -/
def wordAt (x : Words) (e : ℕ) : BitVec 32 :=
  if h : e < 2000000 then x (ix1 ⟨e, h⟩) else 0#32

/-- Edge `e`'s weight; weight 0 past the list's end. -/
def weightAt (w : Weights) (e : ℕ) : EReal :=
  if h : e < 2000000 then w (ix1 ⟨e, h⟩) else 0

/-- What the kernels' comparison of a word with a number leaves: one when the word is that number, zero when not. -/
def ind (a : BitVec 32) (n : ℕ) : EReal := if a = BitVec.ofNat 32 n then 1 else 0

/-- The first kernel's row for edge `e`: every row of the padded table weighted by the comparison of the source
    word with the row's number, summed, times the edge's weight. -/
def gathered (emb : Table) (w : Weights) (src : Words) (e : ℕ) (d : Fin 64) : EReal :=
  (∑ n ∈ Finset.range 73728, ind (wordAt src e) n * rowAt emb n d) * weightAt w e

/-- The second kernel's sum for node `v`: every padded edge's row weighted by the comparison of `v` with the
    destination word, summed. -/
def arriving (emb : Table) (w : Weights) (src dst : Words) (v : ℕ) (d : Fin 64) : EReal :=
  ∑ e ∈ Finset.range 2002944, ind (wordAt dst e) v * gathered emb w src e d

/-- The sum the layer means: over the edges whose destination, read as a signed number, is `v`, the source's row
    times the weight. -/
def target (emb : Table) (w : Weights) (src dst : Words) (v : ℕ) (d : Fin 64) : EReal :=
  ∑ e ∈ Finset.range 2000000,
    if (wordAt dst e).toInt = (v : ℤ) then rowAt emb (wordAt src e).toNat d * weightAt w e else 0

/-- The small constant both programs carry, as the same word on both sides. -/
def eps : EReal := Ideal.ofBits .f32 0x2B8CBCCC#32

/-- A row divided by the larger of its Euclidean norm and `eps`. -/
def normalised (h : Fin 64 → EReal) (d : Fin 64) : EReal :=
  Ideal.div (h d) (max (Ideal.sqrt (∑ k : Fin 64, h k * h k)) eps)

/-- The layer's result, as one function of the four arguments. -/
def result (emb : Table) (w : Weights) (src dst : Words) : (⟨2, ![70839, 64]⟩ : Shape).Idx → EReal :=
  fun i => normalised (target emb w src dst (i 0).val) (i 1)

/-- Every source word is the number of a row of the table. -/
def SourcesInRange (src : Words) : Prop :=
  ∀ e : Fin 2000000, 0 ≤ (src (ix1 e)).toInt ∧ (src (ix1 e)).toInt < 70839

end Cert.GraphSpec

end
-- ==== Proof.Payloads.lean ====
/-
  The two kernels' arithmetic read at an index, over the extended reals.

  Each kernel fills an accumulator with zeros, adds to it one chunk at a time, and ends with a pointwise pass.
  A chunk is a matrix product whose left factor is a matrix of zeros and ones: the comparison of a word with a
  number. In the first kernel entry (r, k) compares edge r's source word with the number of table row k of the
  chunk; in the second it compares the number of node r of the block with edge k's destination word. Read at an
  index the product is therefore a sum, over the chunk, of comparisons times rows. The first kernel then scales
  each row by the edge's weight; the second divides each row by the larger of its Euclidean norm and a constant.
-/
import proofs.«407872_j86337432584536_1_alg».proof.Proof.Gen.KernelIdeal.Skeleton
import proofs.«407872_j86337432584536_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValues

open Cert.KernelIdeal Cert.KernelIdeal.Gen Cert.GraphSpec Idealize.ShloMosaic Idealize.ShloMosaic.ValueIdx

/-! ## Vectors laid along a matrix's rows or columns -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid down the columns of a matrix: entry `(p, c)` is the vector's entry `p`. -/
theorem column_apply {a b : ℕ} (x : (⟨1, ![a]⟩ : Shape).Idx → α) (h1 : (⟨1, ![a]⟩ : Shape).ShapeCasts ⟨1, ![a]⟩)
    (h2 : (⟨1, ![a]⟩ : Shape).ShapeCasts ⟨2, ![a, 1]⟩) (h3 : (⟨2, ![a, 1]⟩ : Shape).Broadcasts ⟨2, ![a, b]⟩)
    (p : Fin a) (c : Fin b) :
    broadcastTo ⟨2, ![a, b]⟩ (shapeCast ⟨2, ![a, 1]⟩ (shapeCast ⟨1, ![a]⟩ x h1) h2) h3 (ix2 p c) = x (ix1 p) :=
  (broadcastTo_a1_ab_apply _ h3 p c).trans
    ((shapeCast_a_a1_apply _ h2 p 0).trans (congrFun (shapeCast_self x h1) (ix1 p)))

/-- A vector laid along the rows of a matrix: entry `(p, c)` is the vector's entry `c`. -/
theorem row_apply {a b : ℕ} (x : (⟨1, ![b]⟩ : Shape).Idx → α) (h1 : (⟨1, ![b]⟩ : Shape).ShapeCasts ⟨1, ![b]⟩)
    (h2 : (⟨1, ![b]⟩ : Shape).ShapeCasts ⟨2, ![1, b]⟩) (h3 : (⟨2, ![1, b]⟩ : Shape).Broadcasts ⟨2, ![a, b]⟩)
    (p : Fin a) (c : Fin b) :
    broadcastTo ⟨2, ![a, b]⟩ (shapeCast ⟨2, ![1, b]⟩ (shapeCast ⟨1, ![b]⟩ x h1) h2) h3 (ix2 p c) = x (ix1 c) :=
  (broadcastTo_1b_ab_apply _ h3 p c).trans
    ((shapeCast_a_1a_apply _ h2 0 c).trans (congrFun (shapeCast_self x h1) (ix1 c)))

end Layout

/-! ## The numbers a chunk's comparison runs over -/

/-- The word of `a * m + k` is the product of the words of `a` and `m` plus the word of `k`: words are numbers
    modulo `2 ^ 32`, and taking the remainder respects sums and products. -/
theorem ofNat_mul_add (a m k : ℕ) :
    BitVec.ofNat 32 a * BitVec.ofNat 32 m + BitVec.ofNat 32 k = BitVec.ofNat 32 (a * m + k) := by
  rw [BitVec.ofNat_add, BitVec.ofNat_mul]

/-- A base word plus the column's number, laid along the rows: entry `(p, c)` is the base plus the word of `c`. -/
theorem numbers_along_row {a b : ℕ} (w : BitVec 32) (hi : (⟨2, ![1, b]⟩ : Shape).Iotas .tc 32 [1])
    (hb : (⟨2, ![1, b]⟩ : Shape).Broadcasts ⟨2, ![a, b]⟩) (p : Fin a) (c : Fin b) :
    broadcastTo ⟨2, ![a, b]⟩ (addi (broadcast ⟨2, ![1, b]⟩ w) (iota .tc ⟨2, ![1, b]⟩ 32 [1] hi)) hb (ix2 p c)
      = w + BitVec.ofNat 32 c.val := by
  refine (broadcastTo_1b_ab_apply _ hb p c).trans ?_
  exact congrArg (w + ·) (iota_single_apply .tc ⟨2, ![1, b]⟩ 32 1 hi (ix2 (0 : Fin 1) c))

/-- A base word plus the row's number, laid down the columns: entry `(p, c)` is the base plus the word of `p`. -/
theorem numbers_down_column {a b : ℕ} (w : BitVec 32) (hi : (⟨2, ![a, 1]⟩ : Shape).Iotas .tc 32 [0])
    (hb : (⟨2, ![a, 1]⟩ : Shape).Broadcasts ⟨2, ![a, b]⟩) (p : Fin a) (c : Fin b) :
    broadcastTo ⟨2, ![a, b]⟩ (addi (broadcast ⟨2, ![a, 1]⟩ w) (iota .tc ⟨2, ![a, 1]⟩ 32 [0] hi)) hb (ix2 p c)
      = w + BitVec.ofNat 32 p.val := by
  refine (broadcastTo_a1_ab_apply _ hb p c).trans ?_
  exact congrArg (w + ·) (iota_single_apply .tc ⟨2, ![a, 1]⟩ 32 0 hi (ix2 p (0 : Fin 1)))

/-! ## A comparison as a number -/

/-- The one-bit comparison of two words, widened to a word and read as a signed number, is one when the words are
    equal and zero when they are not. -/
theorem sitofp_cmp_eq (x y : BitVec 32) :
    (FloatOps.sitofp (F := Ideal) .f32 ((IntOp.cmpi .eq x y).setWidth 32) : EReal) = if x = y then 1 else 0 := by
  by_cases h : x = y
  · have hb : IntOp.cmpi .eq x y = 1#1 := by
      show BitVec.ofBool (x == y) = 1#1
      rw [show (x == y) = true from beq_iff_eq.mpr h]
      rfl
    have h1 : ((1#1 : BitVec 1).setWidth 32).toInt = 1 := by decide
    rw [hb, if_pos h]
    show ((((1#1 : BitVec 1).setWidth 32).toInt : ℝ) : EReal) = 1
    rw [h1]
    simp
  · have hb : IntOp.cmpi .eq x y = 0#1 := by
      show BitVec.ofBool (x == y) = 0#1
      rw [show (x == y) = false from beq_eq_false_iff_ne.mpr h]
      rfl
    have h0 : ((0#1 : BitVec 1).setWidth 32).toInt = 0 := by decide
    rw [hb, if_neg h]
    show ((((0#1 : BitVec 1).setWidth 32).toInt : ℝ) : EReal) = 0
    rw [h0]
    simp

/-- The matrix of comparisons, as the kernels form it and hand it to the product, read at an index. -/
theorem compare_apply {s : Shape} (X Y : IVec s 32) (h1 : 1 < 32) (h2 : FTy.bits .bf16 < FTy.bits .f32) (j : s.Idx) :
    (truncf .bf16 (sitofp (F := Ideal) .f32 (extui 32 (cmpi .eq X Y) h1)) h2 : FVec Ideal s .bf16) j
      = if X j = Y j then 1 else 0 :=
  sitofp_cmp_eq (X j) (Y j)

/-! ## The product over a chunk -/

theorem lhs_dot_S1024x4096_S4096x64_S1024x64_1_0_0_1_n_n_0 (i : S1024x64.Idx) (q : dot_S1024x4096_S4096x64_S1024x64_1_0_0_1_n_n.contr.Idx) :
    (dot_S1024x4096_S4096x64_S1024x64_1_0_0_1_n_n.lhsIdx i q 0).val = (i 0).val := by
  unfold DotDims.lhsIdx
  rw [dif_neg (show ¬(0 : Fin S1024x4096.rank) ∈ dot_S1024x4096_S4096x64_S1024x64_1_0_0_1_n_n.lhsBatch by decide), dif_pos (show (0 : Fin S1024x4096.rank) ∈ dot_S1024x4096_S4096x64_S1024x64_1_0_0_1_n_n.lhsNonContracting by decide)]
  rfl
theorem lhs_dot_S1024x4096_S4096x64_S1024x64_1_0_0_1_n_n_1 (i : S1024x64.Idx) (q : dot_S1024x4096_S4096x64_S1024x64_1_0_0_1_n_n.contr.Idx) :
    (dot_S1024x4096_S4096x64_S1024x64_1_0_0_1_n_n.lhsIdx i q 1).val = (q ⟨0, by decide⟩).val :=
  dot_S1024x4096_S4096x64_S1024x64_1_0_0_1_n_n.lhsIdx_val_of_single rfl i q
theorem rhs_dot_S1024x4096_S4096x64_S1024x64_1_0_0_1_n_n_0 (i : S1024x64.Idx) (q : dot_S1024x4096_S4096x64_S1024x64_1_0_0_1_n_n.contr.Idx) :
    (dot_S1024x4096_S4096x64_S1024x64_1_0_0_1_n_n.rhsIdx i q 0).val = (q ⟨0, by decide⟩).val :=
  dot_S1024x4096_S4096x64_S1024x64_1_0_0_1_n_n.rhsIdx_val_of_single rfl i q
theorem rhs_dot_S1024x4096_S4096x64_S1024x64_1_0_0_1_n_n_1 (i : S1024x64.Idx) (q : dot_S1024x4096_S4096x64_S1024x64_1_0_0_1_n_n.contr.Idx) :
    (dot_S1024x4096_S4096x64_S1024x64_1_0_0_1_n_n.rhsIdx i q 1).val = (i 1).val := by
  unfold DotDims.rhsIdx
  rw [dif_neg (show ¬(1 : Fin S4096x64.rank) ∈ dot_S1024x4096_S4096x64_S1024x64_1_0_0_1_n_n.rhsBatch by decide), dif_pos (show (1 : Fin S4096x64.rank) ∈ dot_S1024x4096_S4096x64_S1024x64_1_0_0_1_n_n.rhsNonContracting by decide)]
  rfl

/-- The kernels' matrix product into the zero accumulator, read at `(r, d)`: the sum over the 4096 contracted
    positions of the left factor's row `r` times the right factor's column `d`. -/
theorem product_apply (A : FVec Ideal S1024x4096 .bf16) (B : FVec Ideal S4096x64 .bf16) (r : Fin 1024) (d : Fin 64) :
    matmul dot_S1024x4096_S4096x64_S1024x64_1_0_0_1_n_n none A B (constant (F := Ideal) S1024x64 .f32 0x00000000#32) (ix2 r d)
      = ∑ k : Fin 4096, A (ix2 r k) * B (ix2 k d) := by
  show FloatOps.matmul dot_S1024x4096_S4096x64_S1024x64_1_0_0_1_n_n none A B (constant (F := Ideal) S1024x64 .f32 0x00000000#32) (ix2 r d) = _
  rw [Ideal.matmul_constant_zero_apply, ← Equiv.sum_comp (contrEquiv1 dot_S1024x4096_S4096x64_S1024x64_1_0_0_1_n_n 4096 rfl rfl).symm]
  refine Finset.sum_congr rfl fun k _ => ?_
  have hk := contrEquiv1_symm_val dot_S1024x4096_S4096x64_S1024x64_1_0_0_1_n_n 4096 rfl rfl k
  have el : dot_S1024x4096_S4096x64_S1024x64_1_0_0_1_n_n.lhsIdx (ix2 r d) ((contrEquiv1 dot_S1024x4096_S4096x64_S1024x64_1_0_0_1_n_n 4096 rfl rfl).symm k) = ix2 r k :=
    funext fun a => Fin.ext (by
      match a with
      | ⟨0, _⟩ => exact lhs_dot_S1024x4096_S4096x64_S1024x64_1_0_0_1_n_n_0 _ _
      | ⟨1, _⟩ => exact (lhs_dot_S1024x4096_S4096x64_S1024x64_1_0_0_1_n_n_1 _ _).trans hk)
  have er : dot_S1024x4096_S4096x64_S1024x64_1_0_0_1_n_n.rhsIdx (ix2 r d) ((contrEquiv1 dot_S1024x4096_S4096x64_S1024x64_1_0_0_1_n_n 4096 rfl rfl).symm k) = ix2 k d :=
    funext fun a => Fin.ext (by
      match a with
      | ⟨0, _⟩ => exact (rhs_dot_S1024x4096_S4096x64_S1024x64_1_0_0_1_n_n_0 _ _).trans hk
      | ⟨1, _⟩ => exact rhs_dot_S1024x4096_S4096x64_S1024x64_1_0_0_1_n_n_1 _ _)
  rw [el, er]

/-- A chunk's whole step read at `(r, d)`: the accumulator there plus the product's sum. -/
theorem step_apply (acc : FVec Ideal S1024x64 .f32) (A : FVec Ideal S1024x4096 .bf16) (B : FVec Ideal S4096x64 .bf16)
    (h1 : S1024x64.ShapeCasts S1024x64) (h2 : S4096x64.ShapeCasts S4096x64) (r : Fin 1024) (d : Fin 64) :
    shapeCast S1024x64 (addf acc (matmul dot_S1024x4096_S4096x64_S1024x64_1_0_0_1_n_n none A (shapeCast S4096x64 B h2)
        (constant (F := Ideal) S1024x64 .f32 0x00000000#32))) h1 (ix2 r d)
      = acc (ix2 r d) + ∑ k : Fin 4096, A (ix2 r k) * B (ix2 k d) := by
  rw [shapeCast_self, shapeCast_self]
  exact congrArg (acc (ix2 r d) + ·) (product_apply A B r d)

/-! ## The zero fill -/

/-- The splat of the zero word, read at any index, is the extended real zero. -/
theorem zerofill_apply (h : S1024x64.ShapeCasts S1024x64) (j : S1024x64.Idx) :
    shapeCast S1024x64 (broadcast S1024x64 (Scalar.ofBits (F := Ideal) .f32 0x00000000#32)) h j = 0 := by
  rw [shapeCast_self]
  exact Ideal.ofBits_zero_f32

theorem zero0 (j : S1024x64.Idx) : k0_pay1 (F := Ideal) j = 0 :=
  zerofill_apply _ j

theorem zero1 (j : S1024x64.Idx) : k1_pay1 (F := Ideal) j = 0 :=
  zerofill_apply _ j

/-! ## The first kernel -/

/-- one chunk of the first kernel: the accumulator plus, over the chunk's 4096 table rows, the comparison of the
    edge's source word with the row's number times the row -/
theorem chunk0 (i : grid0.Coords) (srcs : Vec Ideal S1024 .i32) (acc : Vec Ideal S1024x64 .f32) (rows : Vec Ideal S4096x64 .bf16)
    (r : Fin 1024) (d : Fin 64) :
    k0_pay2 (F := Ideal) i srcs acc rows (ix2 r d)
      = acc (ix2 r d) + ∑ k : Fin 4096, ind (srcs (ix1 r)) ((i 1).val * 4096 + k.val) * rows (ix2 k d) := by
  refine (step_apply acc _ rows _ _ r d).trans ?_
  refine congrArg (acc (ix2 r d) + ·) (Finset.sum_congr rfl fun k _ => congrArg (· * rows (ix2 k d)) ?_)
  refine (compare_apply _ _ _ _ (ix2 r k)).trans ?_
  unfold ind
  rw [column_apply, numbers_along_row]
  show (if srcs (ix1 r) = BitVec.ofNat 32 (i 1).val * BitVec.ofNat 32 4096 + BitVec.ofNat 32 k.val then (1 : EReal) else 0) = _
  rw [ofNat_mul_add]

/-- the first kernel's last pass: each row of the accumulator times the edge's weight -/
theorem scaled0 (ws : Vec Ideal S1024 .f32) (acc : Vec Ideal S1024x64 .f32) (r : Fin 1024) (d : Fin 64) :
    k0_pay3 (F := Ideal) ws acc (ix2 r d) = acc (ix2 r d) * ws (ix1 r) :=
  congrArg (acc (ix2 r d) * ·)
    (column_apply ws shapeCasts_S1024_S1024 shapeCasts_S1024_S1024x1 broadcasts_S1024x1_S1024x64 r d)

/-! ## The second kernel -/

/-- one chunk of the second kernel: the accumulator plus, over the chunk's 4096 edges, the comparison of the
    node's number with the edge's destination word times the edge's row -/
theorem chunk1 (i : grid1.Coords) (dsts : Vec Ideal S4096 .i32) (acc : Vec Ideal S1024x64 .f32) (msgs : Vec Ideal S4096x64 .bf16)
    (r : Fin 1024) (d : Fin 64) :
    k1_pay2 (F := Ideal) i dsts acc msgs (ix2 r d)
      = acc (ix2 r d) + ∑ k : Fin 4096, ind (dsts (ix1 k)) ((i 0).val * 1024 + r.val) * msgs (ix2 k d) := by
  refine (step_apply acc _ msgs _ _ r d).trans ?_
  refine congrArg (acc (ix2 r d) + ·) (Finset.sum_congr rfl fun k _ => congrArg (· * msgs (ix2 k d)) ?_)
  refine (compare_apply _ _ _ _ (ix2 r k)).trans ?_
  unfold ind
  rw [row_apply, numbers_down_column]
  show (if BitVec.ofNat 32 (i 0).val * BitVec.ofNat 32 1024 + BitVec.ofNat 32 r.val = dsts (ix1 k) then (1 : EReal) else 0) = _
  rw [ofNat_mul_add]
  exact if_congr eq_comm rfl rfl

/-- The sum along a row of a 1024 by 64 matrix, read at row `r`. -/
theorem rowsum_apply (x : FVec Ideal S1024x64 .f32) (h : S1024x64.Reduces [1] S1024) (hφ : FKind.Formats .f32)
    (hacc : (0x00000000#32 : BitVec 32) = 0x00000000#32) (r : Fin 1024) :
    multiReduction (F := Ideal) .add [1] S1024 x 0x00000000#32 h hφ hacc (ix1 r) = ∑ k : Fin 64, x (ix2 r k) := by
  refine (Ideal.multiReduction_add_single x 0x00000000#32 h hφ hacc (ix1 r)).trans ?_
  show ∑ k : Fin 64, x (h.lift (ix1 r) k) = _
  refine Finset.sum_congr rfl fun k _ => congrArg x ?_
  funext c
  apply Fin.ext
  match c with
  | ⟨0, _⟩ => rfl
  | ⟨1, _⟩ => rfl

/-- A matrix divided, row by row, by the larger of a root of the row's number and a constant, read at `(r, d)`. -/
theorem divided_apply (x : FVec Ideal S1024x64 .f32) (s : FVec Ideal S1024 .f32) (e : Ideal .f32)
    (h2 : S1024.ShapeCasts S1024x1) (h3 : S1024x1.Broadcasts S1024x64) (r : Fin 1024) (d : Fin 64) :
    divf x (broadcastTo S1024x64 (maximumf (sqrt (shapeCast S1024x1 s h2)) (broadcast S1024x1 e)) h3) (ix2 r d)
      = Ideal.div (x (ix2 r d)) (max (Ideal.sqrt (s (ix1 r))) e) := by
  refine congrArg (Ideal.div (x (ix2 r d))) ((broadcastTo_a1_ab_apply _ h3 r d).trans ?_)
  exact congrArg (fun t => max (Ideal.sqrt t) e) (shapeCast_a_a1_apply s h2 r 0)

/-- the second kernel's last pass: each row of the accumulator divided by the larger of its Euclidean norm and
    the small constant -/
theorem normalised1 (acc : Vec Ideal S1024x64 .f32) (r : Fin 1024) (d : Fin 64) :
    k1_pay3 (F := Ideal) acc (ix2 r d) = normalised (fun k => acc (ix2 r k)) d := by
  refine (divided_apply acc _ _ _ _ r d).trans ?_
  unfold normalised eps
  exact congrArg (fun t => Ideal.div (acc (ix2 r d)) (max (Ideal.sqrt t) (Ideal.ofBits .f32 0x2B8CBCCC#32)))
    (rowsum_apply (mulf acc acc) reduces_S1024x64_S1024 (.inl rfl) rfl r)

end Cert.KernelIdeal.PayloadValues

end
-- ==== Proof.Algebra.lean ====
/-
  The algebra of the claim: the sums over the padded ranges that the comparison of words with numbers builds are the
  plain indexed quantities.

  A word is a number below 2^32, and distinct numbers below 2^32 are distinct words; so among the numbers below a bound
  N ≤ 2^32 the comparison with a word a selects exactly the number a.toNat, and a sum of comparison-weighted terms
  collapses to the one term at a.toNat. A source word between 0 and 70838 read signed is the same number read unsigned,
  so the gather over the 73728 padded rows is the row the word names. A padded edge carries weight 0, so its message is
  zero whatever the comparison says, and the sum over the 2002944 padded edges is the sum over the 2000000 real ones.
-/
import Mathlib.Algebra.BigOperators.Group.Finset.Basic
import Mathlib.Data.Fintype.BigOperators
import Mathlib.Data.EReal.Operations
import proofs.«407872_j86337432584536_1_alg».proof.Proof.Spec

noncomputable section

namespace Cert.GraphSpec

open Idealize.ShloMosaic Idealize.ShloMosaic.ValueIdx

/-- a sum over a longer range splits into the shorter range and a block read through Fin -/
theorem sum_range_add_block {M : Type*} [AddCommMonoid M] (f : ℕ → M) (a K : ℕ) :
    ∑ n ∈ Finset.range (a + K), f n = ∑ n ∈ Finset.range a, f n + ∑ k : Fin K, f (a + k.val) := by
  have hfin : ∑ k : Fin K, f (a + k.val) = ∑ k ∈ Finset.range K, f (a + k) :=
    Fin.sum_univ_eq_sum_range (fun k => f (a + k)) K
  rw [hfin, Finset.sum_range_add]

/-- a word is the word of its own number -/
private theorem ind_self (a : BitVec 32) : ind a a.toNat = 1 := by
  have h : a = BitVec.ofNat 32 a.toNat := by
    apply BitVec.eq_of_toNat_eq
    rw [BitVec.toNat_ofNat, Nat.mod_eq_of_lt a.isLt]
  unfold ind
  exact if_pos h

/-- a word is not the word of any other number below 2^32 -/
private theorem ind_of_ne (a : BitVec 32) (n : ℕ) (hn : n < 2 ^ 32) (hne : n ≠ a.toNat) : ind a n = 0 := by
  have h : ¬ a = BitVec.ofNat 32 n := by
    intro h
    apply hne
    rw [h, BitVec.toNat_ofNat, Nat.mod_eq_of_lt hn]
  unfold ind
  exact if_neg h

/-- the comparison of a word with the numbers below a bound selects the word's own number -/
theorem sum_ind_mul (a : BitVec 32) (N : ℕ) (hN : N ≤ 2 ^ 32) (ha : a.toNat < N) (g : ℕ → EReal) :
    ∑ n ∈ Finset.range N, ind a n * g n = g a.toNat := by
  rw [Finset.sum_eq_single a.toNat]
  · rw [ind_self, one_mul]
  · intro n hn hne
    have hlt : n < 2 ^ 32 := lt_of_lt_of_le (Finset.mem_range.mp hn) hN
    rw [ind_of_ne a n hlt hne, zero_mul]
  · intro h
    exact absurd (Finset.mem_range.mpr ha) h

/-- a word read signed is its number, or its number less 2^32 when the number is 2^31 or more -/
private theorem toInt_cases (a : BitVec 32) :
    (a.toNat < 2147483648 ∧ a.toInt = (a.toNat : ℤ)) ∨
      (2147483648 ≤ a.toNat ∧ a.toInt = (a.toNat : ℤ) - 4294967296) := by
  have hcond := BitVec.toInt_eq_toNat_cond a
  by_cases hc : 2 * a.toNat < 2 ^ 32
  · rw [if_pos hc] at hcond
    left
    exact ⟨by omega, hcond⟩
  · rw [if_neg hc] at hcond
    right
    exact ⟨by omega, by omega⟩

/-- a word that read signed lies between 0 and a bound is, read unsigned, below that bound -/
private theorem toNat_lt_of_toInt (a : BitVec 32) (B : ℕ) (h0 : 0 ≤ a.toInt) (h1 : a.toInt < (B : ℤ)) :
    a.toNat < B := by
  have hlt : a.toNat < 2 ^ 32 := a.isLt
  rcases toInt_cases a with ⟨_, h⟩ | ⟨_, h⟩ <;> omega

theorem gathered_eq (emb : Table) (w : Weights) (src : Words) (hs : SourcesInRange src) (e : ℕ) (d : Fin 64) :
    gathered emb w src e d = rowAt emb (wordAt src e).toNat d * weightAt w e := by
  unfold gathered
  by_cases he : e < 2000000
  · have hword : wordAt src e = src (ix1 ⟨e, he⟩) := by
      unfold wordAt
      exact dif_pos he
    have hrange : 0 ≤ (src (ix1 ⟨e, he⟩)).toInt ∧ (src (ix1 ⟨e, he⟩)).toInt < 70839 := hs ⟨e, he⟩
    have hnat : (wordAt src e).toNat < 73728 := by
      rw [hword]
      have h70 : (src (ix1 ⟨e, he⟩)).toNat < 70839 :=
        toNat_lt_of_toInt (src (ix1 ⟨e, he⟩)) 70839 hrange.1 (by exact_mod_cast hrange.2)
      omega
    have hsum := sum_ind_mul (wordAt src e) 73728 (by norm_num) hnat (fun n => rowAt emb n d)
    exact congrArg (fun x => x * weightAt w e) hsum
  · have hw : weightAt w e = 0 := by
      unfold weightAt
      exact dif_neg he
    rw [hw, mul_zero, mul_zero]

/-- for a node number below 2^31 the comparison with a word is the comparison of the word read signed -/
theorem ind_eq_ite_toInt (a : BitVec 32) (v : ℕ) (hv : v < 2 ^ 31) :
    ind a v = if a.toInt = (v : ℤ) then 1 else 0 := by
  have hlt : a.toNat < 2 ^ 32 := a.isLt
  have hv32 : v < 2 ^ 32 := by omega
  have hnat : (BitVec.ofNat 32 v).toNat = v := by
    rw [BitVec.toNat_ofNat, Nat.mod_eq_of_lt hv32]
  have hiff : a = BitVec.ofNat 32 v ↔ a.toInt = (v : ℤ) := by
    constructor
    · intro h
      rw [h]
      rcases toInt_cases (BitVec.ofNat 32 v) with ⟨_, hh⟩ | ⟨hge, _⟩
      · rw [hh, hnat]
      · rw [hnat] at hge
        omega
    · intro h
      apply BitVec.eq_of_toNat_eq
      rw [hnat]
      rcases toInt_cases a with ⟨_, hh⟩ | ⟨_, hh⟩ <;> omega
  unfold ind
  by_cases hc : a = BitVec.ofNat 32 v
  · rw [if_pos hc, if_pos (hiff.mp hc)]
  · rw [if_neg hc, if_neg (fun h => hc (hiff.mpr h))]

/-- a padded edge's message is zero: its weight is -/
private theorem gathered_pad (emb : Table) (w : Weights) (src : Words) (e : ℕ) (he : ¬ e < 2000000) (d : Fin 64) :
    gathered emb w src e d = 0 := by
  have hw : weightAt w e = 0 := by
    unfold weightAt
    exact dif_neg he
  unfold gathered
  rw [hw, mul_zero]

theorem arriving_eq_target (emb : Table) (w : Weights) (src dst : Words) (hs : SourcesInRange src) (v : ℕ)
    (hv : v < 73728) (d : Fin 64) :
    arriving emb w src dst v d = target emb w src dst v d := by
  unfold arriving target
  have hsplit : (2002944 : ℕ) = 2000000 + 2944 := by norm_num
  rw [hsplit, Finset.sum_range_add]
  have hpad : ∑ x ∈ Finset.range 2944,
      ind (wordAt dst (2000000 + x)) v * gathered emb w src (2000000 + x) d = 0 := by
    apply Finset.sum_eq_zero
    intro x _
    rw [gathered_pad emb w src (2000000 + x) (by omega) d, mul_zero]
  rw [hpad, add_zero]
  apply Finset.sum_congr rfl
  intro e _
  rw [gathered_eq emb w src hs e d, ind_eq_ite_toInt (wordAt dst e) v (by omega)]
  by_cases hc : (wordAt dst e).toInt = (v : ℤ)
  · rw [if_pos hc, if_pos hc, one_mul]
  · rw [if_neg hc, if_neg hc, zero_mul]

end Cert.GraphSpec

end
-- ==== Proof.KernelIdeal.Value0.lean ====
/-
  What the first kernel leaves in its output array, at the ideal instance: row e of the array is the sum, over the
  73728 rows of the padded table, of the comparison of edge e's source word with the row's number times the row, times
  edge e's weight.

  The grid is 1956 x 18: point t works on edge block t / 18 and table chunk t % 18. A window's block at a point is a
  rectangle of its array (block index times block size plus the coordinate inside the block), so the source words and
  weights of point t are edges 1024 (t / 18) + r and its table rows are rows 4096 (t % 18) + k. Along a row of the
  grid the accumulator restarts at chunk 0 and every chunk adds its 4096 comparison-weighted rows, so after chunk j it
  is the sum over the rows below 4096 (j + 1): after chunk 17, over the whole padded table. The output block written
  there is that sum times the weights, and the 1956 written blocks tile the array.
-/
import proofs.«407872_j86337432584536_1_alg».proof.Proof.KernelIdeal.Region0
import proofs.«407872_j86337432584536_1_alg».proof.Proof.Payloads
import proofs.«407872_j86337432584536_1_alg».proof.Proof.Algebra
import Idealize.ShloMosaic.Lib.Pipeline.Value
import Idealize.ShloMosaic.Lib.ValueIdx
import Mathlib.Algebra.BigOperators.Group.Finset.Basic
import Mathlib.Data.Fintype.BigOperators
import Mathlib.Data.EReal.Operations

noncomputable section

namespace Cert.KernelIdeal.Hand

open Cert.KernelIdeal Cert.KernelIdeal.Gen Cert.GraphSpec
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The input windows' block indices at a point -/

/-- A point's number is below the grid's 35208 points. -/
theorem point_lt0 (t : Fin cfg0.N) : t.val < 35208 := lt_of_lt_of_eq t.isLt (show cfg0.N = 35208 from N_0)

/-- The source words' block index at point `t` is the edge block `t / 18`; -/
theorem srcIndex0 (t : Fin cfg0.N) : win0_0.index t 0 = t.val / 18 := by
  have hN := point_lt0 t
  show (BitVec.ofNat 32 (grid0.coords t 0).val).toNat = t.val / 18
  rw [block_of_point0, BitVec.toNat_ofNat]; omega
/-- so is the weights'; -/
theorem wtIndex0 (t : Fin cfg0.N) : win0_1.index t 0 = t.val / 18 := by
  have hN := point_lt0 t
  show (BitVec.ofNat 32 (grid0.coords t 0).val).toNat = t.val / 18
  rw [block_of_point0, BitVec.toNat_ofNat]; omega
/-- the table's is (chunk `t % 18`, 0). -/
theorem rowIndex0_0 (t : Fin cfg0.N) : win0_2.index t 0 = t.val % 18 := by
  show (BitVec.ofNat 32 (grid0.coords t 1).val).toNat = t.val % 18
  rw [chunk_of_point0, BitVec.toNat_ofNat]; omega
theorem rowIndex0_1 (t : Fin cfg0.N) : win0_2.index t 1 = 0 := rfl

/-! ## The blocks as rectangles of their arrays -/

/-- The source word at place `r` of point `t`'s block is the word of edge `1024 (t / 18) + r`. -/
theorem srcs0_apply (c : Dev nD) (t : Fin cfg0.N) (r : Fin 1024) (h : t.val / 18 * 1024 + r.val < 2002944) :
    srcs0 V c t (ix1 r) = (V c main_v2 : S2002944.Idx → BitVec 32) (ix1 ⟨t.val / 18 * 1024 + r.val, h⟩) := by
  show blk0 V c 0 t (ix1 r) = _
  unfold blk0
  rw [View.read_apply]
  show V c main_v2 _ = V c main_v2 _
  congr 1
  funext a
  apply Fin.ext
  match a with
  | ⟨0, _⟩ =>
    show win0_0.index t 0 * 1024 + 1 * r.val = t.val / 18 * 1024 + r.val
    rw [srcIndex0]; omega

/-- The weight at place `r` of point `t`'s block is the weight of edge `1024 (t / 18) + r`. -/
theorem wts0_apply (c : Dev nD) (t : Fin cfg0.N) (r : Fin 1024) (h : t.val / 18 * 1024 + r.val < 2002944) :
    wts0 V c t (ix1 r) = (V c main_v4 : S2002944.Idx → EReal) (ix1 ⟨t.val / 18 * 1024 + r.val, h⟩) := by
  show blk0 V c 1 t (ix1 r) = _
  unfold blk0
  rw [View.read_apply]
  show V c main_v4 _ = V c main_v4 _
  congr 1
  funext a
  apply Fin.ext
  match a with
  | ⟨0, _⟩ =>
    show win0_1.index t 0 * 1024 + 1 * r.val = t.val / 18 * 1024 + r.val
    rw [wtIndex0]; omega

/-- Row `k` of point `t`'s table block is row `4096 (t % 18) + k` of the padded table. -/
theorem rows0_apply (c : Dev nD) (t : Fin cfg0.N) (k : Fin 4096) (d : Fin 64) (h : t.val % 18 * 4096 + k.val < 73728) :
    rows0 V c t (ix2 k d) = (V c main_v1 : S73728x64.Idx → EReal) (ix2 ⟨t.val % 18 * 4096 + k.val, h⟩ d) := by
  show blk0 V c 2 t (ix2 k d) = _
  unfold blk0
  rw [View.read_apply]
  show V c main_v1 _ = V c main_v1 _
  congr 1
  funext a
  apply Fin.ext
  match a with
  | ⟨0, _⟩ =>
    show win0_2.index t 0 * 4096 + 1 * k.val = t.val % 18 * 4096 + k.val
    rw [rowIndex0_0]; omega
  | ⟨1, _⟩ =>
    show win0_2.index t 1 * 64 + 1 * d.val = d.val
    rw [rowIndex0_1]; omega

/-- Place `(r, d)` of the output block of point `t` is row `1024 (t / 18) + r`, feature `d` of the output array. -/
theorem outEmb0 (t : Fin cfg0.N) (r : Fin 1024) (d : Fin 64) (h : t.val / 18 * 1024 + r.val < 2002944) :
    ((cfg0.win 3).blk t).view.emb (ix2 r d : S1024x64.Idx) = (ix2 ⟨t.val / 18 * 1024 + r.val, h⟩ d : S2002944x64.Idx) := by
  have e0 : win0_3.index t 0 = t.val / 18 := outIndex0_0 t
  have e1 : win0_3.index t 1 = 0 := outIndex0_1 t
  funext a
  apply Fin.ext
  match a with
  | ⟨0, _⟩ =>
    show win0_3.index t 0 * 1024 + 1 * r.val = t.val / 18 * 1024 + r.val
    rw [e0]; omega
  | ⟨1, _⟩ =>
    show win0_3.index t 1 * 64 + 1 * d.val = d.val
    rw [e1]; omega

/-! ## The words and the rows by number -/

/-- The source word of edge `1024 q + r` as the region finds it; the word 0 past the list's end. -/
def word0 (c : Dev nD) (q : ℕ) (r : Fin 1024) : BitVec 32 :=
  if h : q * 1024 + r.val < 2002944 then (V c main_v2 : S2002944.Idx → BitVec 32) (ix1 ⟨q * 1024 + r.val, h⟩) else 0#32

/-- Row `n` of the padded table at feature `d` as the region finds it; zero past the table's end. -/
def row0 (c : Dev nD) (n : ℕ) (d : Fin 64) : EReal :=
  if h : n < 73728 then (V c main_v1 : S73728x64.Idx → EReal) (ix2 ⟨n, h⟩ d) else 0

theorem word0_eq (c : Dev nD) (q : ℕ) (r : Fin 1024) (h : q * 1024 + r.val < 2002944) :
    word0 V c q r = (V c main_v2 : S2002944.Idx → BitVec 32) (ix1 ⟨q * 1024 + r.val, h⟩) := dif_pos h

theorem row0_eq (c : Dev nD) (n : ℕ) (d : Fin 64) (h : n < 73728) :
    row0 V c n d = (V c main_v1 : S73728x64.Idx → EReal) (ix2 ⟨n, h⟩ d) := dif_pos h

theorem row0_fin (c : Dev nD) (n : Fin 73728) (d : Fin 64) :
    row0 V c n.val d = (V c main_v1 : S73728x64.Idx → EReal) (ix2 n d) := dif_pos n.isLt

/-! ## One chunk's share, and the accumulator along a row of the grid -/

/-- What a chunk's payload adds at point `t`: the comparisons of the edge's word with the chunk's 4096 row numbers,
    times those rows. -/
theorem chunk_step0 (c : Dev nD) (t : Fin cfg0.N) (acc : Vec Ideal S1024x64 .f32) (r : Fin 1024) (d : Fin 64) :
    k0_pay2 (F := Ideal) (grid0.coords t) (srcs0 V c t) acc (rows0 V c t) (ix2 r d)
      = (acc (ix2 r d) : EReal) + ∑ k : Fin 4096, ind (word0 V c (t.val / 18) r) (t.val % 18 * 4096 + k.val)
          * row0 V c (t.val % 18 * 4096 + k.val) d := by
  have hN := point_lt0 t
  have hq : t.val / 18 * 1024 + r.val < 2002944 := by have := r.isLt; omega
  refine (PayloadValues.chunk0 (grid0.coords t) (srcs0 V c t) acc (rows0 V c t) r d).trans ?_
  refine congrArg (fun s : EReal => (acc (ix2 r d) : EReal) + s) (Finset.sum_congr rfl fun k _ => ?_)
  have hk : t.val % 18 * 4096 + k.val < 73728 := by have := k.isLt; omega
  rw [chunk_of_point0 t, srcs0_apply V c t r hq, rows0_apply V c t k d hk, word0_eq V c (t.val / 18) r hq,
    row0_eq V c (t.val % 18 * 4096 + k.val) d hk]

/-- A quantity that restarts at the multiples of 18 and elsewhere adds one block of 4096 terms to what the point
    before left is, after the point, the sum of the terms below the block's end. -/
theorem acc_closed0 {M : Type*} [AddCommMonoid M] (N : ℕ) (A : (n : ℕ) → n < N → M) (f : ℕ → ℕ → M)
    (h0 : ∀ n (h : n < N), n % 18 = 0 → A n h = 0 + ∑ k : Fin 4096, f (n / 18) (n % 18 * 4096 + k.val))
    (hs : ∀ n (h : n + 1 < N), ¬ (n + 1) % 18 = 0 →
      A (n + 1) h = A n (Nat.lt_of_succ_lt h) + ∑ k : Fin 4096, f ((n + 1) / 18) ((n + 1) % 18 * 4096 + k.val)) :
    ∀ n (h : n < N), A n h = ∑ m ∈ Finset.range (n % 18 * 4096 + 4096), f (n / 18) m := by
  intro n
  induction n with
  | zero =>
    intro h
    rw [h0 0 h rfl, sum_range_add_block, Nat.zero_mod, Nat.zero_mul, Finset.range_zero, Finset.sum_empty]
  | succ n ih =>
    intro h
    by_cases hm : (n + 1) % 18 = 0
    · rw [h0 (n + 1) h hm, sum_range_add_block, hm, Nat.zero_mul, Finset.range_zero, Finset.sum_empty]
    · have e1 : (n + 1) / 18 = n / 18 := by omega
      have e2 : (n + 1) % 18 * 4096 = n % 18 * 4096 + 4096 := by omega
      rw [hs n h hm, ih (Nat.lt_of_succ_lt h), sum_range_add_block (f ((n + 1) / 18)) ((n + 1) % 18 * 4096) 4096,
        e1, e2]

/-- The accumulator after point `n`, at edge place `r` and feature `d`: the comparison-weighted rows of the table
    below the end of the point's chunk. -/
theorem acc0_eq (c : Dev nD) (r : Fin 1024) (d : Fin 64) (n : ℕ) (hn : n < cfg0.N) :
    (acc0 V c n hn (ix2 r d) : EReal)
      = ∑ m ∈ Finset.range (n % 18 * 4096 + 4096), ind (word0 V c (n / 18) r) m * row0 V c m d :=
  acc_closed0 cfg0.N (fun n hn => (acc0 V c n hn (ix2 r d) : EReal)) (fun q m => ind (word0 V c q r) m * row0 V c m d)
    (fun n h hm =>
      ((congrFun (acc0_first V c ⟨n, h⟩ hm) (ix2 r d)).trans
          (chunk_step0 V c ⟨n, h⟩ (k0_pay1 (F := Ideal)) r d)).trans
        (congrArg (fun x : EReal => x + ∑ k : Fin 4096, ind (word0 V c (n / 18) r) (n % 18 * 4096 + k.val)
            * row0 V c (n % 18 * 4096 + k.val) d) (PayloadValues.zero0 (ix2 r d))))
    (fun n h hm =>
      (congrFun (acc0_next V c ⟨n + 1, h⟩ hm) (ix2 r d)).trans
        (chunk_step0 V c ⟨n + 1, h⟩ (acc0 V c n (Nat.lt_of_succ_lt h)) r d))
    n hn

/-! ## The output array -/

/-- What the output array ends holding: every row of the padded table weighted by the comparison of the edge's source
    word with the row's number, summed, times the edge's weight. -/
abbrev gatherOut0 (c : Dev nD) : S2002944x64.Idx → EReal := fun i =>
  (∑ n : Fin 73728, ind ((V c main_v2 : S2002944.Idx → BitVec 32) (ix1 (i 0))) n.val
      * (V c main_v1 : S73728x64.Idx → EReal) (ix2 n (i 1)))
    * (V c main_v4 : S2002944.Idx → EReal) (ix1 (i 0))

/-- The block a row's last point leaves in the output window is that point's block of `gatherOut0`. -/
theorem msg0_eq_read (c : Dev nD) (t : Fin cfg0.N) (h17 : t.val % 18 = 17) :
    (msg0 V c t : S1024x64.Idx → EReal) = ((cfg0.win 3).blk t).view.read (Elt Ideal) (gatherOut0 V c) := by
  have hN := point_lt0 t
  funext y
  obtain ⟨r, d, rfl⟩ : ∃ (r : Fin 1024) (d : Fin 64), y = ix2 r d := ⟨y 0, y 1, eq_ix2 y⟩
  have hq : t.val / 18 * 1024 + r.val < 2002944 := by have := r.isLt; omega
  have hend : t.val % 18 * 4096 + 4096 = 73728 := by omega
  rw [View.read_apply]
  show msg0 V c t (ix2 r d) = gatherOut0 V c (((cfg0.win 3).blk t).view.emb (ix2 r d : S1024x64.Idx))
  rw [outEmb0 t r d hq]
  refine (PayloadValues.scaled0 (wts0 V c t) (acc0 V c t.val t.isLt) r d).trans ?_
  rw [acc0_eq V c r d t.val t.isLt, wts0_apply V c t r hq, hend, word0_eq V c (t.val / 18) r hq,
    ← Fin.sum_univ_eq_sum_range (fun m => ind ((V c main_v2 : S2002944.Idx → BitVec 32) (ix1 ⟨t.val / 18 * 1024 + r.val, hq⟩)) m
        * row0 V c m d) 73728]
  show _ = (∑ n : Fin 73728, ind ((V c main_v2 : S2002944.Idx → BitVec 32) (ix1 ⟨t.val / 18 * 1024 + r.val, hq⟩)) n.val
      * (V c main_v1 : S73728x64.Idx → EReal) (ix2 n d))
    * (V c main_v4 : S2002944.Idx → EReal) (ix1 ⟨t.val / 18 * 1024 + r.val, hq⟩)
  refine congrArg (fun s : EReal => s * (V c main_v4 : S2002944.Idx → EReal) (ix1 ⟨t.val / 18 * 1024 + r.val, hq⟩))
    (Finset.sum_congr rfl fun n _ => ?_)
  rw [row0_fin V c n d]

/-- What a writing point writes back is its block of `gatherOut0`. -/
theorem flushed0_3_eq (c : Dev nD) (t : Fin cfg0.N) (hf : (cfg0.win 3).flush t = true) :
    (dat0 V c).flushed 3 t = ((cfg0.win 3).blk t).view.read (Elt Ideal) (gatherOut0 V c) := by
  have h17 : t.val % 18 = 17 := (flush0_3 t).mp hf
  show (cfg0.win 3).cut (grid0.coords t) ((dat0 V c).after 3 t) = _
  rw [after0_3]
  exact msg0_eq_read V c t h17

/-- An index of the output array is in point `t`'s block iff each coordinate is in the block's range on its axis. -/
theorem mem_blk0_3 (t : Fin cfg0.N) (i : S2002944x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v5).slice (win0_3.rect t)).set ↔ _
  rw [View.set_slice_whole, Rect.mem_set_unit]
  exact Iff.rfl

/-- Row `e` of the output array is in the block written at the last point of edge block `e / 1024`'s row. -/
theorem cover0_3 (i : S2002944x64.Idx) :
    ∃ t : Fin cfg0.N, (cfg0.win 3).flush t = true ∧ i ∈ ((cfg0.win 3).blk t).view.set := by
  have hi0 : (i 0).val < 2002944 := (i 0).isLt
  have hi1 : (i 1).val < 64 := (i 1).isLt
  have ht : 18 * ((i 0).val / 1024) + 17 < cfg0.N := by rw [show cfg0.N = 35208 from N_0]; omega
  refine ⟨⟨18 * ((i 0).val / 1024) + 17, ht⟩,
    (flush0_3 _).mpr (by show (18 * ((i 0).val / 1024) + 17) % 18 = 17; omega), ?_⟩
  have e0 : win0_3.index ⟨18 * ((i 0).val / 1024) + 17, ht⟩ 0 = (18 * ((i 0).val / 1024) + 17) / 18 := outIndex0_0 _
  have e1 : win0_3.index ⟨18 * ((i 0).val / 1024) + 17, ht⟩ 1 = 0 := outIndex0_1 _
  rw [mem_blk0_3]
  intro a
  match a with
  | ⟨0, _⟩ =>
    show win0_3.index ⟨18 * ((i 0).val / 1024) + 17, ht⟩ 0 * 1024 ≤ (i 0).val
      ∧ (i 0).val < win0_3.index ⟨18 * ((i 0).val / 1024) + 17, ht⟩ 0 * 1024 + 1024
    rw [e0]; omega
  | ⟨1, _⟩ =>
    show win0_3.index ⟨18 * ((i 0).val / 1024) + 17, ht⟩ 1 * 64 ≤ (i 1).val
      ∧ (i 1).val < win0_3.index ⟨18 * ((i 0).val / 1024) + 17, ht⟩ 1 * 64 + 64
    rw [e1]; omega

/-- The first kernel's output array after the run. -/
theorem gathered_array (c : Dev nD) :
    (dat0 V c).arrAt 3 cfg0.N = fun i : S2002944x64.Idx =>
      (∑ n : Fin 73728, ind ((V c main_v2 : S2002944.Idx → BitVec 32) (ix1 (i 0))) n.val
          * (V c main_v1 : S73728x64.Idx → EReal) (ix2 n (i 1)))
        * (V c main_v4 : S2002944.Idx → EReal) (ix1 (i 0)) :=
  (dat0 V c).arrAt_eq_of_cover 3 (gatherOut0 V c) (fun t hf => flushed0_3_eq V c t hf) cover0_3

end Cert.KernelIdeal.Hand

end
-- ==== Proof.KernelIdeal.Value1.lean ====
/-
  What the second kernel leaves in its output array, at the ideal instance: row v of the array is the sum, over the
  2002944 padded edges, of the comparison of v with the edge's destination word times the edge's message row, with the
  row then divided by the larger of its Euclidean norm and the small constant.

  The grid is 72 x 489; point t works on node block t / 489 (rows 1024 (t / 489) ... of the output) and on edge chunk
  t % 489 (edges 4096 (t % 489) ... of the two edge arrays). Inside a row of the grid the accumulator after chunk j is
  the sum over the first 4096 (j + 1) edges, by induction on j; after the last chunk, j = 488, that is the sum over all
  2002944 = 489 * 4096 edges, and the block written back is that accumulator with every row normalised. Array row v lies
  in the block written back at point 489 (v / 1024) + 488, and these blocks cover the array.
-/
import proofs.«407872_j86337432584536_1_alg».proof.Proof.KernelIdeal.Region1
import proofs.«407872_j86337432584536_1_alg».proof.Proof.Payloads
import proofs.«407872_j86337432584536_1_alg».proof.Proof.Algebra
import Idealize.ShloMosaic.Lib.Pipeline.Value
import Idealize.ShloMosaic.Lib.ValueIdx
import Mathlib.Data.Fintype.BigOperators

noncomputable section

namespace Cert.KernelIdeal.Hand

open Cert.KernelIdeal Cert.KernelIdeal.Gen Cert.GraphSpec Cert.KernelIdeal.PayloadValues
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The two edge arrays as functions of the edge number -/

/-- Edge `n`'s destination word; the word 0 past the array's end. -/
def dstAt1 (c : Dev nD) (n : ℕ) : BitVec 32 :=
  if h : n < 2002944 then (V c main_v3 : S2002944.Idx → BitVec 32) (ix1 ⟨n, h⟩) else 0#32

/-- Edge `n`'s message at feature `d`; zero past the array's end. -/
def msgAt1 (c : Dev nD) (n : ℕ) (d : Fin 64) : EReal :=
  if h : n < 2002944 then (V c main_v5 : S2002944x64.Idx → EReal) (ix2 ⟨n, h⟩ d) else 0

theorem dstAt1_of_lt (c : Dev nD) (n : ℕ) (h : n < 2002944) :
    dstAt1 V c n = (V c main_v3 : S2002944.Idx → BitVec 32) (ix1 ⟨n, h⟩) := by
  unfold dstAt1; rw [dif_pos h]

theorem msgAt1_of_lt (c : Dev nD) (n : ℕ) (h : n < 2002944) (d : Fin 64) :
    msgAt1 V c n d = (V c main_v5 : S2002944x64.Idx → EReal) (ix2 ⟨n, h⟩ d) := by
  unfold msgAt1; rw [dif_pos h]

/-- Edge `e`'s share of node `v`'s sum at feature `d`: the comparison of `v` with the edge's destination word, times the
    edge's message. -/
def share1 (c : Dev nD) (v e : ℕ) (d : Fin 64) : EReal := ind (dstAt1 V c e) v * msgAt1 V c e d

/-! ## The input windows' block indices and block reads -/

/-- The message window's block index at point `t` is (edge chunk, 0). -/
theorem msgIndex1_0 (t : Fin cfg1.N) : (cfg1.win 0).index t 0 = t.val % 489 := by
  show (BitVec.ofNat 32 (grid1.coords t 1).val).toNat = t.val % 489
  rw [chunk_of_point1, BitVec.toNat_ofNat]; omega
theorem msgIndex1_1 (t : Fin cfg1.N) : (cfg1.win 0).index t 1 = 0 := rfl

/-- The destination window's block index at point `t` is the edge chunk. -/
theorem dstIndex1_0 (t : Fin cfg1.N) : (cfg1.win 1).index t 0 = t.val % 489 := by
  show (BitVec.ofNat 32 (grid1.coords t 1).val).toNat = t.val % 489
  rw [chunk_of_point1, BitVec.toNat_ofNat]; omega

/-- Row `k` of the chunk's message block is edge `4096 (t % 489) + k`'s message. -/
theorem msgs1_apply (c : Dev nD) (t : Fin cfg1.N) (k : Fin 4096) (d : Fin 64) :
    msgs1 V c t (ix2 k d) = msgAt1 V c (4096 * (t.val % 489) + k.val) d := by
  have hk : k.val < 4096 := k.isLt
  have hlt : 4096 * (t.val % 489) + k.val < 2002944 := by omega
  rw [msgAt1_of_lt V c _ hlt d]
  show blk1 V c 0 t (ix2 k d) = _
  unfold blk1
  rw [View.read_apply]
  show (V c main_v5 : S2002944x64.Idx → EReal) _ = (V c main_v5 : S2002944x64.Idx → EReal) _
  congr 1
  funext a
  apply Fin.ext
  match a with
  | ⟨0, _⟩ =>
    show (cfg1.win 0).index t 0 * 4096 + 1 * k.val = 4096 * (t.val % 489) + k.val
    rw [msgIndex1_0]; omega
  | ⟨1, _⟩ =>
    show (cfg1.win 0).index t 1 * 64 + 1 * d.val = d.val
    rw [msgIndex1_1]; omega

/-- Entry `k` of the chunk's destination block is edge `4096 (t % 489) + k`'s destination word. -/
theorem dsts1_apply (c : Dev nD) (t : Fin cfg1.N) (k : Fin 4096) :
    dsts1 V c t (ix1 k) = dstAt1 V c (4096 * (t.val % 489) + k.val) := by
  have hk : k.val < 4096 := k.isLt
  have hlt : 4096 * (t.val % 489) + k.val < 2002944 := by omega
  rw [dstAt1_of_lt V c _ hlt]
  show blk1 V c 1 t (ix1 k) = _
  unfold blk1
  rw [View.read_apply]
  show (V c main_v3 : S2002944.Idx → BitVec 32) _ = (V c main_v3 : S2002944.Idx → BitVec 32) _
  congr 1
  funext a
  apply Fin.ext
  match a with
  | ⟨0, _⟩ =>
    show (cfg1.win 1).index t 0 * 4096 + 1 * k.val = 4096 * (t.val % 489) + k.val
    rw [dstIndex1_0]; omega

/-! ## One chunk's step, and the accumulator inside a row of the grid -/

/-- One chunk's payload at (r, d): the accumulator plus the chunk's 4096 edges' shares of node `1024 (t / 489) + r`. -/
theorem chunk_step1 (c : Dev nD) (t : Fin cfg1.N) (acc : Vec Ideal S1024x64 .f32) (r : Fin 1024) (d : Fin 64) :
    k1_pay2 (F := Ideal) (grid1.coords t) (dsts1 V c t) acc (msgs1 V c t) (ix2 r d)
      = acc (ix2 r d) + ∑ k : Fin 4096, share1 V c (1024 * (t.val / 489) + r.val) (4096 * (t.val % 489) + k.val) d := by
  refine (chunk1 (grid1.coords t) (dsts1 V c t) acc (msgs1 V c t) r d).trans ?_
  refine congrArg (fun s : EReal => (acc (ix2 r d) : EReal) + s) (Finset.sum_congr rfl fun k _ => ?_)
  have hv : (grid1.coords t 0).val * 1024 + r.val = 1024 * (t.val / 489) + r.val := by
    rw [block_of_point1 t]; omega
  show ind (dsts1 V c t (ix1 k)) ((grid1.coords t 0).val * 1024 + r.val) * msgs1 V c t (ix2 k d)
    = ind (dstAt1 V c (4096 * (t.val % 489) + k.val)) (1024 * (t.val / 489) + r.val) * msgAt1 V c (4096 * (t.val % 489) + k.val) d
  rw [dsts1_apply V c t k, msgs1_apply V c t k d, hv]

/-- If the accumulator a chunk finds holds the shares of the edges before the chunk, it leaves the shares of the edges up
    to the chunk's end. -/
theorem step_sum1 (c : Dev nD) (t : Fin cfg1.N) (acc : Vec Ideal S1024x64 .f32) (r : Fin 1024) (d : Fin 64)
    (hacc : acc (ix2 r d) = ∑ e ∈ Finset.range (4096 * (t.val % 489)), share1 V c (1024 * (t.val / 489) + r.val) e d) :
    k1_pay2 (F := Ideal) (grid1.coords t) (dsts1 V c t) acc (msgs1 V c t) (ix2 r d)
      = ∑ e ∈ Finset.range (4096 * (t.val % 489 + 1)), share1 V c (1024 * (t.val / 489) + r.val) e d := by
  refine (chunk_step1 V c t acc r d).trans ?_
  rw [hacc, show 4096 * (t.val % 489 + 1) = 4096 * (t.val % 489) + 4096 from by omega]
  exact (sum_range_add_block (fun e => share1 V c (1024 * (t.val / 489) + r.val) e d) (4096 * (t.val % 489)) 4096).symm

/-- The accumulator after point `n`, at (r, d): the shares of node `1024 (n / 489) + r` from the first
    `4096 (n % 489 + 1)` edges. -/
theorem acc1_sum (c : Dev nD) : ∀ (n : ℕ) (hn : n < cfg1.N) (r : Fin 1024) (d : Fin 64),
    acc1 V c n hn (ix2 r d)
      = ∑ e ∈ Finset.range (4096 * (n % 489 + 1)), share1 V c (1024 * (n / 489) + r.val) e d
  | 0, hn, r, d => by
    refine (congrFun (acc1_first V c ⟨0, hn⟩ (Nat.zero_mod 489)) (ix2 r d)).trans ?_
    refine step_sum1 V c ⟨0, hn⟩ (k1_pay1 (F := Ideal)) r d ((zero1 (ix2 r d)).trans ?_)
    show (0 : EReal) = ∑ e ∈ Finset.range (4096 * (0 % 489)), share1 V c (1024 * (0 / 489) + r.val) e d
    rw [Nat.zero_mod, Nat.mul_zero, Finset.sum_range_zero]
  | n + 1, hn, r, d => by
    by_cases h0 : (n + 1) % 489 = 0
    · refine (congrFun (acc1_first V c ⟨n + 1, hn⟩ h0) (ix2 r d)).trans ?_
      refine step_sum1 V c ⟨n + 1, hn⟩ (k1_pay1 (F := Ideal)) r d ((zero1 (ix2 r d)).trans ?_)
      show (0 : EReal) = ∑ e ∈ Finset.range (4096 * ((n + 1) % 489)), share1 V c (1024 * ((n + 1) / 489) + r.val) e d
      rw [h0, Nat.mul_zero, Finset.sum_range_zero]
    · refine (congrFun (acc1_next V c ⟨n + 1, hn⟩ h0) (ix2 r d)).trans ?_
      refine step_sum1 V c ⟨n + 1, hn⟩ _ r d ?_
      have e1 : n % 489 + 1 = (n + 1) % 489 := by omega
      have e2 : n / 489 = (n + 1) / 489 := by omega
      show acc1 V c n (Nat.lt_of_succ_lt hn) (ix2 r d)
        = ∑ e ∈ Finset.range (4096 * ((n + 1) % 489)), share1 V c (1024 * ((n + 1) / 489) + r.val) e d
      rw [acc1_sum c n (Nat.lt_of_succ_lt hn) r d, e1, e2]

/-- The shares of all the padded edges, summed by edge number, are the sum over the two edge arrays' entries. -/
theorem sum_share_all1 (c : Dev nD) (v : ℕ) (d : Fin 64) :
    ∑ e ∈ Finset.range 2002944, share1 V c v e d
      = ∑ e : Fin 2002944, ind ((V c main_v3 : S2002944.Idx → BitVec 32) (ix1 e)) v
          * (V c main_v5 : S2002944x64.Idx → EReal) (ix2 e d) := by
  rw [← Fin.sum_univ_eq_sum_range (fun e => share1 V c v e d) 2002944]
  refine Finset.sum_congr rfl fun e _ => ?_
  obtain ⟨n, hn⟩ := e
  show ind (dstAt1 V c n) v * msgAt1 V c n d = _
  rw [dstAt1_of_lt V c n hn, msgAt1_of_lt V c n hn d]

/-! ## The output array -/

/-- The array the run leaves: row `v` is the normalised sum of the shares of node `v`. -/
abbrev normRows1 (c : Dev nD) : S73728x64.Idx → EReal := fun i =>
  normalised (fun k : Fin 64 => ∑ e : Fin 2002944, ind ((V c main_v3 : S2002944.Idx → BitVec 32) (ix1 e)) (i 0).val
      * (V c main_v5 : S2002944x64.Idx → EReal) (ix2 e k)) (i 1)

/-- The block a row's last point leaves in the output window is rows `1024 (t / 489) ...` of that array. -/
theorem out1_apply (c : Dev nD) (t : Fin cfg1.N) (h488 : t.val % 489 = 488) (r : Fin 1024) (d : Fin 64)
    (hv : 1024 * (t.val / 489) + r.val < 73728) :
    out1 V c t (ix2 r d) = normRows1 V c (ix2 ⟨1024 * (t.val / 489) + r.val, hv⟩ d) := by
  unfold out1
  refine (normalised1 (acc1 V c t.val t.isLt) r d).trans ?_
  show normalised (fun k => acc1 V c t.val t.isLt (ix2 r k)) d
    = normalised (fun k : Fin 64 => ∑ e : Fin 2002944, ind ((V c main_v3 : S2002944.Idx → BitVec 32) (ix1 e))
        (1024 * (t.val / 489) + r.val) * (V c main_v5 : S2002944x64.Idx → EReal) (ix2 e k)) d
  refine congrArg (fun h : Fin 64 → EReal => normalised h d) (funext fun k => ?_)
  show acc1 V c t.val t.isLt (ix2 r k) = _
  rw [acc1_sum V c t.val t.isLt r k, h488]
  exact sum_share_all1 V c (1024 * (t.val / 489) + r.val) k

/-- The output window's blocks are not cut: what is written back of a block is the block. -/
theorem cut_outBlk1 {α : Type} (t : Fin cfg1.N) (X : S1024x64.Idx → α) (r : Fin 1024) (d : Fin 64) :
    (cfg1.win 2).cut (cfg1.grid.coords t) X (ix2 r d) = X (ix2 r d) := by
  show X ((cfg1.win 2).xinj (cfg1.grid.coords t) (ix2 r d)) = X (ix2 r d)
  exact congrArg X (funext fun a => Fin.ext rfl)

/-- Point `t`'s output block of an array, at (r, d), is the array at row `1024 (t / 489) + r`. -/
theorem read_outBlk1 (t : Fin cfg1.N) (G : S73728x64.Idx → EReal) (r : Fin 1024) (d : Fin 64)
    (hv : 1024 * (t.val / 489) + r.val < 73728) :
    ((cfg1.win 2).blk t).view.read (Elt Ideal) G (ix2 r d) = G (ix2 ⟨1024 * (t.val / 489) + r.val, hv⟩ d) := by
  rw [View.read_apply]
  show G _ = G _
  congr 1
  funext a
  apply Fin.ext
  match a with
  | ⟨0, _⟩ =>
    show (cfg1.win 2).index t 0 * 1024 + 1 * r.val = 1024 * (t.val / 489) + r.val
    rw [outIndex1_0]; omega
  | ⟨1, _⟩ =>
    show (cfg1.win 2).index t 1 * 64 + 1 * d.val = d.val
    rw [outIndex1_1]; omega

/-- What a flushing point writes back is its block of that array. -/
theorem flushed1_eq (c : Dev nD) (t : Fin cfg1.N) (hf : (cfg1.win 2).flush t = true) :
    (dat1 V c).flushed 2 t = ((cfg1.win 2).blk t).view.read (Elt Ideal) (normRows1 V c) := by
  have h488 : t.val % 489 = 488 := (flush1_2 t).mp hf
  have hN : t.val < 35208 := lt_of_lt_of_eq t.isLt (show cfg1.N = 35208 from N_1)
  show (cfg1.win 2).cut (cfg1.grid.coords t) ((dat1 V c).after 2 t) = _
  rw [after1_2 V c t]
  funext j
  obtain ⟨r, d, rfl⟩ : ∃ (r : Fin 1024) (d : Fin 64), j = ix2 r d := ⟨_, _, eq_ix2 (n0 := 1024) (n1 := 64) j⟩
  have hr : r.val < 1024 := r.isLt
  have hv : 1024 * (t.val / 489) + r.val < 73728 := by omega
  exact (cut_outBlk1 t (out1 V c t) r d).trans
    ((out1_apply V c t h488 r d hv).trans (read_outBlk1 t (normRows1 V c) r d hv).symm)

/-- An index of the array is in point `t`'s output block iff each coordinate is in the block's range on its axis. -/
theorem mem_outBlk1 (t : Fin cfg1.N) (i : S73728x64.Idx) :
    i ∈ ((cfg1.win 2).blk t).view.set ↔ ∀ a : Fin 2, (cfg1.win 2).index t a * S1024x64.size a ≤ (i a).val
      ∧ (i a).val < (cfg1.win 2).index t a * S1024x64.size a + S1024x64.size a := by
  show i ∈ ((View.whole main_v6).slice (win1_2.rect t)).set ↔ _
  rw [View.set_slice_whole, Rect.mem_set_unit]
  exact Iff.rfl

/-- Array row `v` is in the block written back at point `489 (v / 1024) + 488`. -/
theorem cover1 (i : S73728x64.Idx) :
    ∃ t : Fin cfg1.N, (cfg1.win 2).flush t = true ∧ i ∈ ((cfg1.win 2).blk t).view.set := by
  have hi0 : (i 0).val < 73728 := (i 0).isLt
  have hi1 : (i 1).val < 64 := (i 1).isLt
  have hlt : 489 * ((i 0).val / 1024) + 488 < cfg1.N := by rw [show cfg1.N = 35208 from N_1]; omega
  obtain ⟨t, htv⟩ : ∃ t : Fin cfg1.N, t.val = 489 * ((i 0).val / 1024) + 488 := ⟨⟨_, hlt⟩, rfl⟩
  refine ⟨t, (flush1_2 t).mpr (by omega), ?_⟩
  rw [mem_outBlk1]
  intro a
  match a with
  | ⟨0, _⟩ =>
    show (cfg1.win 2).index t 0 * 1024 ≤ (i 0).val ∧ (i 0).val < (cfg1.win 2).index t 0 * 1024 + 1024
    rw [outIndex1_0 t]; omega
  | ⟨1, _⟩ =>
    show (cfg1.win 2).index t 1 * 64 ≤ (i 1).val ∧ (i 1).val < (cfg1.win 2).index t 1 * 64 + 64
    rw [outIndex1_1 t]; omega

/-- The second kernel's output array after the run. -/
theorem normalised_array (c : Dev nD) :
    (dat1 V c).arrAt 2 cfg1.N = fun i : S73728x64.Idx =>
      normalised (fun k : Fin 64 => ∑ e : Fin 2002944, ind ((V c main_v3 : S2002944.Idx → BitVec 32) (ix1 e)) (i 0).val
          * (V c main_v5 : S2002944x64.Idx → EReal) (ix2 e k)) (i 1) :=
  (dat1 V c).arrAt_eq_of_cover 2 (normRows1 V c) (flushed1_eq V c) cover1

end Cert.KernelIdeal.Hand

end
-- ==== Proof.KernelIdeal.Bridge.lean ====
/-
  The idealized kernel's result buffer is the layer's result.

  The host side first: when the first region is entered the padded table holds the table's rows and zero rows below
  them, and the padded edge lists hold the edges' words and weights and zeros behind them. Then the chain: the result
  buffer is the first 70839 rows of the second region's output array; that array's row v is the normalised sum over the
  padded edges of the comparison of v with the destination word times the first region's output row; that row is the
  sum over the padded table of the comparison of the source word with the row number times the row, times the weight.
  With every source word a row number these are the sums of the specification.
-/
import proofs.«407872_j86337432584536_1_alg».proof.Proof.KernelIdeal.Run
import proofs.«407872_j86337432584536_1_alg».proof.Proof.KernelIdeal.Value0
import proofs.«407872_j86337432584536_1_alg».proof.Proof.KernelIdeal.Value1
import proofs.«407872_j86337432584536_1_alg».proof.Proof.Algebra
import Idealize.ShloMosaic.Lib.KernelVsHost
import Idealize.ShloMosaic.Lib.StableHlo.Run
import Idealize.ShloMosaic.Lib.Pipeline.Value

set_option maxRecDepth 16384

noncomputable section

namespace Cert.KernelIdeal.Hand

open Cert.KernelIdeal Cert.KernelIdeal.Gen Cert.GraphSpec
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (c : Dev nD)

/-- The four arguments as launched. -/
abbrev embA : Cert.GraphSpec.Table := m ((c : Thread nD τ).loc main_arg0)
abbrev wA : Cert.GraphSpec.Weights := m ((c : Thread nD τ).loc main_arg1)
abbrev srcA : Cert.GraphSpec.Words := m ((c : Thread nD τ).loc main_arg2)
abbrev dstA : Cert.GraphSpec.Words := m ((c : Thread nD τ).loc main_arg3)

/-! ## The padded arrays when the first region is entered -/

/-- A list of 2000000 entries padded behind with 2944 copies of `z`, read at an index. -/
theorem pad_list_apply {α : Type} (x : S2000000.Idx → α) (z : S_.Idx → α) (i : S2002944.Idx) :
    pad S2002944 ![0] ![2944] ![0] x z pads_S2000000_S2002944_029440 h_S_ i
      = if h : (i 0).val < 2000000 then x (ix1 ⟨(i 0).val, h⟩) else z ix0 := by
  by_cases h : (i 0).val < 2000000
  · rw [dif_pos h]
    exact pad_apply_of_inside _ _ _ x z _ h_S_ i (ix1 ⟨(i 0).val, h⟩) fun a => by
      match a with
      | ⟨0, _⟩ => show (i 0).val = 0 + (i 0).val * (0 + 1); omega
  · rw [dif_neg h]
    refine (pad_apply_of_not_inside _ _ _ x z _ h_S_ i 0 fun hin => h ?_).trans (congrArg z (eq_ix0 _))
    have h3 : ((i 0).val - 0) / (0 + 1) < 2000000 := hin.2.2
    omega

theorem entry_srcs : (E0 m c main_v2 : S2002944.Idx → BitVec 32) = fun i => wordAt (srcA m c) (i 0).val := by
  have e : (E0 m c main_v2 : S2002944.Idx → BitVec 32)
      = pad S2002944 ![0] ![2944] ![0] (srcA m c) (constantI S_ 32 0#32) pads_S2000000_S2002944_029440 h_S_ := by
    show StableHlo.after hostOps0_7 (V7 m c) (Proc.devRef .tc main_v2) = _
    after_results
    rfl
  rw [e]; funext i
  rw [pad_list_apply]; unfold wordAt
  by_cases h : (i 0).val < 2000000
  · rw [dif_pos h, dif_pos h]
  · rw [dif_neg h, dif_neg h]; rfl

theorem entry_dsts : (E0 m c main_v3 : S2002944.Idx → BitVec 32) = fun i => wordAt (dstA m c) (i 0).val := by
  have e : (E0 m c main_v3 : S2002944.Idx → BitVec 32)
      = pad S2002944 ![0] ![2944] ![0] (dstA m c) (constantI S_ 32 0#32) pads_S2000000_S2002944_029440 h_S_ := by
    show StableHlo.after hostOps0_7 (V7 m c) (Proc.devRef .tc main_v3) = _
    after_results
    rfl
  rw [e]; funext i
  rw [pad_list_apply]; unfold wordAt
  by_cases h : (i 0).val < 2000000
  · rw [dif_pos h, dif_pos h]
  · rw [dif_neg h, dif_neg h]; rfl

theorem entry_wts : (E0 m c main_v4 : S2002944.Idx → EReal) = fun i => weightAt (wA m c) (i 0).val := by
  have e : (E0 m c main_v4 : S2002944.Idx → EReal)
      = pad S2002944 ![0] ![2944] ![0] (wA m c) (sitofp (F := Ideal) .f32 (constantI S_ 32 0#32)) pads_S2000000_S2002944_029440 h_S_ := by
    show StableHlo.after hostOps0_7 (V7 m c) (Proc.devRef .tc main_v4) = _
    after_results
    rfl
  rw [e]; funext i
  rw [pad_list_apply]; unfold weightAt
  by_cases h : (i 0).val < 2000000
  · rw [dif_pos h, dif_pos h]
  · rw [dif_neg h, dif_neg h]
    show ((((0#32 : BitVec 32).toInt : ℝ) : EReal)) = 0
    simp

theorem entry_table : (E0 m c main_v1 : S73728x64.Idx → EReal) = fun i => rowAt (embA m c) (i 0).val (i 1) := by
  have e : (E0 m c main_v1 : S73728x64.Idx → EReal)
      = pad S73728x64 ![0, 0] ![2889, 0] ![0, 0] (truncf (F := Ideal) .bf16 (embA m c) bitsLt_bf16_f32)
          (sitofp (F := Ideal) .bf16 (constantI S_ 32 0#32)) pads_S70839x64_S73728x64_028890_000 h_S_ := by
    show StableHlo.after hostOps0_7 (V7 m c) (Proc.devRef .tc main_v1) = _
    after_results
    rfl
  rw [e]; funext i
  unfold rowAt
  by_cases h : (i 0).val < 70839
  · rw [dif_pos h]
    refine (pad_apply_of_inside _ _ _ _ _ _ h_S_ i (ix2 ⟨(i 0).val, h⟩ (i 1)) fun a => ?_).trans rfl
    match a with
    | ⟨0, _⟩ => show (i 0).val = 0 + (i 0).val * (0 + 1); omega
    | ⟨1, _⟩ => show (i 1).val = 0 + (i 1).val * (0 + 1); omega
  · rw [dif_neg h]
    refine (pad_apply_of_not_inside _ _ _ _ _ _ h_S_ i 0 fun hin => h ?_).trans ?_
    · have h3 : ((i 0).val - 0) / (0 + 1) < 70839 := hin.2.2
      omega
    · show ((((0#32 : BitVec 32).toInt : ℝ) : EReal)) = 0
      simp

/-! ## The result buffer -/

theorem kernel_value (hs : SourcesInRange (srcA m c)) :
    (W11 m c main_v7 : S70839x64.Idx → EReal) = result (embA m c) (wA m c) (srcA m c) (dstA m c) := by
  have e7 : (W11 m c main_v7 : S70839x64.Idx → EReal)
      = extractStridedSlice S70839x64 ![0, 0] (W10 m c main_v6 : S73728x64.Idx → EReal) slices_S73728x64_S70839x64_0_0 := by
    show StableHlo.after hostOps2 (W10 m c) (Proc.devRef .tc main_v7) = _
    after_results
  have e6 : (W10 m c main_v6 : S73728x64.Idx → EReal) = (dat1 (E1 m) c).arrAt 2 cfg1.N := W10_arr m c 2
  have e5 : (E1 m c main_v5 : S2002944x64.Idx → EReal) = (dat0 (E0 m) c).arrAt 3 cfg0.N := W9_arr m c 3
  have e3 : (E1 m c main_v3 : S2002944.Idx → BitVec 32) = E0 m c main_v3 := W9_of_ne m c main_v3 (by decide)
  funext (i : S70839x64.Idx)
  have hv : (i 0).val < 73728 := lt_trans (i 0).isLt (by decide)
  rw [e7]
  refine (extractStridedSlice_apply ![0, 0] (W10 m c main_v6 : S73728x64.Idx → EReal) slices_S73728x64_S70839x64_0_0 i
    (ix2 ⟨(i 0).val, hv⟩ (i 1)) (fun a => ?_)).trans ?_
  · match a with
    | ⟨0, _⟩ => show (i 0).val = 0 + (i 0).val; omega
    | ⟨1, _⟩ => show (i 1).val = 0 + (i 1).val; omega
  rw [e6, normalised_array]
  show normalised _ (i 1) = normalised (target (embA m c) (wA m c) (srcA m c) (dstA m c) (i 0).val) (i 1)
  refine congrArg (fun h => normalised h (i 1)) (funext fun k => ?_)
  rw [e5, gathered_array, e3, entry_dsts, entry_srcs, entry_table, entry_wts]
  refine Eq.trans ?_ (arriving_eq_target (embA m c) (wA m c) (srcA m c) (dstA m c) hs (i 0).val hv k)
  unfold arriving
  rw [← Fin.sum_univ_eq_sum_range (fun e => ind (wordAt (dstA m c) e) (i 0).val * gathered (embA m c) (wA m c) (srcA m c) e k) 2002944]
  refine Finset.sum_congr rfl fun e _ => ?_
  unfold gathered
  rw [← Fin.sum_univ_eq_sum_range (fun n => ind (wordAt (srcA m c) e.val) n * rowAt (embA m c) n k) 73728]
  rfl

end Cert.KernelIdeal.Hand

end
-- ==== Proof.Reference.lean ====
import proofs.«407872_j86337432584536_1_alg».proof.Proof.Gen.ReferenceIdeal.Run
import proofs.«407872_j86337432584536_1_alg».proof.Proof.Gen.ReferenceIdeal.Read
import proofs.«407872_j86337432584536_1_alg».proof.Proof.Spec
import Idealize.ShloMosaic.PureOps.Ideal
import Idealize.ShloMosaic.PureOps.Ideal.Laws
import Idealize.ShloMosaic.Lib.ValueIdx
import Mathlib.Data.Fintype.BigOperators

/-
  The reference program computes the layer's result.

  The reference wraps a negative source word by adding the number of rows, gathers the row the word names (the word
  read signed and clamped to the table's rows), multiplies the row by the edge's weight, adds every edge's row into a
  table of zeros at the row its destination word names (a word outside the table's rows adds nothing), and divides
  each row by the larger of its Euclidean norm and a small constant.

  When every source word is a row number the wrap and the clamp change nothing, so edge e's gathered row is row
  (src e) of the table. The accumulation at element (v, d) is a sum over all pairs (edge, feature) whose landing
  place is (v, d); a pair (e, d') lands there exactly when d' = d and the destination word of e, read signed, is v.
  So the sum over pairs collapses to the sum over the edges e ending at v of row (src e) at d times the weight of e:
  the layer's target sum. The last operations divide by the norm, read one at a time.
-/

noncomputable section

namespace Cert.RefSide

open Idealize.ShloMosaic Idealize.ShloMosaic.ValueIdx
open Cert.ReferenceIdeal Cert.ReferenceIdeal.Read
open Cert.GraphSpec (rowAt wordAt weightAt target eps normalised result SourcesInRange Words Weights)

/-- The table's shape, the edge words' shape as the gather and the scatter take them, and the shape of the edges' rows. -/
abbrev ShT : Shape := S70839x64
abbrev ShE1 : Shape := S2000000x1
abbrev ShE64 : Shape := S2000000x64

/-- The gather's and the scatter's dimension numbers, as the program states them. -/
abbrev gd : GatherDims ShT ShE1 ShE64 := gather_S70839x64_S2000000x1_S2000000x64_1_0_n_n_0_1_164
abbrev sd : ScatterDims ShT ShE1 ShE64 := scatter_S70839x64_S2000000x1_S2000000x64_1_0_0_1

/-! ## The gather's index -/

/-- On the table's row axis the gather reads the start word, signed and clamped to the table's rows. -/
theorem gather_coord0 (idx : IVec ShE1 32) (e : Fin 2000000) (d : Fin 64) :
    (gd.operandIdx (ix2 e d) idx (0 : Fin 2)).val = min (idx (ix2 e (0 : Fin 1))).toInt.toNat 70838 := by
  show gd.start (ix2 e d) idx (0 : Fin 2) + gd.batchCoord (ix2 e d) (0 : Fin 2) + gd.offCoord (ix2 e d) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gd.startIndexMap from List.mem_singleton.mpr rfl)]
  have hsi : gd.siIdx (ix2 e d) ⟨List.idxOf (0 : Fin 2) gd.startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the feature axis the gather reads the result's own feature coordinate. -/
theorem gather_coord1 (idx : IVec ShE1 32) (e : Fin 2000000) (d : Fin 64) :
    (gd.operandIdx (ix2 e d) idx (1 : Fin 2)).val = d.val := by
  show gd.start (ix2 e d) idx (1 : Fin 2) + gd.batchCoord (ix2 e d) (1 : Fin 2) + gd.offCoord (ix2 e d) (1 : Fin 2) = _
  have hb : gd.batchCoord (ix2 e d) (1 : Fin 2) = 0 := GatherDims.batchCoord_eq_zero _ _ _ List.not_mem_nil
  have hs : gd.start (ix2 e d) idx (1 : Fin 2) = 0 := by
    unfold GatherDims.start
    rw [dif_neg (show ¬ ((1 : Fin 2) ∈ gd.startIndexMap) from
      (show ¬ ((1 : Fin 2) ∈ ([0] : List (Fin 2))) from by decide))]
  have ho : gd.offCoord (ix2 e d) (1 : Fin 2) = d.val := by
    unfold GatherDims.offCoord
    rw [dif_pos ((GatherDims.mem_sKept gd (1 : Fin 2)).2
      ⟨show (1 : Fin 2) ∉ ([0] : List (Fin 2)) from by decide, List.not_mem_nil⟩)]
    rfl
  omega

/-- The gather at edge e and feature d is the table at row n, column d, when the clamped start word is n. -/
theorem gather_read {α : Type} (x : ShT.Idx → α) (idx : IVec ShE1 32) (e : Fin 2000000) (d : Fin 64)
    (n : ℕ) (hn : n < 70839) (h : min (idx (ix2 e (0 : Fin 1))).toInt.toNat 70838 = n) :
    Host.gather gd x idx (ix2 e d) = x (ix2 (⟨n, hn⟩ : Fin 70839) d) := by
  subst h
  show x (gd.operandIdx (ix2 e d) idx) = _
  refine congrArg x ?_
  funext a
  refine Fin.ext ?_
  match a with
  | ⟨0, _⟩ => exact gather_coord0 idx e d
  | ⟨1, _⟩ => exact gather_coord1 idx e d

/-! ## The scatter's index -/

/-- On the table's row axis an update lands at its destination word, read signed. -/
theorem scatter_pos0 (idx : IVec ShE1 32) (e : Fin 2000000) (d' : Fin 64) :
    sd.start (ix2 e d') idx (0 : Fin 2) + ((sd.window (ix2 e d') (0 : Fin 2) : ℕ) : ℤ)
      = (idx (ix2 e (0 : Fin 1))).toInt := by
  have hw : sd.window (ix2 e d') (0 : Fin 2) = 0 := by
    unfold ScatterDims.window
    rw [dif_neg (show ¬ ((0 : Fin 2) ∈ sd.sKept) from
      (show ¬ ((0 : Fin 2) ∈ ShT.kept ([0] : List (Fin 2))) from by decide))]
  have hs : sd.start (ix2 e d') idx (0 : Fin 2) = (idx (ix2 e (0 : Fin 1))).toInt := by
    unfold ScatterDims.start
    rw [dif_pos (show (0 : Fin 2) ∈ sd.scatterDimsToOperandDims from List.mem_singleton.mpr rfl)]
    have hsi : sd.siIdx (ix2 e d') ⟨List.idxOf (0 : Fin 2) sd.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  omega

/-- On the feature axis an update lands at its own feature coordinate. -/
theorem scatter_pos1 (idx : IVec ShE1 32) (e : Fin 2000000) (d' : Fin 64) :
    sd.start (ix2 e d') idx (1 : Fin 2) + ((sd.window (ix2 e d') (1 : Fin 2) : ℕ) : ℤ) = (d'.val : ℤ) := by
  have hs : sd.start (ix2 e d') idx (1 : Fin 2) = 0 := by
    unfold ScatterDims.start
    rw [dif_neg (show ¬ ((1 : Fin 2) ∈ sd.scatterDimsToOperandDims) from
      (show ¬ ((1 : Fin 2) ∈ ([0] : List (Fin 2))) from by decide))]
  have hw : sd.window (ix2 e d') (1 : Fin 2) = d'.val := by
    unfold ScatterDims.window
    rw [dif_pos (show (1 : Fin 2) ∈ sd.sKept from
      (show (1 : Fin 2) ∈ ShT.kept ([0] : List (Fin 2)) from by decide))]
    rfl
  omega

/-- Update (e, d') lands on table element (v, d) exactly when edge e's destination word, read signed, is v and
    d' is d. A word outside the table's rows lands nowhere. -/
theorem resultIdx?_iff (idx : IVec ShE1 32) (e : Fin 2000000) (d' : Fin 64) (v : Fin 70839) (d : Fin 64) :
    sd.resultIdx? (ix2 e d') idx = some (ix2 v d)
      ↔ (idx (ix2 e (0 : Fin 1))).toInt = ((v.val : ℕ) : ℤ) ∧ d' = d := by
  have q0 := scatter_pos0 idx e d'
  have q1 := scatter_pos1 idx e d'
  have hv := v.isLt
  have hd' := d'.isLt
  unfold ScatterDims.resultIdx?
  constructor
  · intro h
    split at h
    · rename_i hh
      have hf := Option.some.inj h
      have e0 : (sd.start (ix2 e d') idx (0 : Fin 2)
          + ((sd.window (ix2 e d') (0 : Fin 2) : ℕ) : ℤ)).toNat = v.val :=
        congrArg Fin.val (congrFun hf (0 : Fin 2))
      have e1 : (sd.start (ix2 e d') idx (1 : Fin 2)
          + ((sd.window (ix2 e d') (1 : Fin 2) : ℕ) : ℤ)).toNat = d.val :=
        congrArg Fin.val (congrFun hf (1 : Fin 2))
      have p0 : 0 ≤ sd.start (ix2 e d') idx (0 : Fin 2) + ((sd.window (ix2 e d') (0 : Fin 2) : ℕ) : ℤ) :=
        (hh (0 : Fin 2)).1
      exact ⟨by omega, Fin.ext (by omega)⟩
    · cases h
  · rintro ⟨hw, hdd⟩
    have hdv : d'.val = d.val := congrArg Fin.val hdd
    split
    · refine congrArg some (funext fun a => Fin.ext ?_)
      match a with
      | ⟨0, _⟩ =>
        show (sd.start (ix2 e d') idx (0 : Fin 2)
          + ((sd.window (ix2 e d') (0 : Fin 2) : ℕ) : ℤ)).toNat = v.val
        omega
      | ⟨1, _⟩ =>
        show (sd.start (ix2 e d') idx (1 : Fin 2)
          + ((sd.window (ix2 e d') (1 : Fin 2) : ℕ) : ℤ)).toNat = d.val
        omega
    · rename_i hneg
      refine (hneg fun a => ?_).elim
      match a with
      | ⟨0, _⟩ =>
        show 0 ≤ sd.start (ix2 e d') idx (0 : Fin 2) + ((sd.window (ix2 e d') (0 : Fin 2) : ℕ) : ℤ)
          ∧ sd.start (ix2 e d') idx (0 : Fin 2) + ((sd.window (ix2 e d') (0 : Fin 2) : ℕ) : ℤ)
            < ((70839 : ℕ) : ℤ)
        exact ⟨by omega, by omega⟩
      | ⟨1, _⟩ =>
        show 0 ≤ sd.start (ix2 e d') idx (1 : Fin 2) + ((sd.window (ix2 e d') (1 : Fin 2) : ℕ) : ℤ)
          ∧ sd.start (ix2 e d') idx (1 : Fin 2) + ((sd.window (ix2 e d') (1 : Fin 2) : ℕ) : ℤ)
            < ((64 : ℕ) : ℤ)
        exact ⟨by omega, by omega⟩

/-- The accumulating scatter at table element (v, d): the operand's element plus, over the edges, the update
    at (e, d) of each edge whose destination word is v. -/
theorem scatterAdd_read (x : ShT.Idx → EReal) (idx : IVec ShE1 32) (upd : ShE64.Idx → EReal)
    (v : Fin 70839) (d : Fin 64) :
    Ideal.hostScatterAdd sd x idx upd (ix2 v d)
      = x (ix2 v d) + ∑ e : Fin 2000000,
          if (idx (ix2 e (0 : Fin 1))).toInt = ((v.val : ℕ) : ℤ) then upd (ix2 e d) else 0 := by
  show x (ix2 v d) + ∑ j ∈ Finset.univ.filter (fun j => sd.resultIdx? j idx = some (ix2 v d)), upd j = _
  refine congrArg (x (ix2 v d) + ·) ?_
  rw [Finset.sum_filter, sum_idx2]
  refine Finset.sum_congr rfl fun e _ => ?_
  by_cases hw : (idx (ix2 e (0 : Fin 1))).toInt = ((v.val : ℕ) : ℤ)
  · rw [if_pos hw, Finset.sum_eq_single d]
    · rw [if_pos ((resultIdx?_iff idx e d v d).2 ⟨hw, rfl⟩)]
    · intro d' _ hne
      rw [if_neg (fun h => hne ((resultIdx?_iff idx e d' v d).1 h).2)]
    · intro h
      exact absurd (Finset.mem_univ d) h
  · rw [if_neg hw]
    refine Finset.sum_eq_zero fun d' _ => ?_
    rw [if_neg (fun h => hw ((resultIdx?_iff idx e d' v d).1 h).1)]

/-! ## Words -/

/-- A word whose signed reading is not negative reads the same unsigned. -/
theorem toInt_toNat_of_nonneg (w : BitVec 32) (h : 0 ≤ w.toInt) : w.toInt.toNat = w.toNat := by
  have hc := BitVec.toInt_eq_toNat_cond w
  have hl := w.isLt
  split at hc <;> omega

/-- A word whose signed reading is not negative is not below zero in the signed comparison. -/
theorem cmpi_slt_zero (w : BitVec 32) (h : 0 ≤ w.toInt) : IntOp.cmpi .slt w 0#32 = 0#1 := by
  have hs : w.slt 0#32 = false := by
    unfold BitVec.slt
    rw [BitVec.toInt_zero]
    exact decide_eq_false (by omega)
  show BitVec.ofBool (w.slt 0#32) = 0#1
  exact (congrArg BitVec.ofBool hs).trans rfl

/-- A select on the bit zero takes its second value. -/
theorem select_zero {α : Type} (a b : α) : Scalar.select (0#1 : BitVec 1) a b = b := by
  unfold Scalar.select
  exact if_neg (by decide)

/-- Inside the lists the specification's reads are the lists' elements. -/
theorem wordAt_fin (x : Words) (e : Fin 2000000) : wordAt x e.val = x (ix1 e) := by
  unfold Cert.GraphSpec.wordAt
  exact dif_pos e.isLt

theorem weightAt_fin (w : Weights) (e : Fin 2000000) : weightAt w e.val = w (ix1 e) := by
  unfold Cert.GraphSpec.weightAt
  exact dif_pos e.isLt

theorem rowAt_lt (emb : Cert.GraphSpec.Table) (n : ℕ) (h : n < 70839) (d : Fin 64) :
    rowAt emb n d = emb (ix2 (⟨n, h⟩ : Fin 70839) d) := by
  unfold Cert.GraphSpec.rowAt
  exact dif_pos h

/-! ## The operations before the scatter, at an edge -/

/-- A source word that is a row number passes the wrap unchanged. -/
theorem v4_read (x2 : Words) (e : Fin 2000000) (h : 0 ≤ (x2 (ix1 e)).toInt) :
    val_main_v4 (F := Ideal) x2 (ix1 e) = x2 (ix1 e) := by
  rw [val_main_v4_apply, val_main_v1_apply, val_main_v0_apply, val_main_c_apply, cmpi_slt_zero _ h, select_zero]

theorem idx5 (e : Fin 2000000) : idx_main_v5 (ix2 e (0 : Fin 1)) = ix1 e := by
  funext a; match a with | ⟨0, _⟩ => rfl

theorem idx7 (e : Fin 2000000) : idx_main_v7 (ix2 e (0 : Fin 1)) = ix1 e := by
  funext a; match a with | ⟨0, _⟩ => rfl

theorem idx8 (e : Fin 2000000) (d : Fin 64) : idx_main_v8 (ix2 e d) = ix2 e (0 : Fin 1) := by
  funext a; match a with | ⟨0, _⟩ => rfl | ⟨1, _⟩ => rfl

theorem idx11 (e : Fin 2000000) : idx_main_v11 (ix2 e (0 : Fin 1)) = ix1 e := by
  funext a; match a with | ⟨0, _⟩ => rfl

/-- The gather's start word for edge e is the edge's source word. -/
theorem v5_read (x2 : Words) (e : Fin 2000000) (h : 0 ≤ (x2 (ix1 e)).toInt) :
    val_main_v5 (F := Ideal) x2 (ix2 e (0 : Fin 1)) = x2 (ix1 e) := by
  rw [val_main_v5_apply, idx5 e]
  exact v4_read x2 e h

/-- The weight broadcast along the row is the edge's weight. -/
theorem v8_read (x1 : Weights) (e : Fin 2000000) (d : Fin 64) :
    val_main_v8 (F := Ideal) x1 (ix2 e d) = x1 (ix1 e) := by
  rw [val_main_v8_apply, idx8 e d, val_main_v7_apply, idx7 e]

/-- The gathered row of edge e is the table's row at the edge's source word. -/
theorem v6_read (x0 : Cert.GraphSpec.Table) (x2 : Words) (hs : SourcesInRange x2) (e : Fin 2000000) (d : Fin 64) :
    val_main_v6 (F := Ideal) x0 x2 (ix2 e d) = rowAt x0 (x2 (ix1 e)).toNat d := by
  obtain ⟨h0, h1⟩ := hs e
  have hn : (x2 (ix1 e)).toInt.toNat = (x2 (ix1 e)).toNat := toInt_toNat_of_nonneg _ h0
  have hlt : (x2 (ix1 e)).toNat < 70839 := by omega
  refine (gather_read x0 (val_main_v5 (F := Ideal) x2) e d (x2 (ix1 e)).toNat hlt ?_).trans
    (rowAt_lt x0 _ hlt d).symm
  rw [v5_read x2 e h0, hn]
  omega

/-- The update of edge e at feature d: the source's row at d times the edge's weight. -/
theorem v9_read (x0 : Cert.GraphSpec.Table) (x1 : Weights) (x2 : Words) (hs : SourcesInRange x2)
    (e : Fin 2000000) (d : Fin 64) :
    val_main_v9 (F := Ideal) x0 x1 x2 (ix2 e d) = rowAt x0 (x2 (ix1 e)).toNat d * x1 (ix1 e) := by
  rw [val_main_v9_apply, v6_read x0 x2 hs e d, v8_read x1 e d, Ideal.mulf_def]

/-! ## The scatter, at a table element -/

/-- The accumulated table at node v and feature d is the layer's target sum. -/
theorem v12_unfold (x0 : Cert.GraphSpec.Table) (x1 : Weights) (x2 x3 : Words) :
    val_main_v12 (F := Ideal) x0 x1 x2 x3
      = Ideal.hostScatterAdd sd (val_main_v10 (F := Ideal)) (val_main_v11 (F := Ideal) x3) (val_main_v9 (F := Ideal) x0 x1 x2) := rfl

set_option maxHeartbeats 400000 in
theorem v12_read (x0 : Cert.GraphSpec.Table) (x1 : Weights) (x2 x3 : Words) (hs : SourcesInRange x2)
    (v : Fin 70839) (d : Fin 64) :
    val_main_v12 (F := Ideal) x0 x1 x2 x3 (ix2 v d) = target x0 x1 x2 x3 v.val d := by
  rw [v12_unfold, scatterAdd_read]
  rw [val_main_v10_apply, val_main_cst_apply, Ideal.ofBits_def, Ideal.ofBits_zero_f32, zero_add]
  unfold Cert.GraphSpec.target
  rw [← Fin.sum_univ_eq_sum_range
    (fun e => if (wordAt x3 e).toInt = ((v.val : ℕ) : ℤ) then rowAt x0 (wordAt x2 e).toNat d * weightAt x1 e else 0) 2000000]
  refine Finset.sum_congr rfl fun e _ => ?_
  rw [val_main_v11_apply, idx11 e, v9_read x0 x1 x2 hs e d, wordAt_fin x3 e, wordAt_fin x2 e, weightAt_fin x1 e]

/-- The same at any index of the table. -/
theorem v12_at (x0 : Cert.GraphSpec.Table) (x1 : Weights) (x2 x3 : Words) (hs : SourcesInRange x2)
    (j : ShT.Idx) :
    val_main_v12 (F := Ideal) x0 x1 x2 x3 j = target x0 x1 x2 x3 (j 0).val (j 1) :=
  (congrArg (val_main_v12 (F := Ideal) x0 x1 x2 x3) (eq_ix2 j)).trans (v12_read x0 x1 x2 x3 hs (j 0) (j 1))

/-! ## The whole program -/

/-- The entries the row norm at result element (v, d) sums over are row v of the table. -/
theorem idxRow (v : Fin 70839) (d k : Fin 64) :
    idx_main_call0_v1 (idx_main_call0_v2 (idx_main_v16 (ix2 v d))) k = ix2 v k := by
  funext a; match a with | ⟨0, _⟩ => rfl | ⟨1, _⟩ => rfl

set_option maxHeartbeats 400000 in
/-- When every source word is a row number, the reference program's result is the layer's. -/
theorem reference_eq [Cert.ReferenceIdeal.Facts]
    (x0 : (⟨Cert.ReferenceIdeal.S70839x64, .f32⟩ : BufTy).Contents (Elt Ideal)) (x1 : (⟨Cert.ReferenceIdeal.S2000000, .f32⟩ : BufTy).Contents (Elt Ideal))
    (x2 x3 : (⟨Cert.ReferenceIdeal.S2000000, .i32⟩ : BufTy).Contents (Elt Ideal))
    (hs : Cert.GraphSpec.SourcesInRange x2) :
    Cert.ReferenceIdeal.Read.val_main_v17 (F := Ideal) x0 x1 x2 x3 = Cert.GraphSpec.result x0 x1 x2 x3 := by
  funext i
  obtain ⟨v, d, rfl⟩ : ∃ (v : Fin 70839) (d : Fin 64), i = ix2 v d := ⟨i 0, i 1, eq_ix2 i⟩
  show _ = normalised (target x0 x1 x2 x3 v.val) d
  unfold Cert.GraphSpec.normalised Cert.GraphSpec.eps
  rw [val_main_v17_apply, val_main_v16_apply, val_main_v15_apply, val_main_v13_apply, val_main_call0_v2_apply,
    val_main_call0_v1_apply, val_main_call0_cst_apply, val_main_v14_apply, val_main_cst_1_apply, v12_read x0 x1 x2 x3 hs v d]
  have hsum : (∑ k : Fin 64, val_main_call0_v0 (F := Ideal) x0 x1 x2 x3 (idx_main_call0_v1 (idx_main_call0_v2 (idx_main_v16 (ix2 v d))) k))
      = ∑ k : Fin 64, target x0 x1 x2 x3 v.val k * target x0 x1 x2 x3 v.val k :=
    Finset.sum_congr rfl fun k _ => by
      rw [idxRow v d k, val_main_call0_v0_apply, v12_read x0 x1 x2 x3 hs v k, Ideal.mulf_def]
  rw [hsum, Ideal.hostDivf_def, Ideal.maximumf_def, Ideal.hostUnary_sqrt_def, Ideal.ofBits_def, Ideal.ofBits_def,
    Ideal.ofBits_zero_f32, zero_add]

end Cert.RefSide

end
-- ==== Proof.Precondition.lean ====
/-
  The precondition, read back. The claim is made under a predicate on the four arguments that says four
  things at once: every entry of the table and every weight is finite, and every source word, read as a signed number,
  is at least 0 and below 70839, the number of rows of the table. Each of the four is a test at every entry, and-ed
  over the whole array from the constant true, and the four results are and-ed together. When that one bit is true, every
  factor is true, and an and over an array that came out true met a true bit at every entry; the bit at a source word is
  the signed comparison of that word with the constant 0, respectively 70839. Hence every source word is a row number.
  Only the two tests on the source words are kept here.
-/
import proofs.«407872_j86337432584536_1_alg».proof.Pre_finite_inputs
import proofs.«407872_j86337432584536_1_alg».proof.Proof.Gen.Pre_finite_inputs
import proofs.«407872_j86337432584536_1_alg».proof.Proof.Spec
import Idealize.ShloMosaic.Lib.ReduceAll
import Idealize.ShloMosaic.Lib.StableHlo.Predicate

namespace Cert.Precondition

open Idealize.ShloMosaic Idealize.ShloMosaic.ValueIdx

/-- The shape with no axes has one index. -/
instance subsingleton_scalar_idx : Subsingleton Cert.Pre_finite_inputs.S_.Idx :=
  ⟨fun _ _ => funext fun d => d.elim0⟩

/-- The two constants the source words are compared with, read signed. -/
theorem toInt_zero : (0#32 : BitVec 32).toInt = 0 := by decide
theorem toInt_rows : (70839#32 : BitVec 32).toInt = 70839 := by decide

/-- The precondition holding, every source word is the number of a row of the table: at least 0 and below 70839
    when read signed. -/
theorem sources_in_range {F : FTy → Type} [FloatOps F] [Cert.Pre_finite_inputs.Facts]
    (x0 : FVec F Cert.Pre_finite_inputs.S70839x64 .f32) (x1 : FVec F Cert.Pre_finite_inputs.S2000000 .f32)
    (x2 x3 : IVec Cert.Pre_finite_inputs.S2000000 32)
    (h : Cert.Pre_finite_inputs.fn (F := F) x0 x1 x2 x3 = fun _ => 1#1) :
    Cert.GraphSpec.SourcesInRange x2 := by
  -- the one bit of the predicate, as the and of its four factors
  have e := congrFun h ValueIdx.ix0
  dsimp only [Cert.Pre_finite_inputs.fn, Cert.Pre_finite_inputs.fn_part1, andi] at e
  rw [IntOp.andi_eq_one, IntOp.andi_eq_one] at e
  obtain ⟨⟨-, hge⟩, hlt⟩ := e
  intro k
  -- an and over the whole list that is true met a true bit at edge k
  have a0 := Host.reduce_andi_all _ _ _ _ _ hge (ix1 k)
  have a1 := Host.reduce_andi_all _ _ _ _ _ hlt (ix1 k)
  -- the bit at edge k is the signed comparison of the word with the constant, the same at every edge
  have b0 : IntOp.cmpi .sge (x2 (ix1 k)) (0#32) = 1#1 := a0
  have b1 : IntOp.cmpi .slt (x2 (ix1 k)) (70839#32) = 1#1 := a1
  have c0 := IntOp.cmpi_sge.1 b0
  have c1 := IntOp.cmpi_slt.1 b1
  rw [toInt_zero] at c0
  rw [toInt_rows] at c1
  exact ⟨c0, c1⟩

end Cert.Precondition
-- ==== Proof.lean ====
/-
  A graph layer on 70839 nodes with 64 features and 2000000 weighted edges: every edge carries its source's row times
  its weight to its destination, a node sums what arrives, and each row is divided by the larger of its Euclidean norm
  and a small constant. The kernel program does it without indexing, as two blocked matrix products against comparison
  matrices it builds on the fly: first, per edge, the sum over all (zero-padded) table rows of "is this the source's
  row?" times the row, times the weight; then, per node, the sum over all (zero-padded) edges of "does this edge end
  here?" times the edge's row, followed by the row normalisation. Each product is accumulated chunk by chunk in a
  scratch buffer that is zeroed at the first chunk of a block and read out at the last.

  The claim holds where every source word is the number of a table row (0 <= edge_src < 70839, the stated
  precondition): there the first sum has exactly one non-zero term, the source's row, which is what the reference's
  gather reads; the padded edges weigh zero; and an edge contributes to node v in the kernel exactly when its
  destination word, read as a signed number, is v, which is the reference's scatter-add (a word outside the table lands
  nowhere in both). No step needs the inputs to be finite: every identity used is one of sums and products that holds on
  all extended reals.

  The frames: both kernel regions keep the invariant "the scratch holds the block's partial sum up to this chunk";
  the run of @main threads the contents of every unscoped buffer through the eight host stretches, the two regions and
  the final slice, and ends with all of them known, which gives the argument arrays unchanged and the result buffer's
  value at once. The reference has no kernel: its frame is its run with the result dropped.
-/
import proofs.«407872_j86337432584536_1_alg».proof.Defs
import proofs.«407872_j86337432584536_1_alg».proof.Proof.Gen.Kernel
import proofs.«407872_j86337432584536_1_alg».proof.Proof.Gen.KernelIdeal
import proofs.«407872_j86337432584536_1_alg».proof.Proof.Gen.ReferenceIdeal
import proofs.«407872_j86337432584536_1_alg».proof.Proof.Gen.Pre_finite_inputs
import proofs.«407872_j86337432584536_1_alg».proof.Proof.Kernel.Run
import proofs.«407872_j86337432584536_1_alg».proof.Proof.KernelIdeal.Run
import proofs.«407872_j86337432584536_1_alg».proof.Proof.KernelIdeal.Bridge
import proofs.«407872_j86337432584536_1_alg».proof.Proof.Reference
import proofs.«407872_j86337432584536_1_alg».proof.Proof.Precondition
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the layer's result in their result buffers. -/
theorem algebraic : Cert.algebraic_KernelIdeal_ReferenceIdeal := by
  intro m ρ m' ρ' hpre hagree
  have hs : ∀ c : Dev Cert.KernelIdeal.nD, Cert.GraphSpec.SourcesInRange (Cert.KernelIdeal.Hand.srcA m c) := fun c =>
    Cert.Precondition.sources_in_range _ _ _ _ (hpre c)
  refine ⟨fun c => Cert.GraphSpec.result (Cert.KernelIdeal.Hand.embA m c) (Cert.KernelIdeal.Hand.wA m c)
    (Cert.KernelIdeal.Hand.srcA m c) (Cert.KernelIdeal.Hand.dstA m c), ?_, ?_⟩
  · exact (θ_run Cert.KernelIdeal.defs _ _).mono (fun _ h c =>
      ⟨(h c Cert.KernelIdeal.main_v7 (by decide)).trans (Cert.KernelIdeal.Hand.kernel_value m c (hs c)),
        (h c Cert.KernelIdeal.main_arg0 (by decide)).trans (Cert.KernelIdeal.Hand.W11_main_arg0 m c),
        (h c Cert.KernelIdeal.main_arg1 (by decide)).trans (Cert.KernelIdeal.Hand.W11_main_arg1 m c),
        (h c Cert.KernelIdeal.main_arg2 (by decide)).trans (Cert.KernelIdeal.Hand.W11_main_arg2 m c),
        (h c Cert.KernelIdeal.main_arg3 (by decide)).trans (Cert.KernelIdeal.Hand.W11_main_arg3 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v17_eq _ _ _ _).trans (Cert.RefSide.reference_eq _ _ _ _ (hs c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
